-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x1600000 : Shape := ⟨2, ![2, 1600000]⟩
abbrev S8x64 : Shape := ⟨2, ![8, 64]⟩
abbrev S64 : Shape := ⟨1, ![64]⟩
abbrev S64x64 : Shape := ⟨2, ![64, 64]⟩
abbrev S64x112 : Shape := ⟨2, ![64, 112]⟩
abbrev S112 : Shape := ⟨1, ![112]⟩
abbrev S_ : Shape := ⟨0, ![]⟩
abbrev S1x1600000 : Shape := ⟨2, ![1, 1600000]⟩
abbrev S1600000 : Shape := ⟨1, ![1600000]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x112 : S_.BroadcastsInDim S64x112 (![] : Fin 0 → Fin S64x112.rank)
  reducesTo_S64x112_S_d0_1 : S64x112.ReducesTo [0, 1] S_
  bcast_S_S112 : S_.BroadcastsInDim S112 (![] : Fin 0 → Fin S112.rank)
  reducesTo_S112_S_d0 : S112.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg5 : FVec F S64 .f32) (main_arg6 : FVec F S64x112 .f32) (main_arg7 : FVec F S112 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x112 .f32 := Host.absf main_arg6
  let main_cst_8 : FVec F S_ .f32 := constant S_ .f32 0x7F800000#32
  let main_v25 : FVec F S64x112 .f32 := broadcastInDim S64x112 ![] bcast_S_S64x112 main_cst_8
  let main_v26 : IVec S64x112 1 := cmpf .olt main_v24 main_v25
  let main_c_9 : IVec S_ 1 := constantI S_ 1 1#1
  let main_v27 : IVec S_ 1 := (fun x v => Host.reduce IntOp.andi x v reducesTo_S64x112_S_d0_1 h_S_) main_v26 main_c_9
  let main_v28 : IVec S_ 1 := andi main_v23 main_v27
  let main_v29 : FVec F S112 .f32 := Host.absf main_arg7
  let main_cst_10 : FVec F S_ .f32 := constant S_ .f32 0x7F800000#32
  let main_v30 : FVec F S112 .f32 := broadcastInDim S112 ![] bcast_S_S112 main_cst_10
  let main_v31 : IVec S112 1 := cmpf .olt main_v29 main_v30
  let main_c_11 : IVec S_ 1 := constantI S_ 1 1#1
  let main_v32 : IVec S_ 1 := (fun x v => Host.reduce IntOp.andi x v reducesTo_S112_S_d0 h_S_) main_v31 main_c_11
  let main_v33 : IVec S_ 1 := andi main_v28 main_v32
  fn_part2 (F := F) main_arg1 main_v33

def fn {F : FTy → Type} [FloatOps F] (main_arg0 : FVec F S100000x8 .f32) (main_arg1 : IVec S2x1600000 32) (main_arg2 : FVec F S8x64 .f32) (main_arg3 : FVec F S64 .f32) (main_arg4 : FVec F S64x64 .f32) (main_arg5 : FVec F S64 .f32) (main_arg6 : FVec F S64x112 .f32) (main_arg7 : FVec F S112 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S8x64 .f32 := Host.absf main_arg2
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_v13 main_v16
-- ==== Kernel.lean ====
abbrev S100000x8 : Shape := ⟨2, ![100000, 8]⟩
abbrev S2x1600000 : Shape := ⟨2, ![2, 1600000]⟩
abbrev S8x64 : Shape := ⟨2, ![8, 64]⟩
abbrev S64 : Shape := ⟨1, ![64]⟩
abbrev S64x64 : Shape := ⟨2, ![64, 64]⟩
abbrev S64x112 : Shape := ⟨2, ![64, 112]⟩
abbrev S112 : Shape := ⟨1, ![112]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x8 : Shape := ⟨2, ![5000, 8]⟩
abbrev S5000x1 : Shape := ⟨2, ![5000, 1]⟩
abbrev S5000x64 : Shape := ⟨2, ![5000, 64]⟩
abbrev S1 : Shape := ⟨1, ![1]⟩
abbrev S1x1 : Shape := ⟨2, ![1, 1]⟩
abbrev S1600000x64 : Shape := ⟨2, ![1600000, 64]⟩
abbrev S1x64 : Shape := ⟨2, ![1, 64]⟩
abbrev S100000x112 : Shape := ⟨2, ![100000, 112]⟩
abbrev S5000x112 : Shape := ⟨2, ![5000, 112]⟩
abbrev S1600000x112 : Shape := ⟨2, ![1600000, 112]⟩
abbrev S1x112 : Shape := ⟨2, ![1, 112]⟩

abbrev nBuf : Space → Nat
  | .hbm => 116
  | .vmem => 48
  | .smem => 0
  | _ => 0

abbrev bufTy : (tb : Table) → Fin (tcTables nBuf tb) → BufTy
  | .hbm, ⟨0, _⟩ => ⟨S100000x8, .f32⟩
  | .hbm, ⟨1, _⟩ => ⟨S2x1600000, .i32⟩
  | .hbm, ⟨2, _⟩ => ⟨S8x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x112, .f32⟩
  | .hbm, ⟨7, _⟩ => ⟨S112, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x1, .f32⟩
  | .hbm, ⟨24, _⟩ => ⟨S100000x64, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1, .i32⟩
  | .hbm, ⟨34, _⟩ => ⟨S_, .i32⟩
  | .hbm, ⟨35, _⟩ => ⟨S1600000x1, .i32⟩
  | .hbm, ⟨36, _⟩ => ⟨S1600000x1, .i1⟩
  | .hbm, ⟨37, _⟩ => ⟨S1x1, .i32⟩
  | .hbm, ⟨38, _⟩ => ⟨S1600000x1, .i32⟩
  | .hbm, ⟨39, _⟩ => ⟨S1600000x1, .i1⟩
  | .hbm, ⟨40, _⟩ => ⟨S1600000x1, .i1⟩
  | .hbm, ⟨41, _⟩ => ⟨S_, .i1⟩
  | .hbm, ⟨42, _⟩ => ⟨S1600000, .i1⟩
  | .hbm, ⟨43, _⟩ => ⟨S1600000x64, .f32⟩
  | .hbm, ⟨44, _⟩ => ⟨S1600000x64, .i1⟩
  | .hbm, ⟨45, _⟩ => ⟨S_, .f32⟩
  | .hbm, ⟨46, _⟩ => ⟨S1600000x64, .f32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x1, .f32⟩
  | .hbm, ⟨55, _⟩ => ⟨S100000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1, .i32⟩
  | .hbm, ⟨65, _⟩ => ⟨S_, .i32⟩
  | .hbm, ⟨66, _⟩ => ⟨S1600000x1, .i32⟩
  | .hbm, ⟨67, _⟩ => ⟨S1600000x1, .i1⟩
  | .hbm, ⟨68, _⟩ => ⟨S1x1, .i32⟩
  | .hbm, ⟨69, _⟩ => ⟨S1600000x1, .i32⟩
  | .hbm, ⟨70, _⟩ => ⟨S1600000x1, .i1⟩
  | .hbm, ⟨71, _⟩ => ⟨S1600000x1, .i1⟩
  | .hbm, ⟨72, _⟩ => ⟨S_, .i1⟩
  | .hbm, ⟨73, _⟩ => ⟨S1600000, .i1⟩
  | .hbm, ⟨74, _⟩ => ⟨S1600000x64, .f32⟩
  | .hbm, ⟨75, _⟩ => ⟨S1600000x64, .i1⟩
  | .hbm, ⟨76, _⟩ => ⟨S_, .f32⟩
  | .hbm, ⟨77, _⟩ => ⟨S1600000x64, .f32⟩
  | .hbm, ⟨78, _⟩ => ⟨S1600000x64, .f32⟩
  | .hbm, ⟨79, _⟩ => ⟨S_, .f32⟩
  | .hbm, ⟨80, _⟩ => ⟨S100000x64, .f32⟩
  | .hbm, ⟨81, _⟩ => ⟨S1600000x1, .i32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x1, .f32⟩
  | .hbm, ⟨86, _⟩ => ⟨S100000x112, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1, .i32⟩
  | .hbm, ⟨96, _⟩ => ⟨S_, .i32⟩
  | .hbm, ⟨97, _⟩ => ⟨S1600000x1, .i32⟩
  | .hbm, ⟨98, _⟩ => ⟨S1600000x1, .i1⟩
  | .hbm, ⟨99, _⟩ => ⟨S1x1, .i32⟩
  | .hbm, ⟨100, _⟩ => ⟨S1600000x1, .i32⟩
  | .hbm, ⟨101, _⟩ => ⟨S1600000x1, .i1⟩
  | .hbm, ⟨102, _⟩ => ⟨S1600000x1, .i1⟩
  | .hbm, ⟨103, _⟩ => ⟨S_, .i1⟩
  | .hbm, ⟨104, _⟩ => ⟨S1600000, .i1⟩
  | .hbm, ⟨105, _⟩ => ⟨S1600000x112, .f32⟩
  | .hbm, ⟨106, _⟩ => ⟨S1600000x112, .i1⟩
  | .hbm, ⟨107, _⟩ => ⟨S_, .f32⟩
  | .hbm, ⟨108, _⟩ => ⟨S1600000x112, .f32⟩
  | .hbm, ⟨109, _⟩ => ⟨S1600000x112, .f32⟩
  | .hbm, ⟨110, _⟩ => ⟨S_, .f32⟩
  | .hbm, ⟨111, _⟩ => ⟨S100000x112, .f32⟩
  | .hbm, ⟨112, _⟩ => ⟨S1600000x1, .i32⟩
  | .hbm, ⟨113, _⟩ => ⟨S100000x112, .f32⟩
  | .hbm, ⟨114, _⟩ => ⟨S1x112, .f32⟩
  | .hbm, ⟨115, _⟩ => ⟨S100000x112, .f32⟩
  | .local _ .vmem, ⟨0, _⟩ => ⟨S5000x8, .f32⟩
  | .local _ .vmem, ⟨1, _⟩ => ⟨S5000x8, .f32⟩
  | .local _ .vmem, ⟨2, _⟩ => ⟨S8x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S5000x1, .f32⟩
  | .local _ .vmem, ⟨20, _⟩ => ⟨S5000x1, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x112, .f32⟩
  | .local _ .vmem, ⟨35, _⟩ => ⟨S5000x1, .f32⟩
  | .local _ .vmem, ⟨36, _⟩ => ⟨S5000x1, .f32⟩
  | .local _ .vmem, ⟨37, _⟩ => ⟨S5000x112, .f32⟩
  | .local _ .vmem, ⟨38, _⟩ => ⟨S5000x112, .f32⟩
  | .local _ .vmem, ⟨39, _⟩ => ⟨S5000x112, .f32⟩
  | .local _ .vmem, ⟨40, _⟩ => ⟨S5000x112, .f32⟩
  | .local _ .vmem, ⟨41, _⟩ => ⟨S5000x112, .f32⟩
  | .local _ .vmem, ⟨42, _⟩ => ⟨S5000x112, .f32⟩
  | .local _ .vmem, ⟨43, _⟩ => ⟨S5000x1, .f32⟩
  | .local _ .vmem, ⟨44, _⟩ => ⟨S5000x1, .f32⟩
  | .local _ .vmem, ⟨45, _⟩ => ⟨S1x112, .f32⟩
  | .local _ .vmem, ⟨46, _⟩ => ⟨S5000x112, .f32⟩
  | .local _ .vmem, ⟨47, _⟩ => ⟨S5000x112, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v22 : Ref sig .tc := ⟨.hbm, 78, rfl⟩
abbrev main_cst_3 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v30 : Ref sig .tc := ⟨.hbm, 109, rfl⟩
abbrev main_cst_4 : Ref sig .tc := ⟨.hbm, 110, rfl⟩
abbrev main_v31 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc5_sem3_0 : DmaSem sig := 45
abbrev cc5_sem4_0 : DmaSem sig := 46
abbrev cc5_sem4_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x112 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x112 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x112 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x112 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x112 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x112 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x8_S5000x8_0_0 : ∀ a, (![0, 0] : Fin 2 → Nat) a + S5000x8.size a ≤ S5000x8.size a
  h_S5000x8 : 0 < S5000x8.numel
  bitsLt_bf16_f32 : FTy.bits .bf16 < FTy.bits .f32
  inb_S8x64_S8x64_0_0 : ∀ a, (![0, 0] : Fin 2 → Nat) a + S8x64.size a ≤ S8x64.size a
  h_S8x64 : 0 < S8x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x112_S64x112_0_0 : ∀ a, (![0, 0] : Fin 2 → Nat) a + S64x112.size a ≤ S64x112.size a
  h_S64x112 : 0 < S64x112.numel
  broadcasts_S5000x1_S5000x112 : S5000x1.Broadcasts S5000x112
  inb_S5000x112_S5000x112_0_0 : ∀ a, (![0, 0] : Fin 2 → Nat) a + S5000x112.size a ≤ S5000x112.size a
  h_S5000x112 : 0 < S5000x112.numel
  bcast_S1600000_S1600000x112_0 : S1600000.BroadcastsInDim S1600000x112 (![0] : Fin 1 → Fin S1600000x112.rank)
  bcast_S_S1600000x112 : S_.BroadcastsInDim S1600000x112 (![] : Fin 0 → Fin S1600000x112.rank)
  bcast_S_S100000x112 : S_.BroadcastsInDim S100000x112 (![] : Fin 0 → Fin S100000x112.rank)
  shapeCasts_S112_S1x112 : S112.ShapeCasts S1x112
  shapeCasts_S5000x112_S5000x112 : S5000x112.ShapeCasts S5000x112
  inb_S1x112_S1x112_0_0 : ∀ a, (![0, 0] : Fin 2 → Nat) a + S1x112.size a ≤ S1x112.size a
  h_S1x112 : 0 < S1x112.numel
  shapeCasts_S1x112_S1x112 : S1x112.ShapeCasts S1x112
  broadcasts_S1x112_S5000x112 : S1x112.Broadcasts S5000x112
  scatter_S100000_S1600000x1_S1600000_n_0_0_1_wf : ScatterDims.WF S100000 S1600000x1 S1600000 [] [0] [0] 1
  dot_S5000x8_S8x64_S5000x64_1_0_0_1_n_n_wf : DotDims.WF S5000x8 S8x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x112_S5000x112_1_0_0_1_n_n_wf : DotDims.WF S5000x64 S64x112 S5000x112 [1] [0] [0] [1] [] []
  gather_S100000x112_S1600000x1_S1600000x112_1_0_n_n_0_1_1112_wf : GatherDims.WF S100000x112 S1600000x1 S1600000x112 [1] [0] [] [0] [] 1 ![1, 112]
  scatter_S100000x112_S1600000x1_S1600000x112_1_0_0_1_wf : ScatterDims.WF S100000x112 S1600000x1 S1600000x112 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S100000x8.size a
  hwx0_0 : ∀ i : grid0.Coords, EltTy.bits .f32 = 32 ∨ (Rect.block (s := S100000x8) S5000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x112.size a ≤ S64x112.size a
  hwx4_1 : ∀ i : grid4.Coords, EltTy.bits .f32 = 32 ∨ (Rect.block (s := S64x112) S64x112.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x112.size a ≤ S100000x112.size a
  hwx4_3 : ∀ i : grid4.Coords, EltTy.bits .f32 = 32 ∨ (Rect.block (s := S100000x112) S5000x112.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x112.size a ≤ S100000x112.size a
  hwx5_0 : ∀ i : grid5.Coords, EltTy.bits .f32 = 32 ∨ (Rect.block (s := S100000x112) S5000x112.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x112.size a ≤ S100000x112.size a
  hwx5_1 : ∀ i : grid5.Coords, EltTy.bits .f32 = 32 ∨ (Rect.block (s := S100000x112) S5000x112.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x112.size a ≤ S1x112.size a
  hwx5_3 : ∀ i : grid5.Coords, EltTy.bits .f32 = 32 ∨ (Rect.block (s := S1x112) S1x112.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x112.size a ≤ S100000x112.size a
  hwx5_4 : ∀ i : grid5.Coords, EltTy.bits .f32 = 32 ∨ (Rect.block (s := S100000x112) S5000x112.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x112_S5000x112_1_0_0_1_n_n : DotDims S5000x64 S64x112 S5000x112 where
  lhsContracting := [1]
  rhsContracting := [0]
  lhsNonContracting := [0]
  rhsNonContracting := [1]
  lhsBatch := []
  rhsBatch := []
  wf := dot_S5000x64_S64x112_S5000x112_1_0_0_1_n_n_wf
def gather_S100000x112_S1600000x1_S1600000x112_1_0_n_n_0_1_1112 : GatherDims S100000x112 S1600000x1 S1600000x112 where
  offsetDims := [1]
  collapsedSliceDims := [0]
  operandBatchingDims := []
  startIndicesBatchingDims := []
  startIndexMap := [0]
  indexVectorDim := 1
  sliceSizes := ![1, 112]
  wf := gather_S100000x112_S1600000x1_S1600000x112_1_0_n_n_0_1_1112_wf
def scatter_S100000x112_S1600000x1_S1600000x112_1_0_0_1 : ScatterDims S100000x112 S1600000x1 S1600000x112 where
  updateWindowDims := [1]
  insertedWindowDims := [0]
  scatterDimsToOperandDims := [0]
  indexVectorDim := 1
  wf := scatter_S100000x112_S1600000x1_S1600000x112_1_0_0_1_wf

abbrev win0_0 : Pipeline.Window sig grid0 :=
  Pipeline.Window.ofSpec (Memref.whole main_arg0) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v19) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v25) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v26) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v27) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v27) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x112.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v28) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v29) S5000x112.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v33) S5000x112.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v29) S5000x112.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v34) S1x112.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v35) S5000x112.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x8 : Shape := ⟨2, ![100000, 8]⟩
abbrev S2x1600000 : Shape := ⟨2, ![2, 1600000]⟩
abbrev S8x64 : Shape := ⟨2, ![8, 64]⟩
abbrev S64 : Shape := ⟨1, ![64]⟩
abbrev S64x64 : Shape := ⟨2, ![64, 64]⟩
abbrev S64x112 : Shape := ⟨2, ![64, 112]⟩
abbrev S112 : Shape := ⟨1, ![112]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x112 : Shape := ⟨2, ![100000, 112]⟩
abbrev S1600000x112 : Shape := ⟨2, ![1600000, 112]⟩
abbrev S1x112 : Shape := ⟨2, ![1, 112]⟩

abbrev nBuf : Space → Nat
  | .hbm => 180
  | .vmem => 0
  | .smem => 0
  | _ => 0

abbrev hbmTy0_0 (i : Nat) : BufTy := match i % 128 with
  | 0 => ⟨S100000x8, .f32⟩
  | 1 => ⟨S2x1600000, .i32⟩
  | 2 => ⟨S8x64, .f32⟩
  | 3 => ⟨S64, .f32⟩
  | 4 => ⟨S64x64, .f32⟩
  | 5 => ⟨S64, .f32⟩
  | 6 => ⟨S64x112, .f32⟩
  | 7 => ⟨S112, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S1600000x1, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S1600000x1, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x64, .f32⟩
  | 109 => ⟨S1600000x64, .f32⟩
  | 110 => ⟨S1600000x64, .f32⟩
  | 111 => ⟨S_, .f32⟩
  | 112 => ⟨S100000x64, .f32⟩
  | 113 => ⟨S1600000x1, .i32⟩
  | 114 => ⟨S100000x64, .f32⟩
  | 115 => ⟨S100000, .f32⟩
  | 116 => ⟨S100000x1, .f32⟩
  | 117 => ⟨S100000x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S100000x112, .f32⟩
  | 127 => ⟨S_, .f32⟩
  | _ => ⟨S100000x8, .f32⟩

abbrev hbmTy0_1 (i : Nat) : BufTy := match i % 128 with
  | 0 => ⟨S1600000, .f32⟩
  | 1 => ⟨S_, .f32⟩
  | 2 => ⟨S100000, .f32⟩
  | 3 => ⟨S1600000x1, .i32⟩
  | 4 => ⟨S100000, .f32⟩
  | 5 => ⟨S_, .f32⟩
  | 6 => ⟨S100000, .f32⟩
  | 7 => ⟨S100000, .f32⟩
  | 8 => ⟨S100000, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000, .f32⟩
  | 27 => ⟨S1600000, .f32⟩
  | 28 => ⟨S1600000x1, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x112, .f32⟩
  | 38 => ⟨S1600000x112, .f32⟩
  | 39 => ⟨S1600000x112, .f32⟩
  | 40 => ⟨S_, .f32⟩
  | 41 => ⟨S100000x112, .f32⟩
  | 42 => ⟨S1600000x1, .i32⟩
  | 43 => ⟨S100000x112, .f32⟩
  | 44 => ⟨S100000, .f32⟩
  | 45 => ⟨S100000x1, .f32⟩
  | 46 => ⟨S100000x112, .f32⟩
  | 47 => ⟨S100000x112, .f32⟩
  | 48 => ⟨S100000x112, .f32⟩
  | 49 => ⟨S1x112, .f32⟩
  | 50 => ⟨S100000x112, .f32⟩
  | 51 => ⟨S100000x112, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_c_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_cst_18 : Ref sig .tc := ⟨.hbm, 127, rfl⟩
abbrev main_v95 : Ref sig .tc := ⟨.hbm, 128, rfl⟩
abbrev main_cst_19 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_20 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_21 : Ref sig .tc := ⟨.hbm, 137, rfl⟩
abbrev main_v102 : Ref sig .tc := ⟨.hbm, 138, rfl⟩
abbrev main_v103 : Ref sig .tc := ⟨.hbm, 139, rfl⟩
abbrev main_c_22 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_23 : Ref sig .tc := ⟨.hbm, 146, rfl⟩
abbrev main_v109 : Ref sig .tc := ⟨.hbm, 147, rfl⟩
abbrev main_v110 : Ref sig .tc := ⟨.hbm, 148, rfl⟩
abbrev main_c_24 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_c_25 : Ref sig .tc := ⟨.hbm, 157, rfl⟩
abbrev main_v118 : Ref sig .tc := ⟨.hbm, 158, rfl⟩
abbrev main_v119 : Ref sig .tc := ⟨.hbm, 159, rfl⟩
abbrev main_c_26 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_27 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x112_0_1 : S1600000x1.BroadcastsInDim S1600000x112 (![0, 1] : Fin 2 → Fin S1600000x112.rank)
  bcast_S_S100000x112 : S_.BroadcastsInDim S100000x112 (![] : Fin 0 → Fin S100000x112.rank)
  bcast_S100000x1_S100000x112_0_1 : S100000x1.BroadcastsInDim S100000x112 (![0, 1] : Fin 2 → Fin S100000x112.rank)
  bcast_S112_S1x112_1 : S112.BroadcastsInDim S1x112 (![1] : Fin 1 → Fin S1x112.rank)
  bcast_S1x112_S100000x112_0_1 : S1x112.BroadcastsInDim S100000x112 (![0, 1] : Fin 2 → Fin S100000x112.rank)
  dot_S100000x8_S8x64_S100000x64_1_0_0_1_n_n_wf : DotDims.WF S100000x8 S8x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x112_S100000x112_1_0_0_1_n_n_wf : DotDims.WF S100000x64 S64x112 S100000x112 [1] [0] [0] [1] [] []
  gather_S100000x112_S1600000x1_S1600000x112_1_0_n_n_0_1_1112_wf : GatherDims.WF S100000x112 S1600000x1 S1600000x112 [1] [0] [] [0] [] 1 ![1, 112]
  scatter_S100000x112_S1600000x1_S1600000x112_1_0_0_1_wf : ScatterDims.WF S100000x112 S1600000x1 S1600000x112 [1] [0] [0] 1

variable [Facts₀]

def dot_S100000x8_S8x64_S100000x64_1_0_0_1_n_n : DotDims S100000x8 S8x64 S100000x64 where
  lhsContracting := [1]
  rhsContracting := [0]
  lhsNonContracting := [0]
  rhsNonContracting := [1]
  lhsBatch := []
  rhsBatch := []
  wf := dot_S100000x8_S8x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x112_S100000x112_1_0_0_1_n_n : DotDims S100000x64 S64x112 S100000x112 where
  lhsContracting := [1]
  rhsContracting := [0]
  lhsNonContracting := [0]
  rhsNonContracting := [1]
  lhsBatch := []
  rhsBatch := []
  wf := dot_S100000x64_S64x112_S100000x112_1_0_0_1_n_n_wf
def gather_S100000x112_S1600000x1_S1600000x112_1_0_n_n_0_1_1112 : GatherDims S100000x112 S1600000x1 S1600000x112 where
  offsetDims := [1]
  collapsedSliceDims := [0]
  operandBatchingDims := []
  startIndicesBatchingDims := []
  startIndexMap := [0]
  indexVectorDim := 1
  sliceSizes := ![1, 112]
  wf := gather_S100000x112_S1600000x1_S1600000x112_1_0_n_n_0_1_1112_wf
def scatter_S100000x112_S1600000x1_S1600000x112_1_0_0_1 : ScatterDims S100000x112 S1600000x1 S1600000x112 where
  updateWindowDims := [1]
  insertedWindowDims := [0]
  scatterDimsToOperandDims := [0]
  indexVectorDim := 1
  wf := scatter_S100000x112_S1600000x1_S1600000x112_1_0_0_1_wf

class Facts : Prop extends Facts₀ where

variable [Facts]
-- ==== Proof.Terms.lean ====
/-
  The values the kernel program's buffers take, as functions of its eight argument arrays, over the extended reals.

  The program is three graph-convolution layers over one edge list. From row 1 of the edge list (the destination
  node of every edge) it counts, per node, the edges arriving there, adds the self loop, and takes the reciprocal
  square root: `degInv`. A layer takes node features `X`, a weight matrix and a bias row: the first pallas_call
  scales the product `X · W` row by row by `degInv` (`scaled…`); the host takes the scaled rows at every edge's source
  node (`takeRows…`: an out-of-range source reads the not-a-number pattern) and adds them up per destination node
  (`aggregate…`); the second pallas_call adds the node's own scaled row, scales the sum by `degInv` again, adds the
  bias and (in layers one and two) clips at zero (`combine…`).
-/
import proofs.«421954_j14886356648486_2_alg».proof.Proof.Gen.KernelIdeal.Frame
import Idealize.ShloMosaic.Lib.ValueIdx

noncomputable section

namespace Cert.KernelIdeal.Terms

open Idealize.ShloMosaic Idealize.ShloMosaic.ValueIdx Cert.KernelIdeal Cert.KernelIdeal.Gen

/-- A float array over the extended reals. -/
abbrev Arr (s : Shape) : Type := FVec Ideal s .f32

/-! ## The edge list's two rows and the degree normalisation -/

/-- Row 0 of the edge list: the source node of every edge. -/
def srcW (e : IVec S2x1600000 32) : IVec S1600000 32 :=
  shapeCast S1600000 (extractStridedSlice S1x1600000 ![0, 0] e slices_S2x1600000_S1x1600000_0_0) shapeCasts_S1x1600000_S1600000

/-- Row 1 of the edge list: the destination node of every edge. -/
def dstW (e : IVec S2x1600000 32) : IVec S1600000 32 :=
  shapeCast S1600000 (extractStridedSlice S1x1600000 ![1, 0] e slices_S2x1600000_S1x1600000_1_0) shapeCasts_S1x1600000_S1600000

/-- The destinations as the one-column index table a scatter reads. -/
def dstCol (e : IVec S2x1600000 32) : IVec S1600000x1 32 :=
  broadcastInDim S1600000x1 ![0] bcast_S1600000_S1600000x1_0 (dstW e)

/-- `(1 + number of edges arriving at the node)^(-1/2)`, per node. -/
def degInv (e : IVec S2x1600000 32) : Arr S100000 :=
  Host.rsqrt (addf
    (Host.scatterAdd scatter_S100000_S1600000x1_S1600000_n_0_0_1
      (broadcastInDim S100000 ![] bcast_S_S100000 (constant S_ .f32 0x00000000#32)) (dstCol e)
      (broadcastInDim S1600000 ![] bcast_S_S1600000 (constant S_ .f32 0x3F800000#32)))
    (broadcastInDim S100000 ![] bcast_S_S100000 (constant S_ .f32 0x3F800000#32)))

/-- The same as a column. -/
def degCol (e : IVec S2x1600000 32) : Arr S100000x1 :=
  shapeCast S100000x1 (degInv e) shapeCasts_S100000_S100000x1

/-! ## Rows taken at the edges' sources, and their sums per destination -/

/-- A source word with a negative value moved up by the node count (as `jnp.take` reads negative positions). -/
def wrapped (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Per edge: is the (moved) source a node number? -/
def inRange (s : IVec S1600000 32) : IVec S1600000 1 :=
  Host.reduce IntOp.andi
    (andi (cmpi .sge (wrapped s) (broadcastInDim S1600000x1 ![] bcast_S_S1600000x1 (constantI S_ 32 0#32)))
      (cmpi .sle (wrapped s) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- Row `src e` of a 64-column array for every edge `e`; the not-a-number pattern where the source is no node. -/
def takeRows64 (H : Arr S100000x64) (s : IVec S1600000 32) : Arr S1600000x64 :=
  select (broadcastInDim S1600000x64 ![0] bcast_S1600000_S1600000x64_0 (inRange s))
    (Host.gather gather_S100000x64_S1600000x1_S1600000x64_1_0_n_n_0_1_164 H (wrapped s))
    (broadcastInDim S1600000x64 ![] bcast_S_S1600000x64 (constant S_ .f32 0x7FC00000#32))

/-- The same for a 112-column array. -/
def takeRows112 (H : Arr S100000x112) (s : IVec S1600000 32) : Arr S1600000x112 :=
  select (broadcastInDim S1600000x112 ![0] bcast_S1600000_S1600000x112_0 (inRange s))
    (Host.gather gather_S100000x112_S1600000x1_S1600000x112_1_0_n_n_0_1_1112 H (wrapped s))
    (broadcastInDim S1600000x112 ![] bcast_S_S1600000x112 (constant S_ .f32 0x7FC00000#32))

/-- Per node, the sum of the edge rows whose destination it is (64 columns). -/
def aggregate64 (G : Arr S1600000x64) (e : IVec S2x1600000 32) : Arr S100000x64 :=
  Host.scatterAdd scatter_S100000x64_S1600000x1_S1600000x64_1_0_0_1
    (broadcastInDim S100000x64 ![] bcast_S_S100000x64 (constant S_ .f32 0x00000000#32)) (dstCol e) G

/-- The same with 112 columns. -/
def aggregate112 (G : Arr S1600000x112) (e : IVec S2x1600000 32) : Arr S100000x112 :=
  Host.scatterAdd scatter_S100000x112_S1600000x1_S1600000x112_1_0_0_1
    (broadcastInDim S100000x112 ![] bcast_S_S100000x112 (constant S_ .f32 0x00000000#32)) (dstCol e) G

/-- A bias vector as a one-row array. -/
def biasRow64 (b : Arr S64) : Arr S1x64 := shapeCast S1x64 b shapeCasts_S64_S1x64
def biasRow112 (b : Arr S112) : Arr S1x112 := shapeCast S1x112 b shapeCasts_S112_S1x112

/-! ## What each pallas_call leaves in its output array, entry by entry -/

/-- Row `r` of `X · W` scaled by the column's entry `r` (8 → 64). -/
def scaled8x64 (X : Arr S100000x8) (Wt : Arr S8x64) (dc : Arr S100000x1) : Arr S100000x64 :=
  fun i => dc (ix2 (⟨(i 0).val, (i 0).isLt⟩ : Fin 100000) (0 : Fin 1))
    * ∑ k : Fin 8, X (ix2 (⟨(i 0).val, (i 0).isLt⟩ : Fin 100000) k) * Wt (ix2 k (⟨(i 1).val, (i 1).isLt⟩ : Fin 64))

/-- The same, 64 → 64. -/
def scaled64x64 (X : Arr S100000x64) (Wt : Arr S64x64) (dc : Arr S100000x1) : Arr S100000x64 :=
  fun i => dc (ix2 (⟨(i 0).val, (i 0).isLt⟩ : Fin 100000) (0 : Fin 1))
    * ∑ k : Fin 64, X (ix2 (⟨(i 0).val, (i 0).isLt⟩ : Fin 100000) k) * Wt (ix2 k (⟨(i 1).val, (i 1).isLt⟩ : Fin 64))

/-- The same, 64 → 112. -/
def scaled64x112 (X : Arr S100000x64) (Wt : Arr S64x112) (dc : Arr S100000x1) : Arr S100000x112 :=
  fun i => dc (ix2 (⟨(i 0).val, (i 0).isLt⟩ : Fin 100000) (0 : Fin 1))
    * ∑ k : Fin 64, X (ix2 (⟨(i 0).val, (i 0).isLt⟩ : Fin 100000) k) * Wt (ix2 k (⟨(i 1).val, (i 1).isLt⟩ : Fin 112))

/-- `max (d_r · (A + H) + b) 0`, entry by entry (64 columns). -/
def combineClip64 (A H : Arr S100000x64) (dc : Arr S100000x1) (b : Arr S1x64) : Arr S100000x64 :=
  fun i => max (dc (ix2 (⟨(i 0).val, (i 0).isLt⟩ : Fin 100000) (0 : Fin 1)) * (A i + H i)
      + b (ix2 (0 : Fin 1) (⟨(i 1).val, (i 1).isLt⟩ : Fin 64)))
    (Ideal.ofBits .f32 0x00000000#32)

/-- `d_r · (A + H) + b`, entry by entry (112 columns, no clipping). -/
def combine112 (A H : Arr S100000x112) (dc : Arr S100000x1) (b : Arr S1x112) : Arr S100000x112 :=
  fun i => dc (ix2 (⟨(i 0).val, (i 0).isLt⟩ : Fin 100000) (0 : Fin 1)) * (A i + H i)
      + b (ix2 (0 : Fin 1) (⟨(i 1).val, (i 1).isLt⟩ : Fin 112))

/-! ## The three layers, and the program's result -/

def layer1 (x : Arr S100000x8) (e : IVec S2x1600000 32) (w : Arr S8x64) (b : Arr S64) : Arr S100000x64 :=
  combineClip64 (aggregate64 (takeRows64 (scaled8x64 x w (degCol e)) (srcW e)) e) (scaled8x64 x w (degCol e)) (degCol e) (biasRow64 b)

def layer2 (x : Arr S100000x64) (e : IVec S2x1600000 32) (w : Arr S64x64) (b : Arr S64) : Arr S100000x64 :=
  combineClip64 (aggregate64 (takeRows64 (scaled64x64 x w (degCol e)) (srcW e)) e) (scaled64x64 x w (degCol e)) (degCol e) (biasRow64 b)

def layer3 (x : Arr S100000x64) (e : IVec S2x1600000 32) (w : Arr S64x112) (b : Arr S112) : Arr S100000x112 :=
  combine112 (aggregate112 (takeRows112 (scaled64x112 x w (degCol e)) (srcW e)) e) (scaled64x112 x w (degCol e)) (degCol e) (biasRow112 b)

/-- The precondition's added conjunct: every source word is a node number. -/
def SrcOk (e : IVec S2x1600000 32) : Prop :=
  ∀ p : Fin 1600000, (0 : Int) ≤ (srcW e (ix1 p)).toInt ∧ (srcW e (ix1 p)).toInt < 100000

end Cert.KernelIdeal.Terms

end
-- ==== Proof.States.lean ====
/-
  What the program's live buffers hold each time a pallas_call is entered, as functions of the launch contents of the
  eight arguments: the bookkeeping between the host stretches and the regions. `Wk` are the generated frame's buffer
  contents at the boundaries of @main's fifteen segments; each record below lists the buffers some later segment still
  reads.
-/
import proofs.«421954_j14886356648486_2_alg».proof.Proof.Terms

noncomputable section

namespace Cert.KernelIdeal.States

open Idealize.ShloMosaic Idealize.ShloMosaic.TcCoe Idealize.ShloMosaic.ValueIdx Idealize.SL.Sem
open Cert.KernelIdeal Cert.KernelIdeal.Gen Cert.KernelIdeal.Terms
open Idealize.ShloMosaic.Pipeline (Dat)
open scoped BigOperators

variable (m : (ℓ : Loc nD τ sig) → Buf (Elt Ideal) ℓ) (ρ : Dev nD → PrngReg) (c : Dev nD)

/-- The launch contents of the arguments on core `c`. -/
abbrev A0 : Arr S100000x8 := m ((c : Thread nD τ).loc main_arg0)
abbrev A1 : IVec S2x1600000 32 := m ((c : Thread nD τ).loc main_arg1)
abbrev A2 : Arr S8x64 := m ((c : Thread nD τ).loc main_arg2)
abbrev A3 : Arr S64 := m ((c : Thread nD τ).loc main_arg3)
abbrev A4 : Arr S64x64 := m ((c : Thread nD τ).loc main_arg4)
abbrev A5 : Arr S64 := m ((c : Thread nD τ).loc main_arg5)
abbrev A6 : Arr S64x112 := m ((c : Thread nD τ).loc main_arg6)
abbrev A7 : Arr S112 := m ((c : Thread nD τ).loc main_arg7)

/-- Layer by layer: the scaled products and the layers' results. -/
abbrev H1 : Arr S100000x64 := scaled8x64 (A0 m c) (A2 m c) (degCol (A1 m c))
abbrev X1 : Arr S100000x64 := layer1 (A0 m c) (A1 m c) (A2 m c) (A3 m c)
abbrev H2 : Arr S100000x64 := scaled64x64 (X1 m c) (A4 m c) (degCol (A1 m c))
abbrev X2 : Arr S100000x64 := layer2 (X1 m c) (A1 m c) (A4 m c) (A5 m c)
abbrev H3 : Arr S100000x112 := scaled64x112 (X2 m c) (A6 m c) (degCol (A1 m c))
abbrev X3 : Arr S100000x112 := layer3 (X2 m c) (A1 m c) (A6 m c) (A7 m c)

/-- Entering pallas_call 0 (after the first host stretch). -/
structure At1 : Prop where
  v1 : W1 m ρ c (Proc.devRef .tc main_v1) = srcW (A1 m c)
  v3 : W1 m ρ c (Proc.devRef .tc main_v3) = dstW (A1 m c)
  v10 : W1 m ρ c (Proc.devRef .tc main_v10) = degInv (A1 m c)
  v11 : W1 m ρ c (Proc.devRef .tc main_v11) = degCol (A1 m c)
  v12 : W1 m ρ c (Proc.devRef .tc main_v12) = degCol (A1 m c)
  g0 : W1 m ρ c (Proc.devRef .tc main_arg0) = A0 m c
  g2 : W1 m ρ c (Proc.devRef .tc main_arg2) = A2 m c
  g3 : W1 m ρ c (Proc.devRef .tc main_arg3) = A3 m c
  g4 : W1 m ρ c (Proc.devRef .tc main_arg4) = A4 m c
  g5 : W1 m ρ c (Proc.devRef .tc main_arg5) = A5 m c
  g6 : W1 m ρ c (Proc.devRef .tc main_arg6) = A6 m c
  g7 : W1 m ρ c (Proc.devRef .tc main_arg7) = A7 m c

/-- Entering pallas_call 1. -/
structure At4 : Prop where
  v17 : W4 m ρ c (Proc.devRef .tc main_v17) = aggregate64 (takeRows64 (H1 m c) (srcW (A1 m c))) (A1 m c)
  v13 : W4 m ρ c (Proc.devRef .tc main_v13) = H1 m c
  v11 : W4 m ρ c (Proc.devRef .tc main_v11) = degCol (A1 m c)
  v18 : W4 m ρ c (Proc.devRef .tc main_v18) = biasRow64 (A3 m c)
  v1 : W4 m ρ c (Proc.devRef .tc main_v1) = srcW (A1 m c)
  v3 : W4 m ρ c (Proc.devRef .tc main_v3) = dstW (A1 m c)
  v10 : W4 m ρ c (Proc.devRef .tc main_v10) = degInv (A1 m c)
  g4 : W4 m ρ c (Proc.devRef .tc main_arg4) = A4 m c
  g5 : W4 m ρ c (Proc.devRef .tc main_arg5) = A5 m c
  g6 : W4 m ρ c (Proc.devRef .tc main_arg6) = A6 m c
  g7 : W4 m ρ c (Proc.devRef .tc main_arg7) = A7 m c

/-- Entering pallas_call 2. -/
structure At6 : Prop where
  v19 : W6 m ρ c (Proc.devRef .tc main_v19) = X1 m c
  v20 : W6 m ρ c (Proc.devRef .tc main_v20) = degCol (A1 m c)
  v11 : W6 m ρ c (Proc.devRef .tc main_v11) = degCol (A1 m c)
  v1 : W6 m ρ c (Proc.devRef .tc main_v1) = srcW (A1 m c)
  v3 : W6 m ρ c (Proc.devRef .tc main_v3) = dstW (A1 m c)
  v10 : W6 m ρ c (Proc.devRef .tc main_v10) = degInv (A1 m c)
  g4 : W6 m ρ c (Proc.devRef .tc main_arg4) = A4 m c
  g5 : W6 m ρ c (Proc.devRef .tc main_arg5) = A5 m c
  g6 : W6 m ρ c (Proc.devRef .tc main_arg6) = A6 m c
  g7 : W6 m ρ c (Proc.devRef .tc main_arg7) = A7 m c

/-- Entering pallas_call 3. -/
structure At9 : Prop where
  v25 : W9 m ρ c (Proc.devRef .tc main_v25) = aggregate64 (takeRows64 (H2 m c) (srcW (A1 m c))) (A1 m c)
  v21 : W9 m ρ c (Proc.devRef .tc main_v21) = H2 m c
  v11 : W9 m ρ c (Proc.devRef .tc main_v11) = degCol (A1 m c)
  v26 : W9 m ρ c (Proc.devRef .tc main_v26) = biasRow64 (A5 m c)
  v1 : W9 m ρ c (Proc.devRef .tc main_v1) = srcW (A1 m c)
  v3 : W9 m ρ c (Proc.devRef .tc main_v3) = dstW (A1 m c)
  v10 : W9 m ρ c (Proc.devRef .tc main_v10) = degInv (A1 m c)
  g6 : W9 m ρ c (Proc.devRef .tc main_arg6) = A6 m c
  g7 : W9 m ρ c (Proc.devRef .tc main_arg7) = A7 m c

/-- Entering pallas_call 4. -/
structure At11 : Prop where
  v27 : W11 m ρ c (Proc.devRef .tc main_v27) = X2 m c
  v28 : W11 m ρ c (Proc.devRef .tc main_v28) = degCol (A1 m c)
  v11 : W11 m ρ c (Proc.devRef .tc main_v11) = degCol (A1 m c)
  v1 : W11 m ρ c (Proc.devRef .tc main_v1) = srcW (A1 m c)
  v3 : W11 m ρ c (Proc.devRef .tc main_v3) = dstW (A1 m c)
  g6 : W11 m ρ c (Proc.devRef .tc main_arg6) = A6 m c
  g7 : W11 m ρ c (Proc.devRef .tc main_arg7) = A7 m c

/-- Entering pallas_call 5. -/
structure At14 : Prop where
  v33 : W14 m ρ c (Proc.devRef .tc main_v33) = aggregate112 (takeRows112 (H3 m c) (srcW (A1 m c))) (A1 m c)
  v29 : W14 m ρ c (Proc.devRef .tc main_v29) = H3 m c
  v11 : W14 m ρ c (Proc.devRef .tc main_v11) = degCol (A1 m c)
  v34 : W14 m ρ c (Proc.devRef .tc main_v34) = biasRow112 (A7 m c)

end Cert.KernelIdeal.States

end
-- ==== Proof.Region0.lean ====
/-
  Each grid point of the first pallas_call writes one block of 5000 rows of `d ⊙ (X · W)`; the twenty blocks tile the
  array, so the array it leaves is that function of the three arrays it reads, entry by entry (8 → 64 columns).
-/
import proofs.«421954_j14886356648486_2_alg».proof.Proof.Terms
import Idealize.ShloMosaic.Lib.Pipeline.Value
import Idealize.ShloMosaic.Lib.ValueLayout
import Idealize.ShloMosaic.PureOps.Ideal.Laws

noncomputable section

namespace Cert.KernelIdeal.Region0

open Idealize.ShloMosaic Idealize.ShloMosaic.TcCoe Idealize.ShloMosaic.ValueIdx Idealize.SL.Sem
open Cert.KernelIdeal Cert.KernelIdeal.Gen Cert.KernelIdeal.Terms
open Idealize.ShloMosaic.Pipeline (Dat)
open scoped BigOperators

/-! ## The product at an index -/

theorem lhs_axis0 (i : S5000x64.Idx) (q : dot_S5000x8_S8x64_S5000x64_1_0_0_1_n_n.contr.Idx) :
    (dot_S5000x8_S8x64_S5000x64_1_0_0_1_n_n.lhsIdx i q 0).val = (i 0).val := by
  unfold DotDims.lhsIdx
  rw [dif_neg (show ¬(0 : Fin S5000x8.rank) ∈ dot_S5000x8_S8x64_S5000x64_1_0_0_1_n_n.lhsBatch by decide), dif_pos (show (0 : Fin S5000x8.rank) ∈ dot_S5000x8_S8x64_S5000x64_1_0_0_1_n_n.lhsNonContracting by decide)]
  rfl
theorem lhs_axis1 (i : S5000x64.Idx) (q : dot_S5000x8_S8x64_S5000x64_1_0_0_1_n_n.contr.Idx) :
    (dot_S5000x8_S8x64_S5000x64_1_0_0_1_n_n.lhsIdx i q 1).val = (q ⟨0, by decide⟩).val :=
  dot_S5000x8_S8x64_S5000x64_1_0_0_1_n_n.lhsIdx_val_of_single rfl i q
theorem rhs_axis0 (i : S5000x64.Idx) (q : dot_S5000x8_S8x64_S5000x64_1_0_0_1_n_n.contr.Idx) :
    (dot_S5000x8_S8x64_S5000x64_1_0_0_1_n_n.rhsIdx i q 0).val = (q ⟨0, by decide⟩).val :=
  dot_S5000x8_S8x64_S5000x64_1_0_0_1_n_n.rhsIdx_val_of_single rfl i q
theorem rhs_axis1 (i : S5000x64.Idx) (q : dot_S5000x8_S8x64_S5000x64_1_0_0_1_n_n.contr.Idx) :
    (dot_S5000x8_S8x64_S5000x64_1_0_0_1_n_n.rhsIdx i q 1).val = (i 1).val := by
  unfold DotDims.rhsIdx
  rw [dif_neg (show ¬(1 : Fin S8x64.rank) ∈ dot_S5000x8_S8x64_S5000x64_1_0_0_1_n_n.rhsBatch by decide), dif_pos (show (1 : Fin S8x64.rank) ∈ dot_S5000x8_S8x64_S5000x64_1_0_0_1_n_n.rhsNonContracting by decide)]
  rfl

/-- The block product into the zero accumulator, at row `p` and column `q`: the sum over the eight inner positions. -/
theorem product_apply (a : FVec Ideal S5000x8 .bf16) (b : FVec Ideal S8x64 .bf16) (p : Fin 5000) (q : Fin 64) :
    matmul dot_S5000x8_S8x64_S5000x64_1_0_0_1_n_n none a b (constant S5000x64 .f32 0x00000000#32) (ix2 p q)
      = ∑ k : Fin 8, a (ix2 p k) * b (ix2 k q) := by
  simp only [matmul]
  rw [Ideal.matmul_constant_zero_apply, ← Equiv.sum_comp (ValueIdx.contrEquiv1 dot_S5000x8_S8x64_S5000x64_1_0_0_1_n_n 8 rfl rfl).symm]
  refine Finset.sum_congr rfl fun k _ => ?_
  have hk := ValueIdx.contrEquiv1_symm_val dot_S5000x8_S8x64_S5000x64_1_0_0_1_n_n 8 rfl rfl k
  have el : dot_S5000x8_S8x64_S5000x64_1_0_0_1_n_n.lhsIdx (ix2 p q) ((ValueIdx.contrEquiv1 dot_S5000x8_S8x64_S5000x64_1_0_0_1_n_n 8 rfl rfl).symm k) = ix2 p k := funext fun a => Fin.ext (by
    match a with
    | ⟨0, _⟩ => exact lhs_axis0 _ _
    | ⟨1, _⟩ => exact (lhs_axis1 _ _).trans hk)
  have er : dot_S5000x8_S8x64_S5000x64_1_0_0_1_n_n.rhsIdx (ix2 p q) ((ValueIdx.contrEquiv1 dot_S5000x8_S8x64_S5000x64_1_0_0_1_n_n 8 rfl rfl).symm k) = ix2 k q := funext fun a => Fin.ext (by
    match a with
    | ⟨0, _⟩ => exact (rhs_axis0 _ _).trans hk
    | ⟨1, _⟩ => exact rhs_axis1 _ _)
  rw [el, er]

/-- The column of row factors spread over the 64 columns, at row `p`: the column's entry `p`. -/
theorem spread_apply (d : FVec Ideal S5000x1 .f32) (p : Fin 5000) (q : Fin 64) :
    broadcastTo S5000x64 d broadcasts_S5000x1_S5000x64 (ix2 p q) = d (ix2 p (0 : Fin 1)) := by
  refine broadcastTo_apply d broadcasts_S5000x1_S5000x64 (ix2 p q) (ix2 p (0 : Fin 1)) fun a => ?_
  match a with
  | ⟨0, _⟩ => rfl
  | ⟨1, _⟩ => rfl

/-- The body's stored block at row `p`, column `q`: the row factor times the sum of products. -/
theorem payload_apply (x0 : Vec Ideal S5000x8 .f32) (x1 : Vec Ideal S8x64 .f32) (x2 : Vec Ideal S5000x1 .f32)
    (p : Fin 5000) (q : Fin 64) :
    k0_pay1 (F := Ideal) x0 x1 x2 (ix2 p q) = x2 (ix2 p (0 : Fin 1)) * ∑ k : Fin 8, x0 (ix2 p k) * x1 (ix2 k q) := by
  unfold k0_pay1
  rw [mulf_apply, spread_apply, shapeCast_self, product_apply]
  rfl

/-! ## The blocks of the four windows -/

variable (V : (c : Dev nD) → (b : Ref sig .tc) → Buf (Elt Ideal) ((c : Thread nD τ).loc b))

theorem zero_offsets : (![0, 0] : Fin 2 → Nat) = fun _ => 0 :=
  funext fun a => by match a with | ⟨0, _⟩ => rfl | ⟨1, _⟩ => rfl

/-- The index maps over the twenty grid points: the three row-blocked windows sit at block row `t`, the weight
    window at its only block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature window's block at point `t` is rows `5000 t … 5000 t + 4999` of the feature array. -/
theorem rows_block (c : Dev nD) (t : Fin cfg0.N) (y : S5000x8.Idx) (i : S100000x8.Idx)
    (h0 : (i 0).val = 5000 * t.val + (y 0).val) (h1 : (i 1).val = (y 1).val) :
    (iblk0 V c 0 t : Vec Ideal S5000x8 .f32) y = (V c main_arg0 : S100000x8.Idx → EReal) i := by
  obtain ⟨e0, e1, -⟩ := index_facts t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 8 + 1 * (y 1).val = (i 1).val; rw [e1, h1]; omega

/-- The weight window's block at every point is the whole weight array. -/
theorem weight_block (c : Dev nD) (t : Fin cfg0.N) (y : S8x64.Idx) (i : S8x64.Idx)
    (h0 : (i 0).val = (y 0).val) (h1 : (i 1).val = (y 1).val) :
    (iblk0 V c 1 t : Vec Ideal S8x64 .f32) y = (V c main_arg2 : S8x64.Idx → EReal) i := by
  obtain ⟨-, -, e2, e3, -⟩ := index_facts t
  unfold iblk0
  rw [View.read_apply]
  show V c main_arg2 _ = V c main_arg2 _
  congr 1
  funext a
  apply Fin.ext
  match a with
  | ⟨0, _⟩ => show win0_1.index t 0 * 8 + 1 * (y 0).val = (i 0).val; rw [e2, h0]; omega
  | ⟨1, _⟩ => show win0_1.index t 1 * 64 + 1 * (y 1).val = (i 1).val; rw [e3, h1]; omega

/-- The factor window's block at point `t` is entries `5000 t … 5000 t + 4999` of the factor column. -/
theorem factor_block (c : Dev nD) (t : Fin cfg0.N) (y : S5000x1.Idx) (i : S100000x1.Idx)
    (h0 : (i 0).val = 5000 * t.val + (y 0).val) (h1 : (i 1).val = (y 1).val) :
    (iblk0 V c 2 t : Vec Ideal S5000x1 .f32) y = (V c main_v12 : S100000x1.Idx → EReal) i := by
  obtain ⟨-, -, -, -, e4, e5, -⟩ := index_facts t
  unfold iblk0
  rw [View.read_apply]
  show V c main_v12 _ = V c main_v12 _
  congr 1
  funext a
  apply Fin.ext
  match a with
  | ⟨0, _⟩ => show win0_2.index t 0 * 5000 + 1 * (y 0).val = (i 0).val; rw [e4, h0]; omega
  | ⟨1, _⟩ => show win0_2.index t 1 * 1 + 1 * (y 1).val = (i 1).val; rw [e5, h1]; omega

/-! ## What a point writes back, and the array after the last point -/

/-- Point `t` writes back block `t` of the scaled product of the entry arrays. -/
theorem flushed_eq (c : Dev nD) (t : Fin cfg0.N) :
    (dat0 (F := Ideal) V c).flushed 3 t
      = ((cfg0.win 3).blk t).view.read (Elt Ideal) (scaled8x64 (V c main_arg0) (V c main_arg2) (V c main_v12)) := by
  show (cfg0.win 3).cut (grid0.coords t) ((dat0 V c).after 3 t) = _
  rw [after0_3]
  unfold out0_3
  rw [View.canon_unit_zero zero_offsets]
  simp only [View.ld_unit_zero (S := S5000x8) zero_offsets, View.ld_unit_zero (S := S8x64) zero_offsets,
    View.ld_unit_zero (S := S5000x1) zero_offsets]
  obtain ⟨-, -, -, -, -, -, e6, e7⟩ := index_facts t
  funext j
  obtain ⟨p, q, rfl⟩ : ∃ (p : Fin 5000) (q : Fin 64), j = ix2 p q := ⟨j 0, j 1, eq_ix2 j⟩
  refine (payload_apply _ _ _ p q).trans ?_
  show _ = scaled8x64 (V c main_arg0) (V c main_arg2) (V c main_v12) (((cfg0.win 3).blk t).view.emb (ix2 p q))
  unfold scaled8x64
  have r0 : ((((cfg0.win 3).blk t).view.emb (ix2 p q)) 0).val = 5000 * t.val + p.val := by
    show win0_3.index t 0 * 5000 + 1 * p.val = _; rw [e6]; omega
  have r1 : ((((cfg0.win 3).blk t).view.emb (ix2 p q)) 1).val = q.val := by
    show win0_3.index t 1 * 64 + 1 * q.val = _; rw [e7]; omega
  exact congrArg₂ (· * ·) (factor_block V c t _ _ r0 rfl)
    (Finset.sum_congr rfl fun k _ => congrArg₂ (· * ·) (rows_block V c t _ _ r0 rfl) (weight_block V c t _ _ rfl r1))

/-- An index of the output array lies in point `t`'s block iff each coordinate lies in the block's range. -/
theorem mem_block (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v13).slice (win0_3.rect t)).set ↔ _
  rw [View.set_slice_whole, Rect.mem_set_unit]
  exact Iff.rfl

/-- Row `r` of the output array lies in the block of point `r / 5000`. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 5000 < cfg0.N := by show _ < 20; omega
  obtain ⟨-, -, -, -, -, -, e6, e7⟩ := index_facts ⟨(i 0).val / 5000, ht⟩
  refine ⟨⟨(i 0).val / 5000, ht⟩, flush0_3 _, ?_⟩
  rw [mem_block]
  intro a
  match a with
  | ⟨0, _⟩ =>
    show win0_3.index ⟨(i 0).val / 5000, ht⟩ 0 * 5000 ≤ (i 0).val ∧ (i 0).val < win0_3.index ⟨(i 0).val / 5000, ht⟩ 0 * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ 1 * 64 ≤ (i 1).val ∧ (i 1).val < win0_3.index ⟨(i 0).val / 5000, ht⟩ 1 * 64 + 64
    rw [e7]; omega

/-- The output array of pallas_call 0 after its last grid point, as a function of the arrays it read at entry. -/
theorem final0 (c : Dev nD) :
    (dat0 (F := Ideal) V c).arrAt 3 cfg0.N = scaled8x64 (V c main_arg0) (V c main_arg2) (V c main_v12) := by
  exact (dat0 V c).arrAt_eq_of_cover 3 _ (fun t _ => flushed_eq V c t) cover

end Cert.KernelIdeal.Region0

end
-- ==== Proof.Region1.lean ====
/-
  Each grid point of the second pallas_call writes one block of 5000 rows of `max (d ⊙ (A + H) + b) 0`; the twenty
  blocks tile the array.
-/
import proofs.«421954_j14886356648486_2_alg».proof.Proof.Terms
import Idealize.ShloMosaic.Lib.Pipeline.Value
import Idealize.ShloMosaic.Lib.ValueLayout
import Idealize.ShloMosaic.PureOps.Ideal.Laws

noncomputable section

namespace Cert.KernelIdeal.Region1

open Idealize.ShloMosaic Idealize.ShloMosaic.TcCoe Idealize.ShloMosaic.ValueIdx Idealize.SL.Sem
open Cert.KernelIdeal Cert.KernelIdeal.Gen Cert.KernelIdeal.Terms
open Idealize.ShloMosaic.Pipeline (Dat)
open scoped BigOperators

variable (V : (c : Dev nD) → (b : Ref sig .tc) → Buf (Elt Ideal) ((c : Thread nD τ).loc b))

/-- Two zero offsets are the zero offset function. -/
theorem zeroOff : (![0, 0] : Fin 2 → Nat) = fun _ => 0 :=
  funext fun a => match a with | ⟨0, _⟩ => rfl | ⟨1, _⟩ => rfl

/-- The body's result at row `p`, column `q` of a block: the degree entry of the row times the sum of the two
    row entries, plus the bias entry of the column, clipped at zero. -/
theorem pay_apply (xA xH : Vec Ideal S5000x64 .f32) (xd : Vec Ideal S5000x1 .f32) (xb : Vec Ideal S1x64 .f32)
    (p : Fin 5000) (q : Fin 64) :
    k1_pay1 (F := Ideal) xd xA xH xb (ix2 p q)
      = max (xd (ix2 p (0 : Fin 1)) * (xA (ix2 p q) + xH (ix2 p q)) + xb (ix2 (0 : Fin 1) q))
          (Ideal.ofBits .f32 0x00000000#32) := by
  unfold k1_pay1
  simp only [shapeCast_self]
  rw [maximumf_apply, addf_apply, mulf_apply, addf_apply, broadcast_apply]
  have hd : broadcastTo S5000x64 xd broadcasts_S5000x1_S5000x64 (ix2 p q) = xd (ix2 p (0 : Fin 1)) :=
    broadcastTo_apply _ _ _ _ fun a => match a with | ⟨0, _⟩ => rfl | ⟨1, _⟩ => rfl
  have hb : broadcastTo S5000x64 xb broadcasts_S1x64_S5000x64 (ix2 p q) = xb (ix2 (0 : Fin 1) q) :=
    broadcastTo_apply _ _ _ _ fun a => match a with | ⟨0, _⟩ => rfl | ⟨1, _⟩ => rfl
  rw [hd, hb]
  rfl

/-- The printed index maps over the twenty points: the row-blocked windows sit at block `(t, 0)`, the bias row's at
    `(0, 0)`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The grid has twenty points. -/
theorem points : cfg1.N = 20 := by decide

/-- Entry `x` of the block of aggregated sums at point `t` is the array's entry `5000 t` rows further down. -/
theorem blockA_apply (c : Dev nD) (t : Fin cfg1.N) (x : S5000x64.Idx) (k : S100000x64.Idx)
    (hk0 : (k 0).val = 5000 * t.val + (x 0).val) (hk1 : (k 1).val = (x 1).val) :
    (iblk1 V c 0 t : Vec Ideal S5000x64 .f32) x = (V c main_v17 : S100000x64.Idx → Elt Ideal .f32) k := by
  obtain ⟨e0, e1, -⟩ := index_facts t
  unfold iblk1
  rw [View.read_apply]
  show V c main_v17 (((cfg1.win 0).blk t).view.emb x) = V c main_v17 k
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 64 + 1 * (x 1).val = (k 1).val; rw [e1, hk1]; omega

/-- The same for the block of the node's own scaled rows. -/
theorem blockH_apply (c : Dev nD) (t : Fin cfg1.N) (x : S5000x64.Idx) (k : S100000x64.Idx)
    (hk0 : (k 0).val = 5000 * t.val + (x 0).val) (hk1 : (k 1).val = (x 1).val) :
    (iblk1 V c 1 t : Vec Ideal S5000x64 .f32) x = (V c main_v13 : S100000x64.Idx → Elt Ideal .f32) k := by
  obtain ⟨-, -, e0, e1, -⟩ := index_facts t
  unfold iblk1
  rw [View.read_apply]
  show V c main_v13 (((cfg1.win 1).blk t).view.emb x) = V c main_v13 k
  congr 1
  funext a
  apply Fin.ext
  match a with
  | ⟨0, _⟩ => show win1_1.index t (0 : Fin 2) * 5000 + 1 * (x 0).val = (k 0).val; rw [e0, hk0]; omega
  | ⟨1, _⟩ => show win1_1.index t (1 : Fin 2) * 64 + 1 * (x 1).val = (k 1).val; rw [e1, hk1]; omega

/-- The block of the degree column at point `t` is its rows from `5000 t` on. -/
theorem blockD_apply (c : Dev nD) (t : Fin cfg1.N) (x : S5000x1.Idx) (k : S100000x1.Idx)
    (hk0 : (k 0).val = 5000 * t.val + (x 0).val) (hk1 : (k 1).val = (x 1).val) :
    (iblk1 V c 2 t : Vec Ideal S5000x1 .f32) x = (V c main_v11 : S100000x1.Idx → Elt Ideal .f32) k := by
  obtain ⟨-, -, -, -, e0, e1, -⟩ := index_facts t
  unfold iblk1
  rw [View.read_apply]
  show V c main_v11 (((cfg1.win 2).blk t).view.emb x) = V c main_v11 k
  congr 1
  funext a
  apply Fin.ext
  match a with
  | ⟨0, _⟩ => show win1_2.index t (0 : Fin 2) * 5000 + 1 * (x 0).val = (k 0).val; rw [e0, hk0]; omega
  | ⟨1, _⟩ => show win1_2.index t (1 : Fin 2) * 1 + 1 * (x 1).val = (k 1).val; rw [e1, hk1]; omega

/-- The bias row's block is the whole row at every point. -/
theorem blockB_apply (c : Dev nD) (t : Fin cfg1.N) (x : S1x64.Idx) (k : S1x64.Idx)
    (hk0 : (k 0).val = (x 0).val) (hk1 : (k 1).val = (x 1).val) :
    (iblk1 V c 3 t : Vec Ideal S1x64 .f32) x = (V c main_v18 : S1x64.Idx → Elt Ideal .f32) k := by
  obtain ⟨-, -, -, -, -, -, e0, e1, -⟩ := index_facts t
  unfold iblk1
  rw [View.read_apply]
  show V c main_v18 (((cfg1.win 3).blk t).view.emb x) = V c main_v18 k
  congr 1
  funext a
  apply Fin.ext
  match a with
  | ⟨0, _⟩ => show win1_3.index t (0 : Fin 2) * 1 + 1 * (x 0).val = (k 0).val; rw [e0, hk0]; omega
  | ⟨1, _⟩ => show win1_3.index t (1 : Fin 2) * 64 + 1 * (x 1).val = (k 1).val; rw [e1, hk1]; omega

/-- Where entry `j` of the output block of point `t` lies in the array: `5000 t` rows down, same column. -/
theorem out_emb (t : Fin cfg1.N) (j : S5000x64.Idx) :
    ((((cfg1.win 4).blk t).view.emb j) 0).val = 5000 * t.val + (j 0).val
    ∧ ((((cfg1.win 4).blk t).view.emb j) 1).val = (j 1).val := by
  obtain ⟨-, -, -, -, -, -, -, -, e0, e1⟩ := index_facts t
  constructor
  · show win1_4.index t (0 : Fin 2) * 5000 + 1 * (j 0).val = _; rw [e0]; omega
  · show win1_4.index t (1 : Fin 2) * 64 + 1 * (j 1).val = _; rw [e1]; omega

/-- What point `t` writes back is block `t` of the clipped combination of the four entry arrays. -/
theorem flushed_eq (c : Dev nD) (t : Fin cfg1.N) :
    (dat1 (F := Ideal) V c).flushed 4 t
      = ((cfg1.win 4).blk t).view.read (Elt Ideal)
          (combineClip64 (V c main_v17) (V c main_v13) (V c main_v11) (V c main_v18)) := by
  show (cfg1.win 4).cut (grid1.coords t) ((dat1 (F := Ideal) V c).after 4 t) = _
  rw [after1_4]
  unfold out1_4
  rw [View.canon_unit_zero zeroOff]
  simp only [View.ld_unit_zero (S := S5000x64) zeroOff, View.ld_unit_zero (S := S5000x1) zeroOff,
    View.ld_unit_zero (S := S1x64) zeroOff]
  funext j
  obtain ⟨p, q, rfl⟩ : ∃ (p : Fin 5000) (q : Fin 64), j = ix2 p q := ⟨j 0, j 1, eq_ix2 j⟩
  obtain ⟨h0, h1⟩ := out_emb t (ix2 p q)
  show k1_pay1 (F := Ideal) (iblk1 V c 2 t) (iblk1 V c 0 t) (iblk1 V c 1 t) (iblk1 V c 3 t) (ix2 p q)
    = combineClip64 (V c main_v17) (V c main_v13) (V c main_v11) (V c main_v18) (((cfg1.win 4).blk t).view.emb (ix2 p q))
  generalize ((cfg1.win 4).blk t).view.emb (ix2 p q) = i at h0 h1 ⊢
  rw [pay_apply, blockA_apply V c t (ix2 p q) i h0 h1, blockH_apply V c t (ix2 p q) i h0 h1,
    blockD_apply V c t (ix2 p (0 : Fin 1)) (ix2 (⟨(i 0).val, (i 0).isLt⟩ : Fin 100000) (0 : Fin 1)) h0 rfl,
    blockB_apply V c t (ix2 (0 : Fin 1) q) (ix2 (0 : Fin 1) (⟨(i 1).val, (i 1).isLt⟩ : Fin 64)) rfl h1]
  rfl

/-- An array index lies in the block of point `t` exactly when each coordinate lies in the block's range. -/
theorem mem_block (t : Fin cfg1.N) (i : S100000x64.Idx) :
    i ∈ ((cfg1.win 4).blk t).view.set
      ↔ ∀ a : Fin 2, win1_4.index t a * S5000x64.size a ≤ (i a).val
          ∧ (i a).val < win1_4.index t a * S5000x64.size a + S5000x64.size a := by
  show i ∈ ((View.whole main_v19).slice (win1_4.rect t)).set ↔ _
  rw [View.set_slice_whole, Rect.mem_set_unit]
  exact Iff.rfl

/-- Row `r` of the array is written by the point `r / 5000`: the twenty blocks tile the array. -/
theorem covered (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  refine ⟨⟨(i 0).val / 5000, by rw [points]; omega⟩, flush1_4 _, ?_⟩
  obtain ⟨-, -, -, -, -, -, -, -, e0, e1⟩ := index_facts ⟨(i 0).val / 5000, by rw [points]; omega⟩
  rw [mem_block]
  intro a
  match a with
  | ⟨0, _⟩ =>
    show win1_4.index _ (0 : Fin 2) * 5000 ≤ (i 0).val ∧ (i 0).val < win1_4.index _ (0 : Fin 2) * 5000 + 5000
    rw [e0]; show (i 0).val / 5000 * 5000 ≤ (i 0).val ∧ (i 0).val < (i 0).val / 5000 * 5000 + 5000; omega
  | ⟨1, _⟩ =>
    show win1_4.index _ (1 : Fin 2) * 64 ≤ (i 1).val ∧ (i 1).val < win1_4.index _ (1 : Fin 2) * 64 + 64
    rw [e1]; omega

/-- The output array of pallas_call 1 after its last grid point, as a function of the arrays it read at entry. -/
theorem final1 (c : Dev nD) :
    (dat1 (F := Ideal) V c).arrAt 4 cfg1.N = combineClip64 (V c main_v17) (V c main_v13) (V c main_v11) (V c main_v18) := by
  exact (dat1 (F := Ideal) V c).arrAt_eq_of_cover 4 _ (fun t _ => flushed_eq V c t) covered

end Cert.KernelIdeal.Region1

end
-- ==== Proof.Region2.lean ====
/-
  The third pallas_call: blocks of `d ⊙ (X · W)`, 64 → 64 columns.
-/
import proofs.«421954_j14886356648486_2_alg».proof.Proof.Terms
import Idealize.ShloMosaic.Lib.Pipeline.Value
import Idealize.ShloMosaic.Lib.ValueLayout
import Idealize.ShloMosaic.PureOps.Ideal.Laws

noncomputable section

namespace Cert.KernelIdeal.Region2

open Idealize.ShloMosaic Idealize.ShloMosaic.TcCoe Idealize.ShloMosaic.ValueIdx Idealize.SL.Sem
open Cert.KernelIdeal Cert.KernelIdeal.Gen Cert.KernelIdeal.Terms
open Idealize.ShloMosaic.Pipeline (Dat)
open scoped BigOperators

/-! ## The product at an index -/

theorem lhs_axis0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_axis1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_axis0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_axis1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product into the zero accumulator, at row `p` and column `q`: the sum over the 64 inner positions. -/
theorem product_apply (a : FVec Ideal S5000x64 .bf16) (b : FVec Ideal S64x64 .bf16) (p : Fin 5000) (q : Fin 64) :
    matmul dot_S5000x64_S64x64_S5000x64_1_0_0_1_n_n none a b (constant S5000x64 .f32 0x00000000#32) (ix2 p q)
      = ∑ k : Fin 64, a (ix2 p k) * b (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- The column of row factors spread over the 64 columns, at row `p`: the column's entry `p`. -/
theorem spread_apply (d : FVec Ideal S5000x1 .f32) (p : Fin 5000) (q : Fin 64) :
    broadcastTo S5000x64 d broadcasts_S5000x1_S5000x64 (ix2 p q) = d (ix2 p (0 : Fin 1)) := by
  refine broadcastTo_apply d broadcasts_S5000x1_S5000x64 (ix2 p q) (ix2 p (0 : Fin 1)) fun a => ?_
  match a with
  | ⟨0, _⟩ => rfl
  | ⟨1, _⟩ => rfl

/-- The body's stored block at row `p`, column `q`: the row factor times the sum of products. -/
theorem payload_apply (x0 : Vec Ideal S5000x64 .f32) (x1 : Vec Ideal S64x64 .f32) (x2 : Vec Ideal S5000x1 .f32)
    (p : Fin 5000) (q : Fin 64) :
    k2_pay1 (F := Ideal) x0 x1 x2 (ix2 p q) = x2 (ix2 p (0 : Fin 1)) * ∑ k : Fin 64, x0 (ix2 p k) * x1 (ix2 k q) := by
  unfold k2_pay1
  simp only [shapeCast_self]
  rw [mulf_apply, spread_apply, product_apply]
  rfl

/-! ## The blocks of the four windows -/

variable (V : (c : Dev nD) → (b : Ref sig .tc) → Buf (Elt Ideal) ((c : Thread nD τ).loc b))

theorem zero_offsets : (![0, 0] : Fin 2 → Nat) = fun _ => 0 :=
  funext fun a => by match a with | ⟨0, _⟩ => rfl | ⟨1, _⟩ => rfl

/-- The index maps over the twenty grid points: the three row-blocked windows sit at block row `t`, the weight
    window at its only block. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The feature window's block at point `t` is rows `5000 t … 5000 t + 4999` of the feature array. -/
theorem rows_block (c : Dev nD) (t : Fin cfg2.N) (y : S5000x64.Idx) (i : S100000x64.Idx)
    (h0 : (i 0).val = 5000 * t.val + (y 0).val) (h1 : (i 1).val = (y 1).val) :
    (iblk2 V c 0 t : Vec Ideal S5000x64 .f32) y = (V c main_v19 : S100000x64.Idx → EReal) i := by
  obtain ⟨e0, e1, -⟩ := index_facts t
  unfold iblk2
  rw [View.read_apply]
  show V c main_v19 _ = V c main_v19 _
  congr 1
  funext a
  apply Fin.ext
  match a with
  | ⟨0, _⟩ => show win2_0.index t 0 * 5000 + 1 * (y 0).val = (i 0).val; rw [e0, h0]; omega
  | ⟨1, _⟩ => show win2_0.index t 1 * 64 + 1 * (y 1).val = (i 1).val; rw [e1, h1]; omega

/-- The weight window's block at every point is the whole weight array. -/
theorem weight_block (c : Dev nD) (t : Fin cfg2.N) (y : S64x64.Idx) (i : S64x64.Idx)
    (h0 : (i 0).val = (y 0).val) (h1 : (i 1).val = (y 1).val) :
    (iblk2 V c 1 t : Vec Ideal S64x64 .f32) y = (V c main_arg4 : S64x64.Idx → EReal) i := by
  obtain ⟨-, -, e2, e3, -⟩ := index_facts t
  unfold iblk2
  rw [View.read_apply]
  show V c main_arg4 _ = V c main_arg4 _
  congr 1
  funext a
  apply Fin.ext
  match a with
  | ⟨0, _⟩ => show win2_1.index t 0 * 64 + 1 * (y 0).val = (i 0).val; rw [e2, h0]; omega
  | ⟨1, _⟩ => show win2_1.index t 1 * 64 + 1 * (y 1).val = (i 1).val; rw [e3, h1]; omega

/-- The factor window's block at point `t` is entries `5000 t … 5000 t + 4999` of the factor column. -/
theorem factor_block (c : Dev nD) (t : Fin cfg2.N) (y : S5000x1.Idx) (i : S100000x1.Idx)
    (h0 : (i 0).val = 5000 * t.val + (y 0).val) (h1 : (i 1).val = (y 1).val) :
    (iblk2 V c 2 t : Vec Ideal S5000x1 .f32) y = (V c main_v20 : S100000x1.Idx → EReal) i := by
  obtain ⟨-, -, -, -, e4, e5, -⟩ := index_facts t
  unfold iblk2
  rw [View.read_apply]
  show V c main_v20 _ = V c main_v20 _
  congr 1
  funext a
  apply Fin.ext
  match a with
  | ⟨0, _⟩ => show win2_2.index t 0 * 5000 + 1 * (y 0).val = (i 0).val; rw [e4, h0]; omega
  | ⟨1, _⟩ => show win2_2.index t 1 * 1 + 1 * (y 1).val = (i 1).val; rw [e5, h1]; omega

/-! ## What a point writes back, and the array after the last point -/

/-- Point `t` writes back block `t` of the scaled product of the entry arrays. -/
theorem flushed_eq (c : Dev nD) (t : Fin cfg2.N) :
    (dat2 (F := Ideal) V c).flushed 3 t
      = ((cfg2.win 3).blk t).view.read (Elt Ideal) (scaled64x64 (V c main_v19) (V c main_arg4) (V c main_v20)) := by
  show (cfg2.win 3).cut (grid2.coords t) ((dat2 V c).after 3 t) = _
  rw [after2_3]
  unfold out2_3
  rw [View.canon_unit_zero zero_offsets]
  simp only [View.ld_unit_zero (S := S5000x64) zero_offsets, View.ld_unit_zero (S := S64x64) zero_offsets,
    View.ld_unit_zero (S := S5000x1) zero_offsets]
  obtain ⟨-, -, -, -, -, -, e6, e7⟩ := index_facts t
  funext j
  obtain ⟨p, q, rfl⟩ : ∃ (p : Fin 5000) (q : Fin 64), j = ix2 p q := ⟨j 0, j 1, eq_ix2 j⟩
  refine (payload_apply _ _ _ p q).trans ?_
  show _ = scaled64x64 (V c main_v19) (V c main_arg4) (V c main_v20) (((cfg2.win 3).blk t).view.emb (ix2 p q))
  unfold scaled64x64
  have r0 : ((((cfg2.win 3).blk t).view.emb (ix2 p q)) 0).val = 5000 * t.val + p.val := by
    show win2_3.index t 0 * 5000 + 1 * p.val = _; rw [e6]; omega
  have r1 : ((((cfg2.win 3).blk t).view.emb (ix2 p q)) 1).val = q.val := by
    show win2_3.index t 1 * 64 + 1 * q.val = _; rw [e7]; omega
  exact congrArg₂ (· * ·) (factor_block V c t _ _ r0 rfl)
    (Finset.sum_congr rfl fun k _ => congrArg₂ (· * ·) (rows_block V c t _ _ r0 rfl) (weight_block V c t _ _ rfl r1))

/-- An index of the output array lies in point `t`'s block iff each coordinate lies in the block's range. -/
theorem mem_block (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v21).slice (win2_3.rect t)).set ↔ _
  rw [View.set_slice_whole, Rect.mem_set_unit]
  exact Iff.rfl

/-- Row `r` of the output array lies in the block of point `r / 5000`. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have ht : (i 0).val / 5000 < cfg2.N := by show _ < 20; omega
  obtain ⟨-, -, -, -, -, -, e6, e7⟩ := index_facts ⟨(i 0).val / 5000, ht⟩
  refine ⟨⟨(i 0).val / 5000, ht⟩, flush2_3 _, ?_⟩
  rw [mem_block]
  intro a
  match a with
  | ⟨0, _⟩ =>
    show win2_3.index ⟨(i 0).val / 5000, ht⟩ 0 * 5000 ≤ (i 0).val ∧ (i 0).val < win2_3.index ⟨(i 0).val / 5000, ht⟩ 0 * 5000 + 5000
    rw [e6]; show (i 0).val / 5000 * 5000 ≤ (i 0).val ∧ (i 0).val < (i 0).val / 5000 * 5000 + 5000; omega
  | ⟨1, _⟩ =>
    show win2_3.index ⟨(i 0).val / 5000, ht⟩ 1 * 64 ≤ (i 1).val ∧ (i 1).val < win2_3.index ⟨(i 0).val / 5000, ht⟩ 1 * 64 + 64
    rw [e7]; omega

/-- The output array of pallas_call 2 after its last grid point, as a function of the arrays it read at entry. -/
theorem final2 (c : Dev nD) :
    (dat2 (F := Ideal) V c).arrAt 3 cfg2.N = scaled64x64 (V c main_v19) (V c main_arg4) (V c main_v20) := by
  exact (dat2 V c).arrAt_eq_of_cover 3 _ (fun t _ => flushed_eq V c t) cover

end Cert.KernelIdeal.Region2

end
-- ==== Proof.Region3.lean ====
/-
  The fourth pallas_call: blocks of `max (d ⊙ (A + H) + b) 0`.
-/
import proofs.«421954_j14886356648486_2_alg».proof.Proof.Terms
import Idealize.ShloMosaic.Lib.Pipeline.Value
import Idealize.ShloMosaic.Lib.ValueLayout
import Idealize.ShloMosaic.PureOps.Ideal.Laws

noncomputable section

namespace Cert.KernelIdeal.Region3

open Idealize.ShloMosaic Idealize.ShloMosaic.TcCoe Idealize.ShloMosaic.ValueIdx Idealize.SL.Sem
open Cert.KernelIdeal Cert.KernelIdeal.Gen Cert.KernelIdeal.Terms
open Idealize.ShloMosaic.Pipeline (Dat)
open scoped BigOperators

variable (V : (c : Dev nD) → (b : Ref sig .tc) → Buf (Elt Ideal) ((c : Thread nD τ).loc b))

/-- Two zero offsets are the zero offset function. -/
theorem zeroOff : (![0, 0] : Fin 2 → Nat) = fun _ => 0 :=
  funext fun a => match a with | ⟨0, _⟩ => rfl | ⟨1, _⟩ => rfl

/-- The body's result at row `p`, column `q` of a block: the degree entry of the row times the sum of the two
    row entries, plus the bias entry of the column, clipped at zero. -/
theorem pay_apply (xA xH : Vec Ideal S5000x64 .f32) (xd : Vec Ideal S5000x1 .f32) (xb : Vec Ideal S1x64 .f32)
    (p : Fin 5000) (q : Fin 64) :
    k3_pay1 (F := Ideal) xd xA xH xb (ix2 p q)
      = max (xd (ix2 p (0 : Fin 1)) * (xA (ix2 p q) + xH (ix2 p q)) + xb (ix2 (0 : Fin 1) q))
          (Ideal.ofBits .f32 0x00000000#32) := by
  unfold k3_pay1
  simp only [shapeCast_self]
  rw [maximumf_apply, addf_apply, mulf_apply, addf_apply, broadcast_apply]
  have hd : broadcastTo S5000x64 xd broadcasts_S5000x1_S5000x64 (ix2 p q) = xd (ix2 p (0 : Fin 1)) :=
    broadcastTo_apply _ _ _ _ fun a => match a with | ⟨0, _⟩ => rfl | ⟨1, _⟩ => rfl
  have hb : broadcastTo S5000x64 xb broadcasts_S1x64_S5000x64 (ix2 p q) = xb (ix2 (0 : Fin 1) q) :=
    broadcastTo_apply _ _ _ _ fun a => match a with | ⟨0, _⟩ => rfl | ⟨1, _⟩ => rfl
  rw [hd, hb]
  rfl

/-- The printed index maps over the twenty points: the row-blocked windows sit at block `(t, 0)`, the bias row's at
    `(0, 0)`. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The grid has twenty points. -/
theorem points : cfg3.N = 20 := by decide

/-- Entry `x` of the block of aggregated sums at point `t` is the array's entry `5000 t` rows further down. -/
theorem blockA_apply (c : Dev nD) (t : Fin cfg3.N) (x : S5000x64.Idx) (k : S100000x64.Idx)
    (hk0 : (k 0).val = 5000 * t.val + (x 0).val) (hk1 : (k 1).val = (x 1).val) :
    (iblk3 V c 0 t : Vec Ideal S5000x64 .f32) x = (V c main_v25 : S100000x64.Idx → Elt Ideal .f32) k := by
  obtain ⟨e0, e1, -⟩ := index_facts t
  unfold iblk3
  rw [View.read_apply]
  show V c main_v25 (((cfg3.win 0).blk t).view.emb x) = V c main_v25 k
  congr 1
  funext a
  apply Fin.ext
  match a with
  | ⟨0, _⟩ => show win3_0.index t (0 : Fin 2) * 5000 + 1 * (x 0).val = (k 0).val; rw [e0, hk0]; omega
  | ⟨1, _⟩ => show win3_0.index t (1 : Fin 2) * 64 + 1 * (x 1).val = (k 1).val; rw [e1, hk1]; omega

/-- The same for the block of the node's own scaled rows. -/
theorem blockH_apply (c : Dev nD) (t : Fin cfg3.N) (x : S5000x64.Idx) (k : S100000x64.Idx)
    (hk0 : (k 0).val = 5000 * t.val + (x 0).val) (hk1 : (k 1).val = (x 1).val) :
    (iblk3 V c 1 t : Vec Ideal S5000x64 .f32) x = (V c main_v21 : S100000x64.Idx → Elt Ideal .f32) k := by
  obtain ⟨-, -, e0, e1, -⟩ := index_facts t
  unfold iblk3
  rw [View.read_apply]
  show V c main_v21 (((cfg3.win 1).blk t).view.emb x) = V c main_v21 k
  congr 1
  funext a
  apply Fin.ext
  match a with
  | ⟨0, _⟩ => show win3_1.index t (0 : Fin 2) * 5000 + 1 * (x 0).val = (k 0).val; rw [e0, hk0]; omega
  | ⟨1, _⟩ => show win3_1.index t (1 : Fin 2) * 64 + 1 * (x 1).val = (k 1).val; rw [e1, hk1]; omega

/-- The block of the degree column at point `t` is its rows from `5000 t` on. -/
theorem blockD_apply (c : Dev nD) (t : Fin cfg3.N) (x : S5000x1.Idx) (k : S100000x1.Idx)
    (hk0 : (k 0).val = 5000 * t.val + (x 0).val) (hk1 : (k 1).val = (x 1).val) :
    (iblk3 V c 2 t : Vec Ideal S5000x1 .f32) x = (V c main_v11 : S100000x1.Idx → Elt Ideal .f32) k := by
  obtain ⟨-, -, -, -, e0, e1, -⟩ := index_facts t
  unfold iblk3
  rw [View.read_apply]
  show V c main_v11 (((cfg3.win 2).blk t).view.emb x) = V c main_v11 k
  congr 1
  funext a
  apply Fin.ext
  match a with
  | ⟨0, _⟩ => show win3_2.index t (0 : Fin 2) * 5000 + 1 * (x 0).val = (k 0).val; rw [e0, hk0]; omega
  | ⟨1, _⟩ => show win3_2.index t (1 : Fin 2) * 1 + 1 * (x 1).val = (k 1).val; rw [e1, hk1]; omega

/-- The bias row's block is the whole row at every point. -/
theorem blockB_apply (c : Dev nD) (t : Fin cfg3.N) (x : S1x64.Idx) (k : S1x64.Idx)
    (hk0 : (k 0).val = (x 0).val) (hk1 : (k 1).val = (x 1).val) :
    (iblk3 V c 3 t : Vec Ideal S1x64 .f32) x = (V c main_v26 : S1x64.Idx → Elt Ideal .f32) k := by
  obtain ⟨-, -, -, -, -, -, e0, e1, -⟩ := index_facts t
  unfold iblk3
  rw [View.read_apply]
  show V c main_v26 (((cfg3.win 3).blk t).view.emb x) = V c main_v26 k
  congr 1
  funext a
  apply Fin.ext
  match a with
  | ⟨0, _⟩ => show win3_3.index t (0 : Fin 2) * 1 + 1 * (x 0).val = (k 0).val; rw [e0, hk0]; omega
  | ⟨1, _⟩ => show win3_3.index t (1 : Fin 2) * 64 + 1 * (x 1).val = (k 1).val; rw [e1, hk1]; omega

/-- Where entry `j` of the output block of point `t` lies in the array: `5000 t` rows down, same column. -/
theorem out_emb (t : Fin cfg3.N) (j : S5000x64.Idx) :
    ((((cfg3.win 4).blk t).view.emb j) 0).val = 5000 * t.val + (j 0).val
    ∧ ((((cfg3.win 4).blk t).view.emb j) 1).val = (j 1).val := by
  obtain ⟨-, -, -, -, -, -, -, -, e0, e1⟩ := index_facts t
  constructor
  · show win3_4.index t (0 : Fin 2) * 5000 + 1 * (j 0).val = _; rw [e0]; omega
  · show win3_4.index t (1 : Fin 2) * 64 + 1 * (j 1).val = _; rw [e1]; omega

/-- What point `t` writes back is block `t` of the clipped combination of the four entry arrays. -/
theorem flushed_eq (c : Dev nD) (t : Fin cfg3.N) :
    (dat3 (F := Ideal) V c).flushed 4 t
      = ((cfg3.win 4).blk t).view.read (Elt Ideal)
          (combineClip64 (V c main_v25) (V c main_v21) (V c main_v11) (V c main_v26)) := by
  show (cfg3.win 4).cut (grid3.coords t) ((dat3 (F := Ideal) V c).after 4 t) = _
  rw [after3_4]
  unfold out3_4
  rw [View.canon_unit_zero zeroOff]
  simp only [View.ld_unit_zero (S := S5000x64) zeroOff, View.ld_unit_zero (S := S5000x1) zeroOff,
    View.ld_unit_zero (S := S1x64) zeroOff]
  funext j
  obtain ⟨p, q, rfl⟩ : ∃ (p : Fin 5000) (q : Fin 64), j = ix2 p q := ⟨j 0, j 1, eq_ix2 j⟩
  obtain ⟨h0, h1⟩ := out_emb t (ix2 p q)
  show k3_pay1 (F := Ideal) (iblk3 V c 2 t) (iblk3 V c 0 t) (iblk3 V c 1 t) (iblk3 V c 3 t) (ix2 p q)
    = combineClip64 (V c main_v25) (V c main_v21) (V c main_v11) (V c main_v26) (((cfg3.win 4).blk t).view.emb (ix2 p q))
  generalize ((cfg3.win 4).blk t).view.emb (ix2 p q) = i at h0 h1 ⊢
  rw [pay_apply, blockA_apply V c t (ix2 p q) i h0 h1, blockH_apply V c t (ix2 p q) i h0 h1,
    blockD_apply V c t (ix2 p (0 : Fin 1)) (ix2 (⟨(i 0).val, (i 0).isLt⟩ : Fin 100000) (0 : Fin 1)) h0 rfl,
    blockB_apply V c t (ix2 (0 : Fin 1) q) (ix2 (0 : Fin 1) (⟨(i 1).val, (i 1).isLt⟩ : Fin 64)) rfl h1]
  rfl

/-- An array index lies in the block of point `t` exactly when each coordinate lies in the block's range. -/
theorem mem_block (t : Fin cfg3.N) (i : S100000x64.Idx) :
    i ∈ ((cfg3.win 4).blk t).view.set
      ↔ ∀ a : Fin 2, win3_4.index t a * S5000x64.size a ≤ (i a).val
          ∧ (i a).val < win3_4.index t a * S5000x64.size a + S5000x64.size a := by
  show i ∈ ((View.whole main_v27).slice (win3_4.rect t)).set ↔ _
  rw [View.set_slice_whole, Rect.mem_set_unit]
  exact Iff.rfl

/-- Row `r` of the array is written by the point `r / 5000`: the twenty blocks tile the array. -/
theorem covered (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  refine ⟨⟨(i 0).val / 5000, by rw [points]; omega⟩, flush3_4 _, ?_⟩
  obtain ⟨-, -, -, -, -, -, -, -, e0, e1⟩ := index_facts ⟨(i 0).val / 5000, by rw [points]; omega⟩
  rw [mem_block]
  intro a
  match a with
  | ⟨0, _⟩ =>
    show win3_4.index _ (0 : Fin 2) * 5000 ≤ (i 0).val ∧ (i 0).val < win3_4.index _ (0 : Fin 2) * 5000 + 5000
    rw [e0]; show (i 0).val / 5000 * 5000 ≤ (i 0).val ∧ (i 0).val < (i 0).val / 5000 * 5000 + 5000; omega
  | ⟨1, _⟩ =>
    show win3_4.index _ (1 : Fin 2) * 64 ≤ (i 1).val ∧ (i 1).val < win3_4.index _ (1 : Fin 2) * 64 + 64
    rw [e1]; omega

/-- The output array of pallas_call 3 after its last grid point, as a function of the arrays it read at entry. -/
theorem final3 (c : Dev nD) :
    (dat3 (F := Ideal) V c).arrAt 4 cfg3.N = combineClip64 (V c main_v25) (V c main_v21) (V c main_v11) (V c main_v26) := by
  exact (dat3 (F := Ideal) V c).arrAt_eq_of_cover 4 _ (fun t _ => flushed_eq V c t) covered

end Cert.KernelIdeal.Region3

end
-- ==== Proof.Region4.lean ====
/-
  The fifth pallas_call: blocks of `d ⊙ (X · W)`, 64 → 112 columns.
-/
import proofs.«421954_j14886356648486_2_alg».proof.Proof.Terms
import Idealize.ShloMosaic.Lib.Pipeline.Value
import Idealize.ShloMosaic.Lib.ValueLayout
import Idealize.ShloMosaic.PureOps.Ideal.Laws

noncomputable section

namespace Cert.KernelIdeal.Region4

open Idealize.ShloMosaic Idealize.ShloMosaic.TcCoe Idealize.ShloMosaic.ValueIdx Idealize.SL.Sem
open Cert.KernelIdeal Cert.KernelIdeal.Gen Cert.KernelIdeal.Terms
open Idealize.ShloMosaic.Pipeline (Dat)
open scoped BigOperators

/-! ## The product at an index -/

theorem lhs_axis0 (i : S5000x112.Idx) (q : dot_S5000x64_S64x112_S5000x112_1_0_0_1_n_n.contr.Idx) :
    (dot_S5000x64_S64x112_S5000x112_1_0_0_1_n_n.lhsIdx i q 0).val = (i 0).val := by
  unfold DotDims.lhsIdx
  rw [dif_neg (show ¬(0 : Fin S5000x64.rank) ∈ dot_S5000x64_S64x112_S5000x112_1_0_0_1_n_n.lhsBatch by decide), dif_pos (show (0 : Fin S5000x64.rank) ∈ dot_S5000x64_S64x112_S5000x112_1_0_0_1_n_n.lhsNonContracting by decide)]
  rfl
theorem lhs_axis1 (i : S5000x112.Idx) (q : dot_S5000x64_S64x112_S5000x112_1_0_0_1_n_n.contr.Idx) :
    (dot_S5000x64_S64x112_S5000x112_1_0_0_1_n_n.lhsIdx i q 1).val = (q ⟨0, by decide⟩).val :=
  dot_S5000x64_S64x112_S5000x112_1_0_0_1_n_n.lhsIdx_val_of_single rfl i q
theorem rhs_axis0 (i : S5000x112.Idx) (q : dot_S5000x64_S64x112_S5000x112_1_0_0_1_n_n.contr.Idx) :
    (dot_S5000x64_S64x112_S5000x112_1_0_0_1_n_n.rhsIdx i q 0).val = (q ⟨0, by decide⟩).val :=
  dot_S5000x64_S64x112_S5000x112_1_0_0_1_n_n.rhsIdx_val_of_single rfl i q
theorem rhs_axis1 (i : S5000x112.Idx) (q : dot_S5000x64_S64x112_S5000x112_1_0_0_1_n_n.contr.Idx) :
    (dot_S5000x64_S64x112_S5000x112_1_0_0_1_n_n.rhsIdx i q 1).val = (i 1).val := by
  unfold DotDims.rhsIdx
  rw [dif_neg (show ¬(1 : Fin S64x112.rank) ∈ dot_S5000x64_S64x112_S5000x112_1_0_0_1_n_n.rhsBatch by decide), dif_pos (show (1 : Fin S64x112.rank) ∈ dot_S5000x64_S64x112_S5000x112_1_0_0_1_n_n.rhsNonContracting by decide)]
  rfl

/-- The block product into the zero accumulator, at row `p` and column `q`: the sum over the 64 inner positions. -/
theorem product_apply (a : FVec Ideal S5000x64 .bf16) (b : FVec Ideal S64x112 .bf16) (p : Fin 5000) (q : Fin 112) :
    matmul dot_S5000x64_S64x112_S5000x112_1_0_0_1_n_n none a b (constant S5000x112 .f32 0x00000000#32) (ix2 p q)
      = ∑ k : Fin 64, a (ix2 p k) * b (ix2 k q) := by
  simp only [matmul]
  rw [Ideal.matmul_constant_zero_apply, ← Equiv.sum_comp (ValueIdx.contrEquiv1 dot_S5000x64_S64x112_S5000x112_1_0_0_1_n_n 64 rfl rfl).symm]
  refine Finset.sum_congr rfl fun k _ => ?_
  have hk := ValueIdx.contrEquiv1_symm_val dot_S5000x64_S64x112_S5000x112_1_0_0_1_n_n 64 rfl rfl k
  have el : dot_S5000x64_S64x112_S5000x112_1_0_0_1_n_n.lhsIdx (ix2 p q) ((ValueIdx.contrEquiv1 dot_S5000x64_S64x112_S5000x112_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S5000x64_S64x112_S5000x112_1_0_0_1_n_n.rhsIdx (ix2 p q) ((ValueIdx.contrEquiv1 dot_S5000x64_S64x112_S5000x112_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- The column of row factors spread over the 112 columns, at row `p`: the column's entry `p`. -/
theorem spread_apply (d : FVec Ideal S5000x1 .f32) (p : Fin 5000) (q : Fin 112) :
    broadcastTo S5000x112 d broadcasts_S5000x1_S5000x112 (ix2 p q) = d (ix2 p (0 : Fin 1)) := by
  refine broadcastTo_apply d broadcasts_S5000x1_S5000x112 (ix2 p q) (ix2 p (0 : Fin 1)) fun a => ?_
  match a with
  | ⟨0, _⟩ => rfl
  | ⟨1, _⟩ => rfl

/-- The body's stored block at row `p`, column `q`: the row factor times the sum of products. -/
theorem payload_apply (x0 : Vec Ideal S5000x64 .f32) (x1 : Vec Ideal S64x112 .f32) (x2 : Vec Ideal S5000x1 .f32)
    (p : Fin 5000) (q : Fin 112) :
    k4_pay1 (F := Ideal) x0 x1 x2 (ix2 p q) = x2 (ix2 p (0 : Fin 1)) * ∑ k : Fin 64, x0 (ix2 p k) * x1 (ix2 k q) := by
  unfold k4_pay1
  simp only [shapeCast_self]
  rw [mulf_apply, spread_apply, product_apply]
  rfl

/-! ## The blocks of the four windows -/

variable (V : (c : Dev nD) → (b : Ref sig .tc) → Buf (Elt Ideal) ((c : Thread nD τ).loc b))

theorem zero_offsets : (![0, 0] : Fin 2 → Nat) = fun _ => 0 :=
  funext fun a => by match a with | ⟨0, _⟩ => rfl | ⟨1, _⟩ => rfl

/-- The index maps over the twenty grid points: the three row-blocked windows sit at block row `t`, the weight
    window at its only block. -/
theorem index_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- The feature window's block at point `t` is rows `5000 t … 5000 t + 4999` of the feature array. -/
theorem rows_block (c : Dev nD) (t : Fin cfg4.N) (y : S5000x64.Idx) (i : S100000x64.Idx)
    (h0 : (i 0).val = 5000 * t.val + (y 0).val) (h1 : (i 1).val = (y 1).val) :
    (iblk4 V c 0 t : Vec Ideal S5000x64 .f32) y = (V c main_v27 : S100000x64.Idx → EReal) i := by
  obtain ⟨e0, e1, -⟩ := index_facts t
  unfold iblk4
  rw [View.read_apply]
  show V c main_v27 _ = V c main_v27 _
  congr 1
  funext a
  apply Fin.ext
  match a with
  | ⟨0, _⟩ => show win4_0.index t 0 * 5000 + 1 * (y 0).val = (i 0).val; rw [e0, h0]; omega
  | ⟨1, _⟩ => show win4_0.index t 1 * 64 + 1 * (y 1).val = (i 1).val; rw [e1, h1]; omega

/-- The weight window's block at every point is the whole weight array. -/
theorem weight_block (c : Dev nD) (t : Fin cfg4.N) (y : S64x112.Idx) (i : S64x112.Idx)
    (h0 : (i 0).val = (y 0).val) (h1 : (i 1).val = (y 1).val) :
    (iblk4 V c 1 t : Vec Ideal S64x112 .f32) y = (V c main_arg6 : S64x112.Idx → EReal) i := by
  obtain ⟨-, -, e2, e3, -⟩ := index_facts t
  unfold iblk4
  rw [View.read_apply]
  show V c main_arg6 _ = V c main_arg6 _
  congr 1
  funext a
  apply Fin.ext
  match a with
  | ⟨0, _⟩ => show win4_1.index t 0 * 64 + 1 * (y 0).val = (i 0).val; rw [e2, h0]; omega
  | ⟨1, _⟩ => show win4_1.index t 1 * 112 + 1 * (y 1).val = (i 1).val; rw [e3, h1]; omega

/-- The factor window's block at point `t` is entries `5000 t … 5000 t + 4999` of the factor column. -/
theorem factor_block (c : Dev nD) (t : Fin cfg4.N) (y : S5000x1.Idx) (i : S100000x1.Idx)
    (h0 : (i 0).val = 5000 * t.val + (y 0).val) (h1 : (i 1).val = (y 1).val) :
    (iblk4 V c 2 t : Vec Ideal S5000x1 .f32) y = (V c main_v28 : S100000x1.Idx → EReal) i := by
  obtain ⟨-, -, -, -, e4, e5, -⟩ := index_facts t
  unfold iblk4
  rw [View.read_apply]
  show V c main_v28 _ = V c main_v28 _
  congr 1
  funext a
  apply Fin.ext
  match a with
  | ⟨0, _⟩ => show win4_2.index t 0 * 5000 + 1 * (y 0).val = (i 0).val; rw [e4, h0]; omega
  | ⟨1, _⟩ => show win4_2.index t 1 * 1 + 1 * (y 1).val = (i 1).val; rw [e5, h1]; omega

/-! ## What a point writes back, and the array after the last point -/

/-- Point `t` writes back block `t` of the scaled product of the entry arrays. -/
theorem flushed_eq (c : Dev nD) (t : Fin cfg4.N) :
    (dat4 (F := Ideal) V c).flushed 3 t
      = ((cfg4.win 3).blk t).view.read (Elt Ideal) (scaled64x112 (V c main_v27) (V c main_arg6) (V c main_v28)) := by
  show (cfg4.win 3).cut (grid4.coords t) ((dat4 V c).after 3 t) = _
  rw [after4_3]
  unfold out4_3
  rw [View.canon_unit_zero zero_offsets]
  simp only [View.ld_unit_zero (S := S5000x64) zero_offsets, View.ld_unit_zero (S := S64x112) zero_offsets,
    View.ld_unit_zero (S := S5000x1) zero_offsets]
  obtain ⟨-, -, -, -, -, -, e6, e7⟩ := index_facts t
  funext j
  obtain ⟨p, q, rfl⟩ : ∃ (p : Fin 5000) (q : Fin 112), j = ix2 p q := ⟨j 0, j 1, eq_ix2 j⟩
  refine (payload_apply _ _ _ p q).trans ?_
  show _ = scaled64x112 (V c main_v27) (V c main_arg6) (V c main_v28) (((cfg4.win 3).blk t).view.emb (ix2 p q))
  unfold scaled64x112
  have r0 : ((((cfg4.win 3).blk t).view.emb (ix2 p q)) 0).val = 5000 * t.val + p.val := by
    show win4_3.index t 0 * 5000 + 1 * p.val = _; rw [e6]; omega
  have r1 : ((((cfg4.win 3).blk t).view.emb (ix2 p q)) 1).val = q.val := by
    show win4_3.index t 1 * 112 + 1 * q.val = _; rw [e7]; omega
  exact congrArg₂ (· * ·) (factor_block V c t _ _ r0 rfl)
    (Finset.sum_congr rfl fun k _ => congrArg₂ (· * ·) (rows_block V c t _ _ r0 rfl) (weight_block V c t _ _ rfl r1))

/-- An index of the output array lies in point `t`'s block iff each coordinate lies in the block's range. -/
theorem mem_block (t : Fin cfg4.N) (i : S100000x112.Idx) :
    i ∈ ((cfg4.win 3).blk t).view.set ↔ ∀ a : Fin 2, win4_3.index t a * S5000x112.size a ≤ (i a).val
      ∧ (i a).val < win4_3.index t a * S5000x112.size a + S5000x112.size a := by
  show i ∈ ((View.whole main_v29).slice (win4_3.rect t)).set ↔ _
  rw [View.set_slice_whole, Rect.mem_set_unit]
  exact Iff.rfl

/-- Row `r` of the output array lies in the block of point `r / 5000`. -/
theorem cover (i : S100000x112.Idx) :
    ∃ t : Fin cfg4.N, (cfg4.win 3).flush t = true ∧ i ∈ ((cfg4.win 3).blk t).view.set := by
  have hi0 : (i 0).val < 100000 := (i 0).isLt
  have hi1 : (i 1).val < 112 := (i 1).isLt
  have ht : (i 0).val / 5000 < cfg4.N := by show _ < 20; omega
  obtain ⟨-, -, -, -, -, -, e6, e7⟩ := index_facts ⟨(i 0).val / 5000, ht⟩
  refine ⟨⟨(i 0).val / 5000, ht⟩, flush4_3 _, ?_⟩
  rw [mem_block]
  intro a
  match a with
  | ⟨0, _⟩ =>
    show win4_3.index ⟨(i 0).val / 5000, ht⟩ 0 * 5000 ≤ (i 0).val ∧ (i 0).val < win4_3.index ⟨(i 0).val / 5000, ht⟩ 0 * 5000 + 5000
    rw [e6]; show (i 0).val / 5000 * 5000 ≤ (i 0).val ∧ (i 0).val < (i 0).val / 5000 * 5000 + 5000; omega
  | ⟨1, _⟩ =>
    show win4_3.index ⟨(i 0).val / 5000, ht⟩ 1 * 112 ≤ (i 1).val ∧ (i 1).val < win4_3.index ⟨(i 0).val / 5000, ht⟩ 1 * 112 + 112
    rw [e7]; omega

/-- The output array of pallas_call 4 after its last grid point, as a function of the arrays it read at entry. -/
theorem final4 (c : Dev nD) :
    (dat4 (F := Ideal) V c).arrAt 3 cfg4.N = scaled64x112 (V c main_v27) (V c main_arg6) (V c main_v28) := by
  exact (dat4 V c).arrAt_eq_of_cover 3 _ (fun t _ => flushed_eq V c t) cover

end Cert.KernelIdeal.Region4

end
-- ==== Proof.Region5.lean ====
/-
  The sixth pallas_call: blocks of `d ⊙ (A + H) + b`, 112 columns, not clipped.
-/
import proofs.«421954_j14886356648486_2_alg».proof.Proof.Terms
import Idealize.ShloMosaic.Lib.Pipeline.Value
import Idealize.ShloMosaic.Lib.ValueLayout
import Idealize.ShloMosaic.PureOps.Ideal.Laws

noncomputable section

namespace Cert.KernelIdeal.Region5

open Idealize.ShloMosaic Idealize.ShloMosaic.TcCoe Idealize.ShloMosaic.ValueIdx Idealize.SL.Sem
open Cert.KernelIdeal Cert.KernelIdeal.Gen Cert.KernelIdeal.Terms
open Idealize.ShloMosaic.Pipeline (Dat)
open scoped BigOperators

variable (V : (c : Dev nD) → (b : Ref sig .tc) → Buf (Elt Ideal) ((c : Thread nD τ).loc b))

/-- Two zero offsets are the zero offset function. -/
theorem zeroOff : (![0, 0] : Fin 2 → Nat) = fun _ => 0 :=
  funext fun a => match a with | ⟨0, _⟩ => rfl | ⟨1, _⟩ => rfl

/-- The body's result at row `p`, column `q` of a block: the degree entry of the row times the sum of the two
    row entries, plus the bias entry of the column (nothing is clipped in the last layer). -/
theorem pay_apply (xA xH : Vec Ideal S5000x112 .f32) (xd : Vec Ideal S5000x1 .f32) (xb : Vec Ideal S1x112 .f32)
    (p : Fin 5000) (q : Fin 112) :
    k5_pay1 (F := Ideal) xd xA xH xb (ix2 p q)
      = xd (ix2 p (0 : Fin 1)) * (xA (ix2 p q) + xH (ix2 p q)) + xb (ix2 (0 : Fin 1) q) := by
  unfold k5_pay1
  simp only [shapeCast_self]
  rw [addf_apply, mulf_apply, addf_apply]
  have hd : broadcastTo S5000x112 xd broadcasts_S5000x1_S5000x112 (ix2 p q) = xd (ix2 p (0 : Fin 1)) :=
    broadcastTo_apply _ _ _ _ fun a => match a with | ⟨0, _⟩ => rfl | ⟨1, _⟩ => rfl
  have hb : broadcastTo S5000x112 xb broadcasts_S1x112_S5000x112 (ix2 p q) = xb (ix2 (0 : Fin 1) q) :=
    broadcastTo_apply _ _ _ _ fun a => match a with | ⟨0, _⟩ => rfl | ⟨1, _⟩ => rfl
  rw [hd, hb]

/-- The printed index maps over the twenty points: the row-blocked windows sit at block `(t, 0)`, the bias row's at
    `(0, 0)`. -/
theorem index_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The grid has twenty points. -/
theorem points : cfg5.N = 20 := by decide

/-- Entry `x` of the block of aggregated sums at point `t` is the array's entry `5000 t` rows further down. -/
theorem blockA_apply (c : Dev nD) (t : Fin cfg5.N) (x : S5000x112.Idx) (k : S100000x112.Idx)
    (hk0 : (k 0).val = 5000 * t.val + (x 0).val) (hk1 : (k 1).val = (x 1).val) :
    (iblk5 V c 0 t : Vec Ideal S5000x112 .f32) x = (V c main_v33 : S100000x112.Idx → Elt Ideal .f32) k := by
  obtain ⟨e0, e1, -⟩ := index_facts t
  unfold iblk5
  rw [View.read_apply]
  show V c main_v33 (((cfg5.win 0).blk t).view.emb x) = V c main_v33 k
  congr 1
  funext a
  apply Fin.ext
  match a with
  | ⟨0, _⟩ => show win5_0.index t (0 : Fin 2) * 5000 + 1 * (x 0).val = (k 0).val; rw [e0, hk0]; omega
  | ⟨1, _⟩ => show win5_0.index t (1 : Fin 2) * 112 + 1 * (x 1).val = (k 1).val; rw [e1, hk1]; omega

/-- The same for the block of the node's own scaled rows. -/
theorem blockH_apply (c : Dev nD) (t : Fin cfg5.N) (x : S5000x112.Idx) (k : S100000x112.Idx)
    (hk0 : (k 0).val = 5000 * t.val + (x 0).val) (hk1 : (k 1).val = (x 1).val) :
    (iblk5 V c 1 t : Vec Ideal S5000x112 .f32) x = (V c main_v29 : S100000x112.Idx → Elt Ideal .f32) k := by
  obtain ⟨-, -, e0, e1, -⟩ := index_facts t
  unfold iblk5
  rw [View.read_apply]
  show V c main_v29 (((cfg5.win 1).blk t).view.emb x) = V c main_v29 k
  congr 1
  funext a
  apply Fin.ext
  match a with
  | ⟨0, _⟩ => show win5_1.index t (0 : Fin 2) * 5000 + 1 * (x 0).val = (k 0).val; rw [e0, hk0]; omega
  | ⟨1, _⟩ => show win5_1.index t (1 : Fin 2) * 112 + 1 * (x 1).val = (k 1).val; rw [e1, hk1]; omega

/-- The block of the degree column at point `t` is its rows from `5000 t` on. -/
theorem blockD_apply (c : Dev nD) (t : Fin cfg5.N) (x : S5000x1.Idx) (k : S100000x1.Idx)
    (hk0 : (k 0).val = 5000 * t.val + (x 0).val) (hk1 : (k 1).val = (x 1).val) :
    (iblk5 V c 2 t : Vec Ideal S5000x1 .f32) x = (V c main_v11 : S100000x1.Idx → Elt Ideal .f32) k := by
  obtain ⟨-, -, -, -, e0, e1, -⟩ := index_facts t
  unfold iblk5
  rw [View.read_apply]
  show V c main_v11 (((cfg5.win 2).blk t).view.emb x) = V c main_v11 k
  congr 1
  funext a
  apply Fin.ext
  match a with
  | ⟨0, _⟩ => show win5_2.index t (0 : Fin 2) * 5000 + 1 * (x 0).val = (k 0).val; rw [e0, hk0]; omega
  | ⟨1, _⟩ => show win5_2.index t (1 : Fin 2) * 1 + 1 * (x 1).val = (k 1).val; rw [e1, hk1]; omega

/-- The bias row's block is the whole row at every point. -/
theorem blockB_apply (c : Dev nD) (t : Fin cfg5.N) (x : S1x112.Idx) (k : S1x112.Idx)
    (hk0 : (k 0).val = (x 0).val) (hk1 : (k 1).val = (x 1).val) :
    (iblk5 V c 3 t : Vec Ideal S1x112 .f32) x = (V c main_v34 : S1x112.Idx → Elt Ideal .f32) k := by
  obtain ⟨-, -, -, -, -, -, e0, e1, -⟩ := index_facts t
  unfold iblk5
  rw [View.read_apply]
  show V c main_v34 (((cfg5.win 3).blk t).view.emb x) = V c main_v34 k
  congr 1
  funext a
  apply Fin.ext
  match a with
  | ⟨0, _⟩ => show win5_3.index t (0 : Fin 2) * 1 + 1 * (x 0).val = (k 0).val; rw [e0, hk0]; omega
  | ⟨1, _⟩ => show win5_3.index t (1 : Fin 2) * 112 + 1 * (x 1).val = (k 1).val; rw [e1, hk1]; omega

/-- Where entry `j` of the output block of point `t` lies in the array: `5000 t` rows down, same column. -/
theorem out_emb (t : Fin cfg5.N) (j : S5000x112.Idx) :
    ((((cfg5.win 4).blk t).view.emb j) 0).val = 5000 * t.val + (j 0).val
    ∧ ((((cfg5.win 4).blk t).view.emb j) 1).val = (j 1).val := by
  obtain ⟨-, -, -, -, -, -, -, -, e0, e1⟩ := index_facts t
  constructor
  · show win5_4.index t (0 : Fin 2) * 5000 + 1 * (j 0).val = _; rw [e0]; omega
  · show win5_4.index t (1 : Fin 2) * 112 + 1 * (j 1).val = _; rw [e1]; omega

/-- What point `t` writes back is block `t` of the combination of the four entry arrays. -/
theorem flushed_eq (c : Dev nD) (t : Fin cfg5.N) :
    (dat5 (F := Ideal) V c).flushed 4 t
      = ((cfg5.win 4).blk t).view.read (Elt Ideal)
          (combine112 (V c main_v33) (V c main_v29) (V c main_v11) (V c main_v34)) := by
  show (cfg5.win 4).cut (grid5.coords t) ((dat5 (F := Ideal) V c).after 4 t) = _
  rw [after5_4]
  unfold out5_4
  rw [View.canon_unit_zero zeroOff]
  simp only [View.ld_unit_zero (S := S5000x112) zeroOff, View.ld_unit_zero (S := S5000x1) zeroOff,
    View.ld_unit_zero (S := S1x112) zeroOff]
  funext j
  obtain ⟨p, q, rfl⟩ : ∃ (p : Fin 5000) (q : Fin 112), j = ix2 p q := ⟨j 0, j 1, eq_ix2 j⟩
  obtain ⟨h0, h1⟩ := out_emb t (ix2 p q)
  show k5_pay1 (F := Ideal) (iblk5 V c 2 t) (iblk5 V c 0 t) (iblk5 V c 1 t) (iblk5 V c 3 t) (ix2 p q)
    = combine112 (V c main_v33) (V c main_v29) (V c main_v11) (V c main_v34) (((cfg5.win 4).blk t).view.emb (ix2 p q))
  generalize ((cfg5.win 4).blk t).view.emb (ix2 p q) = i at h0 h1 ⊢
  rw [pay_apply, blockA_apply V c t (ix2 p q) i h0 h1, blockH_apply V c t (ix2 p q) i h0 h1,
    blockD_apply V c t (ix2 p (0 : Fin 1)) (ix2 (⟨(i 0).val, (i 0).isLt⟩ : Fin 100000) (0 : Fin 1)) h0 rfl,
    blockB_apply V c t (ix2 (0 : Fin 1) q) (ix2 (0 : Fin 1) (⟨(i 1).val, (i 1).isLt⟩ : Fin 112)) rfl h1]
  rfl

/-- An array index lies in the block of point `t` exactly when each coordinate lies in the block's range. -/
theorem mem_block (t : Fin cfg5.N) (i : S100000x112.Idx) :
    i ∈ ((cfg5.win 4).blk t).view.set
      ↔ ∀ a : Fin 2, win5_4.index t a * S5000x112.size a ≤ (i a).val
          ∧ (i a).val < win5_4.index t a * S5000x112.size a + S5000x112.size a := by
  show i ∈ ((View.whole main_v35).slice (win5_4.rect t)).set ↔ _
  rw [View.set_slice_whole, Rect.mem_set_unit]
  exact Iff.rfl

/-- Row `r` of the array is written by the point `r / 5000`: the twenty blocks tile the array. -/
theorem covered (i : S100000x112.Idx) :
    ∃ t : Fin cfg5.N, (cfg5.win 4).flush t = true ∧ i ∈ ((cfg5.win 4).blk t).view.set := by
  have hi0 : (i 0).val < 100000 := (i 0).isLt
  have hi1 : (i 1).val < 112 := (i 1).isLt
  refine ⟨⟨(i 0).val / 5000, by rw [points]; omega⟩, flush5_4 _, ?_⟩
  obtain ⟨-, -, -, -, -, -, -, -, e0, e1⟩ := index_facts ⟨(i 0).val / 5000, by rw [points]; omega⟩
  rw [mem_block]
  intro a
  match a with
  | ⟨0, _⟩ =>
    show win5_4.index _ (0 : Fin 2) * 5000 ≤ (i 0).val ∧ (i 0).val < win5_4.index _ (0 : Fin 2) * 5000 + 5000
    rw [e0]; show (i 0).val / 5000 * 5000 ≤ (i 0).val ∧ (i 0).val < (i 0).val / 5000 * 5000 + 5000; omega
  | ⟨1, _⟩ =>
    show win5_4.index _ (1 : Fin 2) * 112 ≤ (i 1).val ∧ (i 1).val < win5_4.index _ (1 : Fin 2) * 112 + 112
    rw [e1]; omega

/-- The output array of pallas_call 5 after its last grid point, as a function of the arrays it read at entry. -/
theorem final5 (c : Dev nD) :
    (dat5 (F := Ideal) V c).arrAt 4 cfg5.N = combine112 (V c main_v33) (V c main_v29) (V c main_v11) (V c main_v34) := by
  exact (dat5 (F := Ideal) V c).arrAt_eq_of_cover 4 _ (fun t _ => flushed_eq V c t) covered

end Cert.KernelIdeal.Region5

end
-- ==== Proof.Step1.lean ====
/-
  The first host stretch: the edge list's rows, the degree count, its reciprocal square root and the column forms,
  read off the launch memory; the arguments untouched.
-/
import proofs.«421954_j14886356648486_2_alg».proof.Proof.States
import proofs.«421954_j14886356648486_2_alg».proof.Proof.Region0
import proofs.«421954_j14886356648486_2_alg».proof.Proof.Region1
import proofs.«421954_j14886356648486_2_alg».proof.Proof.Region2
import proofs.«421954_j14886356648486_2_alg».proof.Proof.Region3
import proofs.«421954_j14886356648486_2_alg».proof.Proof.Region4
import proofs.«421954_j14886356648486_2_alg».proof.Proof.Region5
import Idealize.ShloMosaic.Lib.StableHlo.Run

noncomputable section

namespace Cert.KernelIdeal.Step1

open Idealize.ShloMosaic Idealize.ShloMosaic.TcCoe Idealize.ShloMosaic.ValueIdx Idealize.SL.Sem
open Cert.KernelIdeal Cert.KernelIdeal.Gen Cert.KernelIdeal.Terms
open Idealize.ShloMosaic.Pipeline (Dat)
open scoped BigOperators
open Cert.KernelIdeal.States

variable (m : (ℓ : Loc nD τ sig) → Buf (Elt Ideal) ℓ) (ρ : Dev nD → PrngReg) (c : Dev nD)

/-! ## The buffers the first host stretch writes -/

theorem sources : W1 m ρ c (Proc.devRef .tc main_v1) = srcW (A1 m c) := by
  show StableHlo.after hostOps0 (W0 m ρ c) (Proc.devRef .tc main_v1) = _
  after_results
  rfl

theorem destinations : W1 m ρ c (Proc.devRef .tc main_v3) = dstW (A1 m c) := by
  show StableHlo.after hostOps0 (W0 m ρ c) (Proc.devRef .tc main_v3) = _
  after_results
  rfl

theorem factors : W1 m ρ c (Proc.devRef .tc main_v10) = degInv (A1 m c) := by
  show StableHlo.after hostOps0 (W0 m ρ c) (Proc.devRef .tc main_v10) = _
  after_results
  rfl

theorem factor_column : W1 m ρ c (Proc.devRef .tc main_v11) = degCol (A1 m c) := by
  show StableHlo.after hostOps0 (W0 m ρ c) (Proc.devRef .tc main_v11) = _
  after_results
  rfl

theorem factor_column' : W1 m ρ c (Proc.devRef .tc main_v12) = degCol (A1 m c) := by
  show StableHlo.after hostOps0 (W0 m ρ c) (Proc.devRef .tc main_v12) = _
  after_results
  rfl

/-! ## The arguments it leaves alone -/

theorem kept0 : W1 m ρ c (Proc.devRef .tc main_arg0) = A0 m c := by
  show StableHlo.after hostOps0 (W0 m ρ c) (Proc.devRef .tc main_arg0) = _
  first | (after_results; done) | (after_results; rfl)

theorem kept2 : W1 m ρ c (Proc.devRef .tc main_arg2) = A2 m c := by
  show StableHlo.after hostOps0 (W0 m ρ c) (Proc.devRef .tc main_arg2) = _
  first | (after_results; done) | (after_results; rfl)

theorem kept3 : W1 m ρ c (Proc.devRef .tc main_arg3) = A3 m c := by
  show StableHlo.after hostOps0 (W0 m ρ c) (Proc.devRef .tc main_arg3) = _
  first | (after_results; done) | (after_results; rfl)

theorem kept4 : W1 m ρ c (Proc.devRef .tc main_arg4) = A4 m c := by
  show StableHlo.after hostOps0 (W0 m ρ c) (Proc.devRef .tc main_arg4) = _
  first | (after_results; done) | (after_results; rfl)

theorem kept5 : W1 m ρ c (Proc.devRef .tc main_arg5) = A5 m c := by
  show StableHlo.after hostOps0 (W0 m ρ c) (Proc.devRef .tc main_arg5) = _
  first | (after_results; done) | (after_results; rfl)

theorem kept6 : W1 m ρ c (Proc.devRef .tc main_arg6) = A6 m c := by
  show StableHlo.after hostOps0 (W0 m ρ c) (Proc.devRef .tc main_arg6) = _
  first | (after_results; done) | (after_results; rfl)

theorem kept7 : W1 m ρ c (Proc.devRef .tc main_arg7) = A7 m c := by
  show StableHlo.after hostOps0 (W0 m ρ c) (Proc.devRef .tc main_arg7) = _
  first | (after_results; done) | (after_results; rfl)

theorem at1 : At1 m ρ c := by
  exact ⟨sources m ρ c, destinations m ρ c, factors m ρ c, factor_column m ρ c, factor_column' m ρ c,
    kept0 m ρ c, kept2 m ρ c, kept3 m ρ c, kept4 m ρ c, kept5 m ρ c, kept6 m ρ c, kept7 m ρ c⟩

end Cert.KernelIdeal.Step1

end
-- ==== Proof.TakeStretch.lean ====
/-
  The host stretch that is one call of `take`: whatever the buffers held before it, its result buffer then holds the
  rows of the scaled array at the edges' sources (`takeRows…` of the two buffers it reads). The call's operations pass
  every value through its buffer's stated type and back; those two transports cancel.
-/
import proofs.«421954_j14886356648486_2_alg».proof.Proof.Terms
import Idealize.ShloMosaic.Lib.StableHlo.Run

noncomputable section

namespace Cert.KernelIdeal.TakeStretch

open Idealize.ShloMosaic Idealize.ShloMosaic.TcCoe Idealize.ShloMosaic.ValueIdx Idealize.SL.Sem
open Cert.KernelIdeal Cert.KernelIdeal.Gen Cert.KernelIdeal.Terms
open Idealize.ShloMosaic.Pipeline (Dat)
open scoped BigOperators

/-- A value written to a typed buffer and read back is the value. -/
theorem ofBuf_toBuf {Val : EltTy → Type} {T : BufTy} (x : StableHlo.TRef sig T) (v : T.Contents Val) :
    x.ofBuf (x.toBuf v) = v := by
  obtain ⟨r, h, h2, h3⟩ := x
  subst h
  rfl

set_option maxHeartbeats 4000000 in
/-- The first call (layer one): rows of buffer `main_v13` at the sources in `main_v1`, into `main_v14`. -/
theorem take1 (Wv : Valuation τ sig (Elt Ideal)) :
    StableHlo.after hostOps1 Wv (Proc.devRef .tc main_v14)
      = takeRows64 (Wv (Proc.devRef .tc main_v13)) (Wv (Proc.devRef .tc main_v1)) := by
  after_results_simp
  simp only [ofBuf_toBuf]
  have e1 : ∀ v, ((StableHlo.TRef.of main_v1 : StableHlo.TRef sig ⟨S1600000, .i32⟩).ofBuf v : (⟨S1600000, .i32⟩ : BufTy).Contents (Elt Ideal)) = v := fun v => rfl
  have e13 : ∀ v, ((StableHlo.TRef.of main_v13 : StableHlo.TRef sig ⟨S100000x64, .f32⟩).ofBuf v : (⟨S100000x64, .f32⟩ : BufTy).Contents (Elt Ideal)) = v := fun v => rfl
  have e14 : ∀ v : (⟨S1600000x64, .f32⟩ : BufTy).Contents (Elt Ideal), ((StableHlo.TRef.of main_v14 : StableHlo.TRef sig ⟨S1600000x64, .f32⟩).toBuf v : (⟨S1600000x64, .f32⟩ : BufTy).Contents (Elt Ideal)) = v := fun v => rfl
  simp only [e1, e13]
  refine (e14 _).trans ?_
  rfl

set_option maxHeartbeats 4000000 in
/-- The second call (layer two): rows of `main_v21` at the sources in `main_v1`, into `main_v22`. -/
theorem take3 (Wv : Valuation τ sig (Elt Ideal)) :
    StableHlo.after hostOps3 Wv (Proc.devRef .tc main_v22)
      = takeRows64 (Wv (Proc.devRef .tc main_v21)) (Wv (Proc.devRef .tc main_v1)) := by
  after_results_simp
  simp only [ofBuf_toBuf]
  have e1 : ∀ v, ((StableHlo.TRef.of main_v1 : StableHlo.TRef sig ⟨S1600000, .i32⟩).ofBuf v : (⟨S1600000, .i32⟩ : BufTy).Contents (Elt Ideal)) = v := fun v => rfl
  have e21 : ∀ v, ((StableHlo.TRef.of main_v21 : StableHlo.TRef sig ⟨S100000x64, .f32⟩).ofBuf v : (⟨S100000x64, .f32⟩ : BufTy).Contents (Elt Ideal)) = v := fun v => rfl
  have e22 : ∀ v : (⟨S1600000x64, .f32⟩ : BufTy).Contents (Elt Ideal), ((StableHlo.TRef.of main_v22 : StableHlo.TRef sig ⟨S1600000x64, .f32⟩).toBuf v : (⟨S1600000x64, .f32⟩ : BufTy).Contents (Elt Ideal)) = v := fun v => rfl
  simp only [e1, e21]
  refine (e22 _).trans ?_
  rfl

set_option maxHeartbeats 4000000 in
/-- The third call (layer three, 112 columns): rows of `main_v29` at the sources in `main_v1`, into `main_v30`. -/
theorem take5 (Wv : Valuation τ sig (Elt Ideal)) :
    StableHlo.after hostOps5 Wv (Proc.devRef .tc main_v30)
      = takeRows112 (Wv (Proc.devRef .tc main_v29)) (Wv (Proc.devRef .tc main_v1)) := by
  after_results_simp
  simp only [ofBuf_toBuf]
  have e1 : ∀ v, ((StableHlo.TRef.of main_v1 : StableHlo.TRef sig ⟨S1600000, .i32⟩).ofBuf v : (⟨S1600000, .i32⟩ : BufTy).Contents (Elt Ideal)) = v := fun v => rfl
  have e29 : ∀ v, ((StableHlo.TRef.of main_v29 : StableHlo.TRef sig ⟨S100000x112, .f32⟩).ofBuf v : (⟨S100000x112, .f32⟩ : BufTy).Contents (Elt Ideal)) = v := fun v => rfl
  have e30 : ∀ v : (⟨S1600000x112, .f32⟩ : BufTy).Contents (Elt Ideal), ((StableHlo.TRef.of main_v30 : StableHlo.TRef sig ⟨S1600000x112, .f32⟩).toBuf v : (⟨S1600000x112, .f32⟩ : BufTy).Contents (Elt Ideal)) = v := fun v => rfl
  simp only [e1, e29]
  refine (e30 _).trans ?_
  rfl

end Cert.KernelIdeal.TakeStretch

end
-- ==== Proof.Step4.lean ====
/-
  Across pallas_call 0 and the two host stretches after it: the scaled product, its rows taken at the sources and
  summed per destination, and the first bias as a row.
-/
import proofs.«421954_j14886356648486_2_alg».proof.Proof.States
import proofs.«421954_j14886356648486_2_alg».proof.Proof.Region0
import proofs.«421954_j14886356648486_2_alg».proof.Proof.Region1
import proofs.«421954_j14886356648486_2_alg».proof.Proof.Region2
import proofs.«421954_j14886356648486_2_alg».proof.Proof.Region3
import proofs.«421954_j14886356648486_2_alg».proof.Proof.Region4
import proofs.«421954_j14886356648486_2_alg».proof.Proof.Region5
import proofs.«421954_j14886356648486_2_alg».proof.Proof.TakeStretch
import Idealize.ShloMosaic.Lib.StableHlo.Run

noncomputable section

namespace Cert.KernelIdeal.Step4

open Idealize.ShloMosaic Idealize.ShloMosaic.TcCoe Idealize.ShloMosaic.ValueIdx Idealize.SL.Sem
open Cert.KernelIdeal Cert.KernelIdeal.Gen Cert.KernelIdeal.Terms
open Idealize.ShloMosaic.Pipeline (Dat)
open scoped BigOperators
open Cert.KernelIdeal.States

variable (m : (ℓ : Loc nD τ sig) → Buf (Elt Ideal) ℓ) (ρ : Dev nD → PrngReg) (c : Dev nD)

/-- Closes "no operation of the stretch writes this buffer": the stretch's operations listed one by one, each result
    buffer told apart from the buffer by deciding the two references. -/
local macro "not_written " ops:ident : tactic => `(tactic| (
  refine List.forall_iff_forall_mem.mp ?_
  simp only [$ops:ident, List.flatten_cons, List.flatten_nil, List.append_nil, List.cons_append, List.nil_append,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## At the exit of pallas_call 0 -/

/-- Its output array holds the scaled product of the arguments. -/
theorem product_at2 (h : At1 m ρ c) : W2 m ρ c (Proc.devRef .tc main_v13) = H1 m c := by
  refine (W2_arr m ρ c 3).trans ((Region0.final0 (V1 m ρ) c).trans ?_)
  rw [show V1 m ρ c main_arg0 = A0 m c from h.g0, show V1 m ρ c main_arg2 = A2 m c from h.g2,
    show V1 m ρ c main_v12 = degCol (A1 m c) from h.v12]

theorem sources_at2 (h : At1 m ρ c) : W2 m ρ c (Proc.devRef .tc main_v1) = srcW (A1 m c) :=
  (W2_of_ne m ρ c main_v1 (by decide)).trans h.v1

/-! ## After the call of take -/

theorem sources_at3 (h : At1 m ρ c) : W3 m ρ c (Proc.devRef .tc main_v1) = srcW (A1 m c) :=
  (StableHlo.after_of_forall_not_mem (b := Proc.devRef .tc main_v1) _ _ (by not_written hostOps1)).trans (sources_at2 m ρ c h)

theorem destinations_at3 (h : At1 m ρ c) : W3 m ρ c (Proc.devRef .tc main_v3) = dstW (A1 m c) :=
  (StableHlo.after_of_forall_not_mem (b := Proc.devRef .tc main_v3) _ _ (by not_written hostOps1)).trans
    ((W2_of_ne m ρ c main_v3 (by decide)).trans h.v3)

theorem product_at3 (h : At1 m ρ c) : W3 m ρ c (Proc.devRef .tc main_v13) = H1 m c :=
  (StableHlo.after_of_forall_not_mem (b := Proc.devRef .tc main_v13) _ _ (by not_written hostOps1)).trans (product_at2 m ρ c h)

theorem bias_at3 (h : At1 m ρ c) : W3 m ρ c (Proc.devRef .tc main_arg3) = A3 m c :=
  (StableHlo.after_of_forall_not_mem (b := Proc.devRef .tc main_arg3) _ _ (by not_written hostOps1)).trans
    ((W2_of_ne m ρ c main_arg3 (by decide)).trans h.g3)

/-- The call's result: the product's rows at the edges' sources. -/
theorem taken_at3 (h : At1 m ρ c) :
    W3 m ρ c (Proc.devRef .tc main_v14) = takeRows64 (H1 m c) (srcW (A1 m c)) := by
  refine (TakeStretch.take1 (W2 m ρ c)).trans ?_
  rw [product_at2 m ρ c h, sources_at2 m ρ c h]

/-! ## After the stretch that sums the rows per destination -/

theorem summed_at4 (h : At1 m ρ c) :
    W4 m ρ c (Proc.devRef .tc main_v17) = aggregate64 (takeRows64 (H1 m c) (srcW (A1 m c))) (A1 m c) := by
  have e3 := destinations_at3 m ρ c h
  have e14 := taken_at3 m ρ c h
  unfold aggregate64 dstCol
  rw [← e3, ← e14]
  show StableHlo.after hostOps1_1 (W3 m ρ c) (Proc.devRef .tc main_v17) = _
  generalize W3 m ρ c = Wv
  after_results <;> rfl

theorem bias_row_at4 (h : At1 m ρ c) : W4 m ρ c (Proc.devRef .tc main_v18) = biasRow64 (A3 m c) := by
  have e := bias_at3 m ρ c h
  unfold biasRow64
  rw [← e]
  show StableHlo.after hostOps1_1 (W3 m ρ c) (Proc.devRef .tc main_v18) = _
  generalize W3 m ρ c = Wv
  after_results <;> rfl

theorem product_at4 (h : At1 m ρ c) : W4 m ρ c (Proc.devRef .tc main_v13) = H1 m c :=
  (StableHlo.after_of_forall_not_mem (b := Proc.devRef .tc main_v13) _ _ (by not_written hostOps1_1)).trans (product_at3 m ρ c h)

theorem sources_at4 (h : At1 m ρ c) : W4 m ρ c (Proc.devRef .tc main_v1) = srcW (A1 m c) :=
  (StableHlo.after_of_forall_not_mem (b := Proc.devRef .tc main_v1) _ _ (by not_written hostOps1_1)).trans (sources_at3 m ρ c h)

theorem destinations_at4 (h : At1 m ρ c) : W4 m ρ c (Proc.devRef .tc main_v3) = dstW (A1 m c) :=
  (StableHlo.after_of_forall_not_mem (b := Proc.devRef .tc main_v3) _ _ (by not_written hostOps1_1)).trans (destinations_at3 m ρ c h)

theorem factors_at4 (h : At1 m ρ c) : W4 m ρ c (Proc.devRef .tc main_v10) = degInv (A1 m c) :=
  (StableHlo.after_of_forall_not_mem (b := Proc.devRef .tc main_v10) _ _ (by not_written hostOps1_1)).trans
    ((StableHlo.after_of_forall_not_mem (b := Proc.devRef .tc main_v10) _ _ (by not_written hostOps1)).trans
      ((W2_of_ne m ρ c main_v10 (by decide)).trans h.v10))

theorem factor_column_at4 (h : At1 m ρ c) : W4 m ρ c (Proc.devRef .tc main_v11) = degCol (A1 m c) :=
  (StableHlo.after_of_forall_not_mem (b := Proc.devRef .tc main_v11) _ _ (by not_written hostOps1_1)).trans
    ((StableHlo.after_of_forall_not_mem (b := Proc.devRef .tc main_v11) _ _ (by not_written hostOps1)).trans
      ((W2_of_ne m ρ c main_v11 (by decide)).trans h.v11))

theorem kept4 (h : At1 m ρ c) : W4 m ρ c (Proc.devRef .tc main_arg4) = A4 m c :=
  (StableHlo.after_of_forall_not_mem (b := Proc.devRef .tc main_arg4) _ _ (by not_written hostOps1_1)).trans
    ((StableHlo.after_of_forall_not_mem (b := Proc.devRef .tc main_arg4) _ _ (by not_written hostOps1)).trans
      ((W2_of_ne m ρ c main_arg4 (by decide)).trans h.g4))

theorem kept5 (h : At1 m ρ c) : W4 m ρ c (Proc.devRef .tc main_arg5) = A5 m c :=
  (StableHlo.after_of_forall_not_mem (b := Proc.devRef .tc main_arg5) _ _ (by not_written hostOps1_1)).trans
    ((StableHlo.after_of_forall_not_mem (b := Proc.devRef .tc main_arg5) _ _ (by not_written hostOps1)).trans
      ((W2_of_ne m ρ c main_arg5 (by decide)).trans h.g5))

theorem kept6 (h : At1 m ρ c) : W4 m ρ c (Proc.devRef .tc main_arg6) = A6 m c :=
  (StableHlo.after_of_forall_not_mem (b := Proc.devRef .tc main_arg6) _ _ (by not_written hostOps1_1)).trans
    ((StableHlo.after_of_forall_not_mem (b := Proc.devRef .tc main_arg6) _ _ (by not_written hostOps1)).trans
      ((W2_of_ne m ρ c main_arg6 (by decide)).trans h.g6))

theorem kept7 (h : At1 m ρ c) : W4 m ρ c (Proc.devRef .tc main_arg7) = A7 m c :=
  (StableHlo.after_of_forall_not_mem (b := Proc.devRef .tc main_arg7) _ _ (by not_written hostOps1_1)).trans
    ((StableHlo.after_of_forall_not_mem (b := Proc.devRef .tc main_arg7) _ _ (by not_written hostOps1)).trans
      ((W2_of_ne m ρ c main_arg7 (by decide)).trans h.g7))

theorem at4 (h : At1 m ρ c) : At4 m ρ c := by
  exact ⟨summed_at4 m ρ c h, product_at4 m ρ c h, factor_column_at4 m ρ c h, bias_row_at4 m ρ c h, sources_at4 m ρ c h,
    destinations_at4 m ρ c h, factors_at4 m ρ c h, kept4 m ρ c h, kept5 m ρ c h, kept6 m ρ c h, kept7 m ρ c h⟩

end Cert.KernelIdeal.Step4

end
-- ==== Proof.Step6.lean ====
/-
  Across pallas_call 1 and the host stretch after it: the first layer's result, and the degree column again.
-/
import proofs.«421954_j14886356648486_2_alg».proof.Proof.States
import proofs.«421954_j14886356648486_2_alg».proof.Proof.Region0
import proofs.«421954_j14886356648486_2_alg».proof.Proof.Region1
import proofs.«421954_j14886356648486_2_alg».proof.Proof.Region2
import proofs.«421954_j14886356648486_2_alg».proof.Proof.Region3
import proofs.«421954_j14886356648486_2_alg».proof.Proof.Region4
import proofs.«421954_j14886356648486_2_alg».proof.Proof.Region5
import Idealize.ShloMosaic.Lib.StableHlo.Run

noncomputable section

namespace Cert.KernelIdeal.Step6

open Idealize.ShloMosaic Idealize.ShloMosaic.TcCoe Idealize.ShloMosaic.ValueIdx Idealize.SL.Sem
open Cert.KernelIdeal Cert.KernelIdeal.Gen Cert.KernelIdeal.Terms
open Idealize.ShloMosaic.Pipeline (Dat)
open scoped BigOperators
open Cert.KernelIdeal.States

variable (m : (ℓ : Loc nD τ sig) → Buf (Elt Ideal) ℓ) (ρ : Dev nD → PrngReg) (c : Dev nD)

theorem at6 (h : At4 m ρ c) : At6 m ρ c := by
  refine ⟨?_, ?_, ?_, ?_, ?_, ?_, ?_, ?_, ?_, ?_⟩
  · -- the layer's result: the region's output array, untouched by the reshape after it
    show StableHlo.after hostOps2 (W5 m ρ c) (Proc.devRef .tc main_v19) = _
    after_results
    refine (W5_arr m ρ c 4).trans ((Region1.final1 (V4 m ρ) c).trans ?_)
    rw [show V4 m ρ c main_v17 = _ from h.v17, show V4 m ρ c main_v13 = _ from h.v13,
      show V4 m ρ c main_v11 = _ from h.v11, show V4 m ρ c main_v18 = _ from h.v18]
    rfl
  · -- the degree column again: the reshape of the degree vector
    show StableHlo.after hostOps2 (W5 m ρ c) (Proc.devRef .tc main_v20) = _
    have e10 : W5 m ρ c (Proc.devRef .tc main_v10) = degInv (A1 m c) :=
      (W5_of_ne m ρ c main_v10 (by decide)).trans h.v10
    unfold degCol
    rw [← e10]
    generalize W5 m ρ c = Wv
    after_results
    rfl
  · show StableHlo.after hostOps2 (W5 m ρ c) (Proc.devRef .tc main_v11) = _
    after_results
    exact ((W5_arr m ρ c 2).trans (((dat1 (V4 m ρ) c).arrAt_in 2 rfl _).trans (A_eq1 (V4 m ρ) c 2))).trans h.v11
  · show StableHlo.after hostOps2 (W5 m ρ c) (Proc.devRef .tc main_v1) = _
    after_results
    exact (W5_of_ne m ρ c main_v1 (by decide)).trans h.v1
  · show StableHlo.after hostOps2 (W5 m ρ c) (Proc.devRef .tc main_v3) = _
    after_results
    exact (W5_of_ne m ρ c main_v3 (by decide)).trans h.v3
  · show StableHlo.after hostOps2 (W5 m ρ c) (Proc.devRef .tc main_v10) = _
    after_results
    exact (W5_of_ne m ρ c main_v10 (by decide)).trans h.v10
  · show StableHlo.after hostOps2 (W5 m ρ c) (Proc.devRef .tc main_arg4) = _
    after_results
    exact (W5_of_ne m ρ c main_arg4 (by decide)).trans h.g4
  · show StableHlo.after hostOps2 (W5 m ρ c) (Proc.devRef .tc main_arg5) = _
    after_results
    exact (W5_of_ne m ρ c main_arg5 (by decide)).trans h.g5
  · show StableHlo.after hostOps2 (W5 m ρ c) (Proc.devRef .tc main_arg6) = _
    after_results
    exact (W5_of_ne m ρ c main_arg6 (by decide)).trans h.g6
  · show StableHlo.after hostOps2 (W5 m ρ c) (Proc.devRef .tc main_arg7) = _
    after_results
    exact (W5_of_ne m ρ c main_arg7 (by decide)).trans h.g7

end Cert.KernelIdeal.Step6

end
-- ==== Proof.Step9.lean ====
/-
  Across pallas_call 2 and the two host stretches after it.
-/
import proofs.«421954_j14886356648486_2_alg».proof.Proof.States
import proofs.«421954_j14886356648486_2_alg».proof.Proof.Region0
import proofs.«421954_j14886356648486_2_alg».proof.Proof.Region1
import proofs.«421954_j14886356648486_2_alg».proof.Proof.Region2
import proofs.«421954_j14886356648486_2_alg».proof.Proof.Region3
import proofs.«421954_j14886356648486_2_alg».proof.Proof.Region4
import proofs.«421954_j14886356648486_2_alg».proof.Proof.Region5
import proofs.«421954_j14886356648486_2_alg».proof.Proof.TakeStretch
import Idealize.ShloMosaic.Lib.StableHlo.Run

noncomputable section

namespace Cert.KernelIdeal.Step9

open Idealize.ShloMosaic Idealize.ShloMosaic.TcCoe Idealize.ShloMosaic.ValueIdx Idealize.SL.Sem
open Cert.KernelIdeal Cert.KernelIdeal.Gen Cert.KernelIdeal.Terms
open Idealize.ShloMosaic.Pipeline (Dat)
open scoped BigOperators
open Cert.KernelIdeal.States

variable (m : (ℓ : Loc nD τ sig) → Buf (Elt Ideal) ℓ) (ρ : Dev nD → PrngReg) (c : Dev nD)

/-- A buffer that no operation of the host stretch `ops` writes holds after it what it held before. -/
local macro "unwritten " ops:ident : tactic =>
  `(tactic| exact StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- The output array of pallas_call 2, with the entry record's arrays put in: the scaled product of layer two. -/
theorem scaled2 (h : At6 m ρ c) : W7 m ρ c (Proc.devRef .tc main_v21) = H2 m c := by
  refine (W7_arr m ρ c 3).trans ((Region2.final2 (V6 m ρ) c).trans ?_)
  rw [show V6 m ρ c main_v19 = _ from h.v19, show V6 m ρ c main_arg4 = _ from h.g4,
    show V6 m ρ c main_v20 = _ from h.v20]

theorem at9 (h : At6 m ρ c) : At9 m ρ c := by
  -- what the buffers read later hold after the take call
  have e21 : W8 m ρ c (Proc.devRef .tc main_v21) = H2 m c :=
    (by unwritten hostOps3 : W8 m ρ c (Proc.devRef .tc main_v21) = W7 m ρ c (Proc.devRef .tc main_v21)).trans
      (scaled2 m ρ c h)
  have e1 : W8 m ρ c (Proc.devRef .tc main_v1) = srcW (A1 m c) :=
    (by unwritten hostOps3 : W8 m ρ c (Proc.devRef .tc main_v1) = W7 m ρ c (Proc.devRef .tc main_v1)).trans
      ((W7_of_ne m ρ c main_v1 (by decide)).trans h.v1)
  have e3 : W8 m ρ c (Proc.devRef .tc main_v3) = dstW (A1 m c) :=
    (by unwritten hostOps3 : W8 m ρ c (Proc.devRef .tc main_v3) = W7 m ρ c (Proc.devRef .tc main_v3)).trans
      ((W7_of_ne m ρ c main_v3 (by decide)).trans h.v3)
  have e10 : W8 m ρ c (Proc.devRef .tc main_v10) = degInv (A1 m c) :=
    (by unwritten hostOps3 : W8 m ρ c (Proc.devRef .tc main_v10) = W7 m ρ c (Proc.devRef .tc main_v10)).trans
      ((W7_of_ne m ρ c main_v10 (by decide)).trans h.v10)
  have e11 : W8 m ρ c (Proc.devRef .tc main_v11) = degCol (A1 m c) :=
    (by unwritten hostOps3 : W8 m ρ c (Proc.devRef .tc main_v11) = W7 m ρ c (Proc.devRef .tc main_v11)).trans
      ((W7_of_ne m ρ c main_v11 (by decide)).trans h.v11)
  have a5 : W8 m ρ c (Proc.devRef .tc main_arg5) = A5 m c :=
    (by unwritten hostOps3 : W8 m ρ c (Proc.devRef .tc main_arg5) = W7 m ρ c (Proc.devRef .tc main_arg5)).trans
      ((W7_of_ne m ρ c main_arg5 (by decide)).trans h.g5)
  have a6 : W8 m ρ c (Proc.devRef .tc main_arg6) = A6 m c :=
    (by unwritten hostOps3 : W8 m ρ c (Proc.devRef .tc main_arg6) = W7 m ρ c (Proc.devRef .tc main_arg6)).trans
      ((W7_of_ne m ρ c main_arg6 (by decide)).trans h.g6)
  have a7 : W8 m ρ c (Proc.devRef .tc main_arg7) = A7 m c :=
    (by unwritten hostOps3 : W8 m ρ c (Proc.devRef .tc main_arg7) = W7 m ρ c (Proc.devRef .tc main_arg7)).trans
      ((W7_of_ne m ρ c main_arg7 (by decide)).trans h.g7)
  -- the take call's result: the rows of the scaled product at the edges' sources
  have e22 : W8 m ρ c (Proc.devRef .tc main_v22) = takeRows64 (H2 m c) (srcW (A1 m c)) := by
    refine (TakeStretch.take3 (W7 m ρ c)).trans ?_
    rw [scaled2 m ρ c h, (W7_of_ne m ρ c main_v1 (by decide)).trans h.v1]
  refine ⟨?_, ?_, ?_, ?_, ?_, ?_, ?_, ?_, ?_⟩
  · -- the sums per destination: the scatter of the taken rows onto zeros at the destinations' column
    show StableHlo.after hostOps3_1 (W8 m ρ c) (Proc.devRef .tc main_v25) = _
    unfold aggregate64 dstCol
    rw [← e22, ← e3]
    generalize W8 m ρ c = Wv
    after_results
  · exact (by unwritten hostOps3_1 :
      W9 m ρ c (Proc.devRef .tc main_v21) = W8 m ρ c (Proc.devRef .tc main_v21)).trans e21
  · exact (by unwritten hostOps3_1 :
      W9 m ρ c (Proc.devRef .tc main_v11) = W8 m ρ c (Proc.devRef .tc main_v11)).trans e11
  · -- the second bias as a row
    show StableHlo.after hostOps3_1 (W8 m ρ c) (Proc.devRef .tc main_v26) = _
    unfold biasRow64
    rw [← a5]
    generalize W8 m ρ c = Wv
    after_results
    rfl
  · exact (by unwritten hostOps3_1 :
      W9 m ρ c (Proc.devRef .tc main_v1) = W8 m ρ c (Proc.devRef .tc main_v1)).trans e1
  · exact (by unwritten hostOps3_1 :
      W9 m ρ c (Proc.devRef .tc main_v3) = W8 m ρ c (Proc.devRef .tc main_v3)).trans e3
  · exact (by unwritten hostOps3_1 :
      W9 m ρ c (Proc.devRef .tc main_v10) = W8 m ρ c (Proc.devRef .tc main_v10)).trans e10
  · exact (by unwritten hostOps3_1 :
      W9 m ρ c (Proc.devRef .tc main_arg6) = W8 m ρ c (Proc.devRef .tc main_arg6)).trans a6
  · exact (by unwritten hostOps3_1 :
      W9 m ρ c (Proc.devRef .tc main_arg7) = W8 m ρ c (Proc.devRef .tc main_arg7)).trans a7

end Cert.KernelIdeal.Step9

end
-- ==== Proof.Step11.lean ====
/-
  Across pallas_call 3 and the host stretch after it: the second layer's result.
-/
import proofs.«421954_j14886356648486_2_alg».proof.Proof.States
import proofs.«421954_j14886356648486_2_alg».proof.Proof.Region0
import proofs.«421954_j14886356648486_2_alg».proof.Proof.Region1
import proofs.«421954_j14886356648486_2_alg».proof.Proof.Region2
import proofs.«421954_j14886356648486_2_alg».proof.Proof.Region3
import proofs.«421954_j14886356648486_2_alg».proof.Proof.Region4
import proofs.«421954_j14886356648486_2_alg».proof.Proof.Region5
import Idealize.ShloMosaic.Lib.StableHlo.Run

noncomputable section

namespace Cert.KernelIdeal.Step11

open Idealize.ShloMosaic Idealize.ShloMosaic.TcCoe Idealize.ShloMosaic.ValueIdx Idealize.SL.Sem
open Cert.KernelIdeal Cert.KernelIdeal.Gen Cert.KernelIdeal.Terms
open Idealize.ShloMosaic.Pipeline (Dat)
open scoped BigOperators
open Cert.KernelIdeal.States

variable (m : (ℓ : Loc nD τ sig) → Buf (Elt Ideal) ℓ) (ρ : Dev nD → PrngReg) (c : Dev nD)

theorem at11 (h : At9 m ρ c) : At11 m ρ c where
  v27 := by
    -- the host stretch leaves the call's output alone; the call writes the clipped combination of its four inputs
    have e : W11 m ρ c (Proc.devRef .tc main_v27) = W10 m ρ c (Proc.devRef .tc main_v27) := by
      show StableHlo.after hostOps4 (W10 m ρ c) (Proc.devRef .tc main_v27) = _
      generalize W10 m ρ c = Wv
      after_results
    rw [e]
    refine (W10_arr m ρ c 4).trans ((Region3.final3 (V9 m ρ) c).trans ?_)
    rw [show V9 m ρ c main_v25 = _ from h.v25, show V9 m ρ c main_v21 = _ from h.v21,
      show V9 m ρ c main_v11 = _ from h.v11, show V9 m ρ c main_v26 = _ from h.v26]
    rfl
  v28 := by
    -- the degree vector, untouched by the call, reshaped to a column
    have e10 : W10 m ρ c (Proc.devRef .tc main_v10) = degInv (A1 m c) :=
      (W10_of_ne m ρ c main_v10 (by decide)).trans h.v10
    unfold degCol
    rw [← e10]
    show StableHlo.after hostOps4 (W10 m ρ c) (Proc.devRef .tc main_v28) = _
    generalize W10 m ρ c = Wv
    after_results
    rfl
  v11 := by
    -- an input array of the call: it leaves the call as it entered
    have e : W11 m ρ c (Proc.devRef .tc main_v11) = W10 m ρ c (Proc.devRef .tc main_v11) := by
      show StableHlo.after hostOps4 (W10 m ρ c) (Proc.devRef .tc main_v11) = _
      generalize W10 m ρ c = Wv
      after_results
    rw [e]
    exact ((W10_arr m ρ c 2).trans (((dat3 (V9 m ρ) c).arrAt_in 2 rfl _).trans (A_eq3 (V9 m ρ) c 2))).trans h.v11
  v1 := by
    have e : W11 m ρ c (Proc.devRef .tc main_v1) = W10 m ρ c (Proc.devRef .tc main_v1) := by
      show StableHlo.after hostOps4 (W10 m ρ c) (Proc.devRef .tc main_v1) = _
      generalize W10 m ρ c = Wv
      after_results
    exact e.trans ((W10_of_ne m ρ c main_v1 (by decide)).trans h.v1)
  v3 := by
    have e : W11 m ρ c (Proc.devRef .tc main_v3) = W10 m ρ c (Proc.devRef .tc main_v3) := by
      show StableHlo.after hostOps4 (W10 m ρ c) (Proc.devRef .tc main_v3) = _
      generalize W10 m ρ c = Wv
      after_results
    exact e.trans ((W10_of_ne m ρ c main_v3 (by decide)).trans h.v3)
  g6 := by
    have e : W11 m ρ c (Proc.devRef .tc main_arg6) = W10 m ρ c (Proc.devRef .tc main_arg6) := by
      show StableHlo.after hostOps4 (W10 m ρ c) (Proc.devRef .tc main_arg6) = _
      generalize W10 m ρ c = Wv
      after_results
    exact e.trans ((W10_of_ne m ρ c main_arg6 (by decide)).trans h.g6)
  g7 := by
    have e : W11 m ρ c (Proc.devRef .tc main_arg7) = W10 m ρ c (Proc.devRef .tc main_arg7) := by
      show StableHlo.after hostOps4 (W10 m ρ c) (Proc.devRef .tc main_arg7) = _
      generalize W10 m ρ c = Wv
      after_results
    exact e.trans ((W10_of_ne m ρ c main_arg7 (by decide)).trans h.g7)

end Cert.KernelIdeal.Step11

end
-- ==== Proof.Step14.lean ====
/-
  Across pallas_call 4 and the two host stretches after it.
-/
import proofs.«421954_j14886356648486_2_alg».proof.Proof.States
import proofs.«421954_j14886356648486_2_alg».proof.Proof.Region0
import proofs.«421954_j14886356648486_2_alg».proof.Proof.Region1
import proofs.«421954_j14886356648486_2_alg».proof.Proof.Region2
import proofs.«421954_j14886356648486_2_alg».proof.Proof.Region3
import proofs.«421954_j14886356648486_2_alg».proof.Proof.Region4
import proofs.«421954_j14886356648486_2_alg».proof.Proof.Region5
import proofs.«421954_j14886356648486_2_alg».proof.Proof.TakeStretch
import Idealize.ShloMosaic.Lib.StableHlo.Run

noncomputable section

namespace Cert.KernelIdeal.Step14

open Idealize.ShloMosaic Idealize.ShloMosaic.TcCoe Idealize.ShloMosaic.ValueIdx Idealize.SL.Sem
open Cert.KernelIdeal Cert.KernelIdeal.Gen Cert.KernelIdeal.Terms
open Idealize.ShloMosaic.Pipeline (Dat)
open scoped BigOperators
open Cert.KernelIdeal.States

variable (m : (ℓ : Loc nD τ sig) → Buf (Elt Ideal) ℓ) (ρ : Dev nD → PrngReg) (c : Dev nD)

/-- A buffer that no operation of a host stretch writes keeps its contents. -/
local macro "keep_across " ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## At pallas_call 4's exit -/

/-- The call's output array: the third layer's scaled product. -/
theorem w12_v29 (h : At11 m ρ c) : W12 m ρ c (Proc.devRef .tc main_v29) = H3 m c := by
  refine (W12_arr m ρ c 3).trans ((Region4.final4 (V11 m ρ) c).trans ?_)
  rw [show V11 m ρ c main_v27 = _ from h.v27, show V11 m ρ c main_arg6 = _ from h.g6,
    show V11 m ρ c main_v28 = _ from h.v28]

theorem w12_v1 (h : At11 m ρ c) : W12 m ρ c (Proc.devRef .tc main_v1) = srcW (A1 m c) :=
  (W12_of_ne m ρ c main_v1 (by decide)).trans h.v1

theorem w12_v3 (h : At11 m ρ c) : W12 m ρ c (Proc.devRef .tc main_v3) = dstW (A1 m c) :=
  (W12_of_ne m ρ c main_v3 (by decide)).trans h.v3

theorem w12_v11 (h : At11 m ρ c) : W12 m ρ c (Proc.devRef .tc main_v11) = degCol (A1 m c) :=
  (W12_of_ne m ρ c main_v11 (by decide)).trans h.v11

theorem w12_g7 (h : At11 m ρ c) : W12 m ρ c (Proc.devRef .tc main_arg7) = A7 m c :=
  (W12_of_ne m ρ c main_arg7 (by decide)).trans h.g7

/-! ## After the call of take -/

/-- The rows of the scaled product at the edges' sources. -/
theorem w13_v30 (h : At11 m ρ c) :
    W13 m ρ c (Proc.devRef .tc main_v30) = takeRows112 (H3 m c) (srcW (A1 m c)) := by
  rw [← w12_v29 m ρ c h, ← w12_v1 m ρ c h]
  exact TakeStretch.take5 (W12 m ρ c)

theorem w13_v29 (h : At11 m ρ c) : W13 m ρ c (Proc.devRef .tc main_v29) = H3 m c := by
  refine Eq.trans ?_ (w12_v29 m ρ c h)
  keep_across hostOps5

theorem w13_v3 (h : At11 m ρ c) : W13 m ρ c (Proc.devRef .tc main_v3) = dstW (A1 m c) := by
  refine Eq.trans ?_ (w12_v3 m ρ c h)
  keep_across hostOps5

theorem w13_v11 (h : At11 m ρ c) : W13 m ρ c (Proc.devRef .tc main_v11) = degCol (A1 m c) := by
  refine Eq.trans ?_ (w12_v11 m ρ c h)
  keep_across hostOps5

theorem w13_g7 (h : At11 m ρ c) : W13 m ρ c (Proc.devRef .tc main_arg7) = A7 m c := by
  refine Eq.trans ?_ (w12_g7 m ρ c h)
  keep_across hostOps5

/-! ## After the scatter and the bias reshape: entering pallas_call 5 -/

theorem at14 (h : At11 m ρ c) : At14 m ρ c where
  v33 := by
    -- the scatter adds the taken rows into a zero array at the destinations
    unfold aggregate112 dstCol
    rw [← w13_v30 m ρ c h, ← w13_v3 m ρ c h]
    show StableHlo.after hostOps5_1 (W13 m ρ c) (Proc.devRef .tc main_v33) = _
    generalize W13 m ρ c = Wv
    after_results
  v29 := by
    refine Eq.trans ?_ (w13_v29 m ρ c h)
    show StableHlo.after hostOps5_1 (W13 m ρ c) (Proc.devRef .tc main_v29) = _
    generalize W13 m ρ c = Wv
    after_results
  v11 := by
    refine Eq.trans ?_ (w13_v11 m ρ c h)
    show StableHlo.after hostOps5_1 (W13 m ρ c) (Proc.devRef .tc main_v11) = _
    generalize W13 m ρ c = Wv
    after_results
  v34 := by
    -- the last bias vector as a one-row array
    unfold biasRow112
    rw [← w13_g7 m ρ c h]
    show StableHlo.after hostOps5_1 (W13 m ρ c) (Proc.devRef .tc main_v34) = _
    generalize W13 m ρ c = Wv
    after_results
    rfl

end Cert.KernelIdeal.Step14

end
-- ==== Proof.Step15.lean ====
/-
  Across pallas_call 5: the program's result buffer holds the third layer's result.
-/
import proofs.«421954_j14886356648486_2_alg».proof.Proof.States
import proofs.«421954_j14886356648486_2_alg».proof.Proof.Region0
import proofs.«421954_j14886356648486_2_alg».proof.Proof.Region1
import proofs.«421954_j14886356648486_2_alg».proof.Proof.Region2
import proofs.«421954_j14886356648486_2_alg».proof.Proof.Region3
import proofs.«421954_j14886356648486_2_alg».proof.Proof.Region4
import proofs.«421954_j14886356648486_2_alg».proof.Proof.Region5
import Idealize.ShloMosaic.Lib.StableHlo.Run

noncomputable section

namespace Cert.KernelIdeal.Step15

open Idealize.ShloMosaic Idealize.ShloMosaic.TcCoe Idealize.ShloMosaic.ValueIdx Idealize.SL.Sem
open Cert.KernelIdeal Cert.KernelIdeal.Gen Cert.KernelIdeal.Terms
open Idealize.ShloMosaic.Pipeline (Dat)
open scoped BigOperators
open Cert.KernelIdeal.States

variable (m : (ℓ : Loc nD τ sig) → Buf (Elt Ideal) ℓ) (ρ : Dev nD → PrngReg) (c : Dev nD)

theorem at15 (h : At14 m ρ c) : W15 m ρ c (Proc.devRef .tc main_v35) = X3 m c := by
  -- the call's output array is the combination of its four input arrays, which the record names
  refine (W15_arr m ρ c 4).trans ((Region5.final5 (V14 m ρ) c).trans ?_)
  rw [show V14 m ρ c main_v33 = _ from h.v33, show V14 m ρ c main_v29 = _ from h.v29,
    show V14 m ρ c main_v11 = _ from h.v11, show V14 m ρ c main_v34 = _ from h.v34]
  rfl

end Cert.KernelIdeal.Step15

end
-- ==== Proof.KernelValue.lean ====
/-
  The kernel program's result buffer after the run, as the three layers composed.
-/
import proofs.«421954_j14886356648486_2_alg».proof.Proof.Step1
import proofs.«421954_j14886356648486_2_alg».proof.Proof.Step4
import proofs.«421954_j14886356648486_2_alg».proof.Proof.Step6
import proofs.«421954_j14886356648486_2_alg».proof.Proof.Step9
import proofs.«421954_j14886356648486_2_alg».proof.Proof.Step11
import proofs.«421954_j14886356648486_2_alg».proof.Proof.Step14
import proofs.«421954_j14886356648486_2_alg».proof.Proof.Step15

noncomputable section

namespace Cert.KernelIdeal.KernelValue

open Idealize.ShloMosaic Idealize.ShloMosaic.TcCoe Idealize.ShloMosaic.ValueIdx Idealize.SL.Sem
open Cert.KernelIdeal Cert.KernelIdeal.Gen Cert.KernelIdeal.Terms
open Idealize.ShloMosaic.Pipeline (Dat)
open scoped BigOperators
open Cert.KernelIdeal.States

variable (m : (ℓ : Loc nD τ sig) → Buf (Elt Ideal) ℓ) (ρ : Dev nD → PrngReg) (c : Dev nD)

/-- The result buffer at the last boundary is the third layer of the second of the first, of the launch contents. -/
theorem result_eq : W15 m ρ c (Proc.devRef .tc main_v35) = X3 m c :=
  Step15.at15 m ρ c (Step14.at14 m ρ c (Step11.at11 m ρ c (Step9.at9 m ρ c (Step6.at6 m ρ c (Step4.at4 m ρ c (Step1.at1 m ρ c))))))

end Cert.KernelIdeal.KernelValue

end
-- ==== Proof.EdgeLemmas.lean ====
/-
  Index arithmetic of a row gather and a row scatter, and the one law of the extended reals the layers need:
  a non-negative REAL factor distributes over a finite sum and over a sum of two terms, whatever the terms are.
-/
import Idealize.ShloMosaic.Lib.ValueIdx
import Idealize.ShloMosaic.Lib.StableHlo.Predicate
import Idealize.ShloMosaic.PureOps.Ideal.Laws

noncomputable section

namespace Cert.EdgeLemmas

open Idealize.ShloMosaic Idealize.ShloMosaic.ValueIdx
open scoped BigOperators

/-! ## Words -/

/-- A word that reads non-negative is left alone by "add the node count where negative". -/
theorem wrap_id (s : BitVec 32) (h : (0 : Int) ≤ s.toInt) :
    Scalar.select (IntOp.cmpi .slt s 0#32) (IntOp.addi s 100000#32) s = s := by
  -- the sign test reads false, so the selection keeps the word
  have h0 : (0#32 : BitVec 32).toInt = 0 := by decide
  have hlt : s.slt 0#32 = false := by
    simp only [BitVec.slt, h0, decide_eq_false_iff_not, not_lt]; exact h
  simp only [Scalar.select, IntOp.cmpi, hlt]
  rfl

/-- A word that reads as a node number passes both range tests. -/
theorem range_bit (s : BitVec 32) (h0 : (0 : Int) ≤ s.toInt) (h1 : s.toInt < 100000) :
    IntOp.andi (IntOp.cmpi .sge s 0#32) (IntOp.cmpi .sle s 99999#32) = 1#1 := by
  -- both signed comparisons read true, and the conjunction of two set bits is a set bit
  have z : (0#32 : BitVec 32).toInt = 0 := by decide
  have t : (99999#32 : BitVec 32).toInt = 99999 := by decide
  have ha : (0#32 : BitVec 32).sle s = true := by
    simp only [BitVec.sle, z, decide_eq_true_eq]; exact h0
  have hb : s.sle 99999#32 = true := by
    simp only [BitVec.sle, t, decide_eq_true_eq]; omega
  simp only [IntOp.andi, IntOp.cmpi, ha, hb]
  rfl

/-- Clamping a node number into the table changes nothing. -/
theorem clamp_id (s : BitVec 32) (N : Nat) (h0 : (0 : Int) ≤ s.toInt) (h1 : s.toInt < N) :
    min s.toInt.toNat (N - 1) = s.toInt.toNat := by
  omega

/-! ## A gather of whole rows, read at an entry -/

/-- `x[idx]` along axis 0 of an [N × D] array: entry (p, q) of the result is `x` at row "start index p, read signed and
    clamped into the table" and column `q`. The hypotheses are the printed dimension numbers, each by `rfl`. -/
theorem gather_rows {α : Type} {N E D w : Nat} (d : GatherDims ⟨2, ![N, D]⟩ ⟨2, ![E, 1]⟩ ⟨2, ![E, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![E, 1]⟩ w) (j : (⟨2, ![E, D]⟩ : Shape).Idx) (hN : 0 < N) :
    Host.gather d x idx j
      = x (ix2 (⟨min (idx (ix2 (⟨(j 0).val, idx2_lt0 j⟩ : Fin E) (0 : Fin 1))).toInt.toNat (N - 1), by omega⟩ : Fin N)
            (⟨(j 1).val, idx2_lt1 j⟩ : Fin D)) := by
  -- the collapsed axis has slice size one
  have hsl : d.sliceSizes 0 = 1 := d.slice_collapsed 0 (by rw [hcoll]; exact List.mem_singleton.mpr rfl)
  obtain ⟨od, cs, ob, sib, sim, ivd, ss, wf⟩ := d
  simp only at hoff hcoll hob hsim hivd hsl
  subst hoff hcoll hob hsim hivd
  unfold Host.gather
  congr 1
  funext a
  match a with
  | ⟨0, _⟩ =>
    -- axis 0: the clamped start index, no batching coordinate, no offset coordinate
    apply Fin.ext
    simp [GatherDims.operandIdx, GatherDims.start, GatherDims.batchCoord, GatherDims.offCoord, GatherDims.sKept, Shape.kept, hsl]
    congr 4
    -- the start index is read at (the result's row, 0)
    funext b
    match b with
    | ⟨0, _⟩ => apply Fin.ext; rfl
    | ⟨1, _⟩ => apply Fin.ext; rfl
  | ⟨1, _⟩ =>
    -- axis 1: start 0, no batching coordinate, the offset coordinate is the result's column
    apply Fin.ext
    simp [GatherDims.operandIdx, GatherDims.start, GatherDims.batchCoord, GatherDims.offCoord, GatherDims.sKept, Shape.kept]
    rfl

/-! ## A scatter of whole rows: where an update lands -/

/-- An update entry (p, q) of an [E × D] update array scattered along axis 0 by the start-index column `idx` lands, if at
    all, in row "start index p read signed" and column `q`. -/
theorem scatter_rows_landing {N E D w : Nat} (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1)
    (idx : IVec ⟨2, ![E, 1]⟩ w) (j : (⟨2, ![E, D]⟩ : Shape).Idx) (i : (⟨2, ![N, D]⟩ : Shape).Idx)
    (h : d.resultIdx? j idx = some i) :
    (idx (ix2 (⟨(j 0).val, idx2_lt0 j⟩ : Fin E) (0 : Fin 1))).toInt = ((i 0).val : Int) ∧ (i 1).val = (j 1).val := by
  obtain ⟨uw, iw, sd, iv, wf⟩ := d
  simp only at hu hi hs hv
  subst hu hi hs hv
  unfold ScatterDims.resultIdx? at h
  split at h
  · next hin =>
    -- the landing index is start plus window coordinate on each axis, both inside the operand
    injection h with h
    subst h
    have h0 := hin 0
    have h1 := hin 1
    simp [ScatterDims.start, ScatterDims.window, ScatterDims.sKept, Shape.kept] at h0 h1 ⊢
    -- axis 0: the start is the index word at (the update's row, 0), non-negative, and the window coordinate is 0;
    -- axis 1: the start is 0 and the window coordinate is the update's column
    have key : ∀ A : (⟨2, ![E, 1]⟩ : Shape).Idx, A = ix2 (⟨(j 0).val, idx2_lt0 j⟩ : Fin E) (0 : Fin 1) → 0 ≤ (idx A).toInt →
        (idx (ix2 (⟨(j 0).val, idx2_lt0 j⟩ : Fin E) (0 : Fin 1))).toInt = max (idx A).toInt 0 := by
      intro A hA hA0
      subst hA
      exact (max_eq_left hA0).symm
    refine ⟨key _ ?_ h0.1, rfl⟩
    funext b
    match b with
    | ⟨0, _⟩ => apply Fin.ext; rfl
    | ⟨1, _⟩ => apply Fin.ext; rfl
  · exact absurd h (by simp)

/-! ## The extended reals -/

/-- A non-negative real factor distributes over a sum of two extended reals (a real is neither infinity). -/
theorem coe_mul_add (c : ℝ) (hc : 0 ≤ c) (y z : EReal) : (c : EReal) * (y + z) = (c : EReal) * y + (c : EReal) * z :=
  EReal.left_distrib_of_nonneg_of_ne_top (EReal.coe_nonneg.mpr hc) (EReal.coe_ne_top c) y z

/-- A non-negative real factor goes inside a finite sum of extended reals. -/
theorem coe_mul_sum {ι : Type} (S : Finset ι) (c : ℝ) (hc : 0 ≤ c) (f : ι → EReal) :
    (c : EReal) * ∑ j ∈ S, f j = ∑ j ∈ S, (c : EReal) * f j := by
  classical
  induction S using Finset.induction_on with
  | empty => simp
  | insert a S ha ih =>
    rw [Finset.sum_insert ha, Finset.sum_insert ha, coe_mul_add c hc, ih]

/-- The law that joins the two spellings of a layer at one entry: scaling the neighbours' sum and the node's own
    (already scaled) row afterwards by the real `c ≥ 0` is scaling every summand beforehand. -/
theorem layer_law {ι : Type} (S : Finset ι) (c : ℝ) (hc : 0 ≤ c) (g r : ι → EReal) (hh b : EReal)
    (hgr : ∀ j ∈ S, (c : EReal) * g j = r j) :
    (c : EReal) * (((0 : EReal) + ∑ j ∈ S, g j) + (c : EReal) * hh) + b
      = (((0 : EReal) + ∑ j ∈ S, r j) + ((c : EReal) * (c : EReal)) * hh) + b := by
  rw [zero_add, zero_add, coe_mul_add c hc, coe_mul_sum S c hc g, Finset.sum_congr rfl hgr, mul_assoc]

end Cert.EdgeLemmas

end
-- ==== Proof.DegFacts.lean ====
/-
  The degree normalisation is a non-negative real number at every node: one plus a count of edges is a real number
  at least one, and the reciprocal square root of such a number is a positive real.
-/
import proofs.«421954_j14886356648486_2_alg».proof.Proof.Terms
import proofs.«421954_j14886356648486_2_alg».proof.Proof.EdgeLemmas
import Idealize.ShloMosaic.Lib.IdealHost
import Idealize.ShloMosaic.Lib.ValueLayout

noncomputable section

namespace Cert.KernelIdeal.DegFacts

open Idealize.ShloMosaic Idealize.ShloMosaic.TcCoe Idealize.ShloMosaic.ValueIdx Idealize.SL.Sem
open Cert.KernelIdeal Cert.KernelIdeal.Gen Cert.KernelIdeal.Terms
open Idealize.ShloMosaic.Pipeline (Dat)
open scoped BigOperators

/-- The reciprocal square root of a positive real is the real `(√r)⁻¹`. -/
theorem rsqrt_pos_real (r : ℝ) (hr : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr hr.le), if_neg hr.ne']

/-- Scattering ones onto zero counts: the entry is the number of updates that land on it. -/
theorem scatterAdd_count {s si u : Shape} {w : Nat} (d : ScatterDims s si u) (X : FVec Idealize.ShloMosaic.Ideal s .f32)
    (idx : IVec si w) (V : FVec Idealize.ShloMosaic.Ideal u .f32) (i : s.Idx) (hX : X i = 0) (hV : ∀ j, V j = 1) :
    ∃ n : ℕ, Host.scatterAdd d X idx V i = (n : EReal) := by
  classical
  refine ⟨(Finset.univ.filter (fun j => d.resultIdx? j idx = some i)).card, ?_⟩
  show X i + ∑ j ∈ Finset.univ.filter (fun j => d.resultIdx? j idx = some i), V j = _
  rw [hX, zero_add, Finset.sum_congr rfl (fun j _ => hV j), Finset.sum_const, nsmul_one]

/-- The reciprocal square root of (a count plus one) is a non-negative real. -/
theorem rsqrt_count_real {s : Shape} (A B : FVec Idealize.ShloMosaic.Ideal s .f32) (i : s.Idx) (n : ℕ)
    (hA : A i = (n : EReal)) (hB : B i = 1) : ∃ r : ℝ, 0 ≤ r ∧ Host.rsqrt (addf A B) i = (r : EReal) := by
  refine ⟨(Real.sqrt ((n : ℝ) + 1))⁻¹, inv_nonneg.mpr (Real.sqrt_nonneg _), ?_⟩
  show Ideal.rsqrt (A i + B i) = _
  rw [hA, hB, ← rsqrt_pos_real ((n : ℝ) + 1) (by positivity)]
  congr 1

/-- `degInv` is a non-negative real at every node, whatever the edge list holds. -/
theorem degInv_real (e : IVec S2x1600000 32) (i : S100000.Idx) : ∃ r : ℝ, 0 ≤ r ∧ degInv e i = (r : EReal) := by
  unfold degInv
  -- the base of the count is the constant 0, every update and the added self loop the constant 1
  have hX : broadcastInDim S100000 ![] bcast_S_S100000 (constant (F := Idealize.ShloMosaic.Ideal) S_ .f32 0x00000000#32) i = 0 := by
    rw [broadcastInDim_scalar_apply, constant_apply, Ideal.ofBits_zero_f32]
  have hV : ∀ j, broadcastInDim S1600000 ![] bcast_S_S1600000 (constant (F := Idealize.ShloMosaic.Ideal) S_ .f32 0x3F800000#32) j = 1 := by
    intro j
    rw [broadcastInDim_scalar_apply, constant_apply, Ideal.ofBits_one_f32]
  have hB : broadcastInDim S100000 ![] bcast_S_S100000 (constant (F := Idealize.ShloMosaic.Ideal) S_ .f32 0x3F800000#32) i = 1 := by
    rw [broadcastInDim_scalar_apply, constant_apply, Ideal.ofBits_one_f32]
  obtain ⟨n, hn⟩ := scatterAdd_count scatter_S100000_S1600000x1_S1600000_n_0_0_1 _ (dstCol e) _ i hX hV
  exact rsqrt_count_real _ _ i n hn hB

/-- The column form read at a row is the vector at that node. -/
theorem degCol_apply (e : IVec S2x1600000 32) (r : Fin 100000) : degCol e (ix2 r (0 : Fin 1)) = degInv e (ix1 r) := by
  unfold degCol
  generalize degInv e = v
  -- row-major position r·1 + 0 of the column is position r of the vector
  exact shapeCast_apply v _ _ _ (by
    rw [Shape.rowMajor_val_two, Shape.rowMajor_val_one]
    show r.val = r.val * 1 + 0
    omega)

/-- A bias row read at a column is the bias vector there. -/
theorem biasRow64_apply (b : Arr S64) (q : Fin 64) : biasRow64 b (ix2 (0 : Fin 1) q) = b (ix1 q) := by
  unfold biasRow64
  exact shapeCast_a_1a_apply b _ 0 q
theorem biasRow112_apply (b : Arr S112) (q : Fin 112) : biasRow112 b (ix2 (0 : Fin 1) q) = b (ix1 q) := by
  unfold biasRow112
  exact shapeCast_a_1a_apply b _ 0 q

end Cert.KernelIdeal.DegFacts

end
-- ==== Proof.Layer1.lean ====
/-
  The first layer, kernel against reference, entry by entry. The reference scales every edge's message by the product
  of the two ends' normalisations and adds the node's own row scaled by the square; the kernel scales rows once before
  the sum and once after it. Where every source is a node the two take the same rows, and a non-negative real factor
  distributes over the sum.
-/
import proofs.«421954_j14886356648486_2_alg».proof.Proof.Terms
import proofs.«421954_j14886356648486_2_alg».proof.Proof.EdgeLemmas
import proofs.«421954_j14886356648486_2_alg».proof.Proof.DegFacts
import proofs.«421954_j14886356648486_2_alg».proof.Proof.Gen.ReferenceIdeal.Read
import Idealize.ShloMosaic.PureOps.Ideal.Laws

noncomputable section

namespace Cert.Bridge.Layer1

open Idealize.ShloMosaic Idealize.ShloMosaic.TcCoe Idealize.ShloMosaic.ValueIdx Idealize.SL.Sem
open Cert.KernelIdeal.Terms Cert.EdgeLemmas Cert.KernelIdeal.DegFacts
open scoped BigOperators

/-- The edge list's type on the reference side (the same array type as the kernel side's). -/
abbrev EdgeT := (⟨Cert.ReferenceIdeal.S2x1600000, .i32⟩ : BufTy).Contents (Elt Ideal)

/-! ## Words of the source row -/

/-- The moved source word of edge `p`, spelt out. -/
theorem wrapped_apply (s : IVec ⟨1, ![1600000]⟩ 32) (j : (⟨2, ![1600000, 1]⟩ : Shape).Idx) :
    wrapped s j = Scalar.select (IntOp.cmpi .slt (s (ix1 ⟨(j 0).val, idx2_lt0 j⟩)) 0#32)
      (IntOp.addi (s (ix1 ⟨(j 0).val, idx2_lt0 j⟩)) 100000#32) (s (ix1 ⟨(j 0).val, idx2_lt0 j⟩)) := by
  unfold wrapped
  refine (broadcastInDim_apply _ _ _ j (ix1 ⟨(j 0).val, idx2_lt0 j⟩) (fun a => match a with
    | ⟨0, _⟩ => by show (j 0).val = if (1600000 : Nat) = 1 then 0 else (j 0).val; rw [if_neg (by decide)])).trans ?_
  rfl

/-- A word that reads as a node number is left alone. -/
theorem wrapped_of_ok (s : IVec ⟨1, ![1600000]⟩ 32) (j : (⟨2, ![1600000, 1]⟩ : Shape).Idx)
    (h : (0 : Int) ≤ (s (ix1 ⟨(j 0).val, idx2_lt0 j⟩)).toInt) :
    wrapped s j = s (ix1 ⟨(j 0).val, idx2_lt0 j⟩) := by
  rw [wrapped_apply]; exact wrap_id _ h

/-- An `and`-reduction of an array of ones from the bit one is one. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  unfold Host.reduce
  rw [hinit]
  generalize ((List.finRange s.numel).filter fun n => h.drop (s.rowMajor.symm n) = j) = l
  induction l with
  | nil => rfl
  | cons a l ih =>
    rw [List.foldl_cons, hx]
    exact ih

/-- Where every source word is a node number the range test passes at every edge. -/
theorem inRange_of_ok (s : IVec ⟨1, ![1600000]⟩ 32)
    (hs : ∀ p : Fin 1600000, (0 : Int) ≤ (s (ix1 p)).toInt ∧ (s (ix1 p)).toInt < 100000) (k : (⟨1, ![1600000]⟩ : Shape).Idx) :
    inRange s k = 1#1 := by
  unfold inRange
  refine reduce_andi_ones _ _ _ _ (fun j => ?_) rfl k
  show IntOp.andi (IntOp.cmpi .sge (wrapped s j) 0#32) (IntOp.cmpi .sle (wrapped s j) 99999#32) = 1#1
  rw [wrapped_of_ok s j (hs _).1]
  exact range_bit _ (hs _).1 (hs _).2

/-! ## The accumulating scatter at one entry, and the layer law through it (any shapes) -/

/-- The accumulating scatter read at an entry: the operand there plus the updates that land there. -/
theorem scatterAdd_apply {s si su : Shape} {w : Nat} (d : ScatterDims s si su) (x : FVec Ideal s .f32) (idx : IVec si w)
    (upd : FVec Ideal su .f32) (i : s.Idx) :
    Host.scatterAdd d x idx upd i = x i + ∑ j ∈ Finset.univ.filter (fun j => d.resultIdx? j idx = some i), upd j := rfl

/-- Two spellings of a layer at entry `i`: scaling the scattered sum and the node's own scaled row afterwards by a real
    `c ≥ 0`, against scattering updates that carry the factor already. The two scatters may be written with different
    (equal) dimension records, zero operands and index tables. -/
theorem scatter_layer_law {s si su : Shape} {w : Nat} (d d' : ScatterDims s si su) (hd : d' = d) (z z' : FVec Ideal s .f32)
    (idx idx' : IVec si w) (hidx : idx' = idx) (g r : FVec Ideal su .f32) (i : s.Idx) (hz : z i = 0) (hz' : z' i = 0)
    (c : ℝ) (hc : 0 ≤ c) (hh b : EReal)
    (hgr : ∀ j, d.resultIdx? j idx = some i → (c : EReal) * g j = r j) :
    (c : EReal) * (Host.scatterAdd d z idx g i + (c : EReal) * hh) + b
      = (Host.scatterAdd d' z' idx' r i + ((c : EReal) * (c : EReal)) * hh) + b := by
  subst hd hidx
  rw [scatterAdd_apply, scatterAdd_apply, hz, hz']
  exact layer_law _ c hc g r hh b (fun j hj => hgr j (Finset.mem_filter.mp hj).2)

/-! ## Rows taken at the sources, read at an entry -/

/-- The node a source word names, where every source word is a node number. -/
def srcNode (e : EdgeT) (hsrc : SrcOk e) (p : Fin 1600000) : Fin 100000 :=
  ⟨(srcW e (ix1 p)).toInt.toNat, by have := hsrc p; omega⟩

/-- A gather of whole rows at the moved source words: entry (p, q) is entry (source of p, q) of the table. -/
theorem gather_src {D : Nat} (d : GatherDims ⟨2, ![100000, D]⟩ ⟨2, ![1600000, 1]⟩ ⟨2, ![1600000, D]⟩)
    (hoff : d.offsetDims = [1]) (hcoll : d.collapsedSliceDims = [0]) (hob : d.operandBatchingDims = [])
    (hsim : d.startIndexMap = [0]) (hivd : d.indexVectorDim = 1)
    (H : (⟨2, ![100000, D]⟩ : Shape).Idx → EReal) (e : EdgeT) (hsrc : SrcOk e) (j : (⟨2, ![1600000, D]⟩ : Shape).Idx) :
    Host.gather d H (wrapped (srcW e)) j = H (ix2 (srcNode e hsrc ⟨(j 0).val, idx2_lt0 j⟩) ⟨(j 1).val, idx2_lt1 j⟩) := by
  rw [gather_rows d hoff hcoll hob hsim hivd H (wrapped (srcW e)) j (by decide)]
  congr 2
  refine Fin.ext ?_
  show min (wrapped (srcW e) (ix2 (⟨(j 0).val, idx2_lt0 j⟩ : Fin 1600000) (0 : Fin 1))).toInt.toNat (100000 - 1)
    = (srcW e (ix1 ⟨(j 0).val, idx2_lt0 j⟩)).toInt.toNat
  rw [wrapped_of_ok _ _ (hsrc _).1]
  exact clamp_id _ 100000 (hsrc _).1 (hsrc _).2

/-- Entry (p, q) of the rows taken at the sources is entry (source of p, q). -/
theorem takeRows64_apply (H : Arr ⟨2, ![100000, 64]⟩) (e : EdgeT) (hsrc : SrcOk e) (j : (⟨2, ![1600000, 64]⟩ : Shape).Idx) :
    takeRows64 H (srcW e) j = H (ix2 (srcNode e hsrc ⟨(j 0).val, idx2_lt0 j⟩) ⟨(j 1).val, idx2_lt1 j⟩) := by
  unfold takeRows64
  rw [select_apply]
  have hb : ∀ h, broadcastInDim (⟨2, ![1600000, 64]⟩ : Shape) ![0] h (inRange (srcW e)) j = 1#1 := fun h => by
    refine (broadcastInDim_apply _ h _ j (ix1 ⟨(j 0).val, idx2_lt0 j⟩) (fun a => match a with
      | ⟨0, _⟩ => by show (j 0).val = if (1600000 : Nat) = 1 then 0 else (j 0).val; rw [if_neg (by decide)])).trans ?_
    exact inRange_of_ok _ hsrc _
  rw [hb, select_one]
  exact gather_src _ rfl rfl rfl rfl rfl H e hsrc j

/-! ## Indices -/

theorem ofFin_eq_ix1 {n : Nat} (p : Fin n) : Shape.Idx.ofFin p = ix1 p := by
  funext a; match a with | ⟨0, _⟩ => rfl

theorem ixP_eq_ix2 {n : Nat} (p : Fin n) : StableHlo.Predicate.ixP p = ix2 p (0 : Fin 1) := by
  funext a; match a with | ⟨0, _⟩ => rfl | ⟨1, _⟩ => rfl

/-- The source word of edge `p` reads as its node's number. -/
theorem srcNode_spec (e : EdgeT) (hsrc : SrcOk e) (p : Fin 1600000) :
    (srcW e (ix1 p)).toInt = ((srcNode e hsrc p).val : Int) := by
  show _ = (((srcW e (ix1 p)).toInt.toNat : Nat) : Int)
  rw [Int.toNat_of_nonneg (hsrc p).1]

/-- A gather from a per-node vector at moved words: where edge `p`'s word reads as node `r`, entry `p` is the vector at `r`. -/
theorem gather1_wrapped (d : GatherDims ⟨1, ![100000]⟩ ⟨2, ![1600000, 1]⟩ ⟨1, ![1600000]⟩)
    (hcoll : d.collapsedSliceDims = [0]) (hob : d.operandBatchingDims = [])
    (hsim : d.startIndexMap = [0]) (hivd : d.indexVectorDim = 1)
    (v : (⟨1, ![100000]⟩ : Shape).Idx → EReal) (s : IVec ⟨1, ![1600000]⟩ 32) (p : Fin 1600000) (r : Fin 100000)
    (hr : (s (ix1 p)).toInt = (r.val : Int)) :
    Host.gather d v (wrapped s) (ix1 p) = v (ix1 r) := by
  have h0 : (0 : Int) ≤ (s (ix1 p)).toInt := by rw [hr]; exact Int.natCast_nonneg _
  have h1 : (s (ix1 p)).toInt < (100000 : Nat) := by rw [hr]; exact_mod_cast r.isLt
  have hw : wrapped s (ix2 p (0 : Fin 1)) = s (ix1 p) := wrapped_of_ok s _ h0
  rw [← ofFin_eq_ix1, StableHlo.Predicate.gather_take d hcoll hob hsim hivd v (wrapped s) p (by decide), ofFin_eq_ix1]
  congr 2
  refine Fin.ext ?_
  show min (wrapped s (StableHlo.Predicate.ixP p)).toInt.toNat (100000 - 1) = r.val
  rw [ixP_eq_ix2, hw, clamp_id _ 100000 h0 h1, hr]
  exact Int.toNat_natCast _

/-! ## The reference's stages read at an entry -/

open Cert.ReferenceIdeal.Read

abbrev X0T := (⟨Cert.ReferenceIdeal.S100000x8, .f32⟩ : BufTy).Contents (Elt Ideal)
abbrev X2T := (⟨Cert.ReferenceIdeal.S8x64, .f32⟩ : BufTy).Contents (Elt Ideal)
abbrev X3T := (⟨Cert.ReferenceIdeal.S64, .f32⟩ : BufTy).Contents (Elt Ideal)

/-- The destination column read at a row is the destination word of that edge. -/
theorem dstCol_apply (e : EdgeT) (p : Fin 1600000) : dstCol e (ix2 p (0 : Fin 1)) = dstW e (ix1 p) := by
  unfold dstCol
  exact broadcastInDim_apply _ _ _ (ix2 p (0 : Fin 1)) (ix1 p) (fun a => match a with
    | ⟨0, _⟩ => by show p.val = if (1600000 : Nat) = 1 then 0 else p.val; rw [if_neg (by decide)])

/-- The product X·W at entry (a, q). -/
theorem v4_at (x0 : X0T) (x2 : X2T) (a : Fin 100000) (q : Fin 64) :
    val_main_v4 (F := Ideal) x0 x2 (ix2 a q) = ∑ k : Fin 8, x0 (ix2 a k) * x2 (ix2 k q) := by
  rw [val_main_v4_apply]
  refine Finset.sum_congr rfl fun k _ => ?_
  have hl : lidx_main_v4 (ix2 a q) k = ix2 a k := by
    funext b; match b with | ⟨0, _⟩ => rfl | ⟨1, _⟩ => rfl
  have hr : ridx_main_v4 (ix2 a q) k = ix2 k q := by
    funext b; match b with | ⟨0, _⟩ => rfl | ⟨1, _⟩ => rfl
  rw [hl, hr]

/-- The normalisation gathered at the sources. -/
theorem v18_at (x1 : EdgeT) (hsrc : SrcOk x1) (p : Fin 1600000) :
    val_main_v18 (F := Ideal) x1 (ix1 p) = degInv x1 (ix1 (srcNode x1 hsrc p)) := by
  unfold val_main_v18
  have h17 : val_main_v17 (F := Ideal) x1 = wrapped (srcW x1) := rfl
  have h11 : val_main_v11 (F := Ideal) x1 = degInv x1 := rfl
  rw [h17, h11]
  exact gather1_wrapped _ rfl rfl rfl rfl _ _ p _ (srcNode_spec x1 hsrc p)

/-- The normalisation gathered at the destinations, where the destination word reads as node `r`. -/
theorem v25_at (x1 : EdgeT) (p : Fin 1600000) (r : Fin 100000) (hr : (dstW x1 (ix1 p)).toInt = (r.val : Int)) :
    val_main_v25 (F := Ideal) x1 (ix1 p) = degInv x1 (ix1 r) := by
  unfold val_main_v25
  have h24 : val_main_v24 (F := Ideal) x1 = wrapped (dstW x1) := rfl
  have h11 : val_main_v11 (F := Ideal) x1 = degInv x1 := rfl
  rw [h24, h11]
  exact gather1_wrapped _ rfl rfl rfl rfl _ _ p r hr

/-- The rows of X·W gathered at the sources. -/
theorem v34_at (x0 : X0T) (x1 : EdgeT) (x2 : X2T) (hsrc : SrcOk x1) (j : (⟨2, ![1600000, 64]⟩ : Shape).Idx) :
    val_main_v34 (F := Ideal) x0 x1 x2 j
      = val_main_v4 (F := Ideal) x0 x2 (ix2 (srcNode x1 hsrc ⟨(j 0).val, idx2_lt0 j⟩) ⟨(j 1).val, idx2_lt1 j⟩) := by
  unfold val_main_v34
  have h33 : val_main_v33 (F := Ideal) x1 = wrapped (srcW x1) := rfl
  rw [h33]
  exact gather_src _ rfl rfl rfl rfl rfl _ x1 hsrc j

/-- The reference's message on edge entry `j`, where the edge's destination word reads as node `r`. -/
theorem v36_at (x0 : X0T) (x1 : EdgeT) (x2 : X2T) (hsrc : SrcOk x1) (j : (⟨2, ![1600000, 64]⟩ : Shape).Idx) (r : Fin 100000)
    (hr : (dstW x1 (ix1 ⟨(j 0).val, idx2_lt0 j⟩)).toInt = (r.val : Int)) :
    val_main_v36 (F := Ideal) x0 x1 x2 j
      = (degInv x1 (ix1 (srcNode x1 hsrc ⟨(j 0).val, idx2_lt0 j⟩)) * degInv x1 (ix1 r))
        * ∑ k : Fin 8, x0 (ix2 (srcNode x1 hsrc ⟨(j 0).val, idx2_lt0 j⟩) k) * x2 (ix2 k ⟨(j 1).val, idx2_lt1 j⟩) := by
  have hk : idx_main_v27 (idx_main_v35 j) = ix1 ⟨(j 0).val, idx2_lt0 j⟩ := by
    funext a; match a with | ⟨0, _⟩ => rfl
  rw [val_main_v36_apply, val_main_v35_apply, val_main_v27_apply, val_main_v26_apply, Ideal.mulf_def, Ideal.mulf_def, hk,
    v18_at x1 hsrc, v25_at x1 _ r hr, v34_at x0 x1 x2 hsrc, v4_at]

/-- The node's own term of the reference. -/
theorem v43_at (x0 : X0T) (x1 : EdgeT) (x2 : X2T) (i : (⟨2, ![100000, 64]⟩ : Shape).Idx) :
    val_main_v43 (F := Ideal) x0 x1 x2 i
      = (degInv x1 (ix1 ⟨(i 0).val, idx2_lt0 i⟩) * degInv x1 (ix1 ⟨(i 0).val, idx2_lt0 i⟩))
        * ∑ k : Fin 8, x0 (ix2 (⟨(i 0).val, idx2_lt0 i⟩ : Fin 100000) k) * x2 (ix2 k (⟨(i 1).val, idx2_lt1 i⟩ : Fin 64)) := by
  have hk : idx_main_v41 (idx_main_v42 i) = ix1 ⟨(i 0).val, idx2_lt0 i⟩ := by
    funext a; match a with | ⟨0, _⟩ => rfl
  have h11 : val_main_v11 (F := Ideal) x1 = degInv x1 := rfl
  have hi : i = ix2 (⟨(i 0).val, idx2_lt0 i⟩ : Fin 100000) (⟨(i 1).val, idx2_lt1 i⟩ : Fin 64) := eq_ix2 i
  rw [val_main_v43_apply, val_main_v42_apply, val_main_v41_apply, val_main_v40_apply, Ideal.mulf_def, Ideal.mulf_def, hk, h11]
  congr 1
  conv_lhs => rw [hi]
  exact v4_at x0 x2 _ _

/-- The bias at an entry. -/
theorem v46_at (x3 : X3T) (i : (⟨2, ![100000, 64]⟩ : Shape).Idx) :
    val_main_v46 (F := Ideal) x3 i = x3 (ix1 ⟨(i 1).val, idx2_lt1 i⟩) := by
  have hk : idx_main_v45 (idx_main_v46 i) = ix1 ⟨(i 1).val, idx2_lt1 i⟩ := by
    funext a; match a with | ⟨0, _⟩ => rfl
  rw [val_main_v46_apply, val_main_v45_apply, hk]

/-! ## The first layer -/

/-- The scaled product read at entry (a, q). -/
theorem scaled8x64_at (x0 : X0T) (x2 : X2T) (dc : Arr ⟨2, ![100000, 1]⟩) (a : Fin 100000) (q : Fin 64) :
    scaled8x64 x0 x2 dc (ix2 a q) = dc (ix2 a (0 : Fin 1)) * ∑ k : Fin 8, x0 (ix2 a k) * x2 (ix2 k q) := rfl

theorem layer1_ref (x0 : (⟨Cert.ReferenceIdeal.S100000x8, .f32⟩ : BufTy).Contents (Elt Ideal)) (x1 : (⟨Cert.ReferenceIdeal.S2x1600000, .i32⟩ : BufTy).Contents (Elt Ideal)) (x2 : (⟨Cert.ReferenceIdeal.S8x64, .f32⟩ : BufTy).Contents (Elt Ideal)) (x3 : (⟨Cert.ReferenceIdeal.S64, .f32⟩ : BufTy).Contents (Elt Ideal)) (hsrc : SrcOk x1) :
    layer1 x0 x1 x2 x3 = Cert.ReferenceIdeal.Read.val_main_v48 (F := Ideal) x0 x1 x2 x3 := by
  funext i
  obtain ⟨c, hc0, hc⟩ := degInv_real x1 (ix1 ⟨(i 0).val, idx2_lt0 i⟩)
  have hS : scaled8x64 x0 x2 (degCol x1) i
      = degCol x1 (ix2 (⟨(i 0).val, idx2_lt0 i⟩ : Fin 100000) (0 : Fin 1))
        * ∑ k : Fin 8, x0 (ix2 (⟨(i 0).val, idx2_lt0 i⟩ : Fin 100000) k) * x2 (ix2 k (⟨(i 1).val, idx2_lt1 i⟩ : Fin 64)) := rfl
  -- the reference at entry i
  rw [val_main_v48_apply, val_main_v47_apply, val_main_v44_apply, Ideal.maximumf_def, Ideal.addf_def, Ideal.addf_def,
    v43_at, v46_at, val_main_call0_v0_apply, val_main_call0_cst_apply, Ideal.ofBits_def, hc]
  unfold val_main_v39
  -- the kernel at entry i
  unfold layer1 combineClip64
  rw [hS, degCol_apply, biasRow64_apply, hc]
  unfold aggregate64
  refine congrArg (fun t => max t (Ideal.ofBits .f32 0x00000000#32)) ?_
  refine scatter_layer_law _ _ rfl _ _ (dstCol x1) (val_main_v38 (F := Ideal) x1) rfl _ _ i
    Ideal.ofBits_zero_f32 Ideal.ofBits_zero_f32 c hc0 _ _ (fun j hj => ?_)
  obtain ⟨hland, -⟩ := scatter_rows_landing _ rfl rfl rfl rfl (dstCol x1) j i hj
  rw [dstCol_apply] at hland
  rw [takeRows64_apply _ x1 hsrc j, scaled8x64_at, degCol_apply,
    v36_at x0 x1 x2 hsrc j ⟨(i 0).val, idx2_lt0 i⟩ hland, hc]
  exact (mul_left_comm _ _ _).trans (mul_assoc _ _ _).symm

end Cert.Bridge.Layer1

end
-- ==== Proof.Layer2.lean ====
/-
  The second layer, kernel against reference, on any input the first layer produced.
-/
import proofs.«421954_j14886356648486_2_alg».proof.Proof.Terms
import proofs.«421954_j14886356648486_2_alg».proof.Proof.EdgeLemmas
import proofs.«421954_j14886356648486_2_alg».proof.Proof.DegFacts
import proofs.«421954_j14886356648486_2_alg».proof.Proof.Gen.ReferenceIdeal.Read
import Idealize.ShloMosaic.PureOps.Ideal.Laws

noncomputable section

namespace Cert.Bridge.Layer2

open Idealize.ShloMosaic Idealize.ShloMosaic.TcCoe Idealize.ShloMosaic.ValueIdx Idealize.SL.Sem
open Cert.KernelIdeal.Terms Cert.EdgeLemmas Cert.KernelIdeal.DegFacts
open scoped BigOperators

/-- The edge list's type on the reference side (the same array type as the kernel side's). -/
abbrev EdgeT := (⟨Cert.ReferenceIdeal.S2x1600000, .i32⟩ : BufTy).Contents (Elt Ideal)

/-! ## Words of the source row -/

/-- The moved source word of edge `p`, spelt out. -/
theorem wrapped_apply (s : IVec ⟨1, ![1600000]⟩ 32) (j : (⟨2, ![1600000, 1]⟩ : Shape).Idx) :
    wrapped s j = Scalar.select (IntOp.cmpi .slt (s (ix1 ⟨(j 0).val, idx2_lt0 j⟩)) 0#32)
      (IntOp.addi (s (ix1 ⟨(j 0).val, idx2_lt0 j⟩)) 100000#32) (s (ix1 ⟨(j 0).val, idx2_lt0 j⟩)) := by
  unfold wrapped
  refine (broadcastInDim_apply _ _ _ j (ix1 ⟨(j 0).val, idx2_lt0 j⟩) (fun a => match a with
    | ⟨0, _⟩ => by show (j 0).val = if (1600000 : Nat) = 1 then 0 else (j 0).val; rw [if_neg (by decide)])).trans ?_
  rfl

/-- A word that reads as a node number is left alone. -/
theorem wrapped_of_ok (s : IVec ⟨1, ![1600000]⟩ 32) (j : (⟨2, ![1600000, 1]⟩ : Shape).Idx)
    (h : (0 : Int) ≤ (s (ix1 ⟨(j 0).val, idx2_lt0 j⟩)).toInt) :
    wrapped s j = s (ix1 ⟨(j 0).val, idx2_lt0 j⟩) := by
  rw [wrapped_apply]; exact wrap_id _ h

/-- An `and`-reduction of an array of ones from the bit one is one. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  unfold Host.reduce
  rw [hinit]
  generalize ((List.finRange s.numel).filter fun n => h.drop (s.rowMajor.symm n) = j) = l
  induction l with
  | nil => rfl
  | cons a l ih =>
    rw [List.foldl_cons, hx]
    exact ih

/-- Where every source word is a node number the range test passes at every edge. -/
theorem inRange_of_ok (s : IVec ⟨1, ![1600000]⟩ 32)
    (hs : ∀ p : Fin 1600000, (0 : Int) ≤ (s (ix1 p)).toInt ∧ (s (ix1 p)).toInt < 100000) (k : (⟨1, ![1600000]⟩ : Shape).Idx) :
    inRange s k = 1#1 := by
  unfold inRange
  refine reduce_andi_ones _ _ _ _ (fun j => ?_) rfl k
  show IntOp.andi (IntOp.cmpi .sge (wrapped s j) 0#32) (IntOp.cmpi .sle (wrapped s j) 99999#32) = 1#1
  rw [wrapped_of_ok s j (hs _).1]
  exact range_bit _ (hs _).1 (hs _).2

/-! ## The accumulating scatter at one entry, and the layer law through it (any shapes) -/

/-- The accumulating scatter read at an entry: the operand there plus the updates that land there. -/
theorem scatterAdd_apply {s si su : Shape} {w : Nat} (d : ScatterDims s si su) (x : FVec Ideal s .f32) (idx : IVec si w)
    (upd : FVec Ideal su .f32) (i : s.Idx) :
    Host.scatterAdd d x idx upd i = x i + ∑ j ∈ Finset.univ.filter (fun j => d.resultIdx? j idx = some i), upd j := rfl

/-- Two spellings of a layer at entry `i`: scaling the scattered sum and the node's own scaled row afterwards by a real
    `c ≥ 0`, against scattering updates that carry the factor already. The two scatters may be written with different
    (equal) dimension records, zero operands and index tables. -/
theorem scatter_layer_law {s si su : Shape} {w : Nat} (d d' : ScatterDims s si su) (hd : d' = d) (z z' : FVec Ideal s .f32)
    (idx idx' : IVec si w) (hidx : idx' = idx) (g r : FVec Ideal su .f32) (i : s.Idx) (hz : z i = 0) (hz' : z' i = 0)
    (c : ℝ) (hc : 0 ≤ c) (hh b : EReal)
    (hgr : ∀ j, d.resultIdx? j idx = some i → (c : EReal) * g j = r j) :
    (c : EReal) * (Host.scatterAdd d z idx g i + (c : EReal) * hh) + b
      = (Host.scatterAdd d' z' idx' r i + ((c : EReal) * (c : EReal)) * hh) + b := by
  subst hd hidx
  rw [scatterAdd_apply, scatterAdd_apply, hz, hz']
  exact layer_law _ c hc g r hh b (fun j hj => hgr j (Finset.mem_filter.mp hj).2)

/-! ## Rows taken at the sources, read at an entry -/

/-- The node a source word names, where every source word is a node number. -/
def srcNode (e : EdgeT) (hsrc : SrcOk e) (p : Fin 1600000) : Fin 100000 :=
  ⟨(srcW e (ix1 p)).toInt.toNat, by have := hsrc p; omega⟩

/-- A gather of whole rows at the moved source words: entry (p, q) is entry (source of p, q) of the table. -/
theorem gather_src {D : Nat} (d : GatherDims ⟨2, ![100000, D]⟩ ⟨2, ![1600000, 1]⟩ ⟨2, ![1600000, D]⟩)
    (hoff : d.offsetDims = [1]) (hcoll : d.collapsedSliceDims = [0]) (hob : d.operandBatchingDims = [])
    (hsim : d.startIndexMap = [0]) (hivd : d.indexVectorDim = 1)
    (H : (⟨2, ![100000, D]⟩ : Shape).Idx → EReal) (e : EdgeT) (hsrc : SrcOk e) (j : (⟨2, ![1600000, D]⟩ : Shape).Idx) :
    Host.gather d H (wrapped (srcW e)) j = H (ix2 (srcNode e hsrc ⟨(j 0).val, idx2_lt0 j⟩) ⟨(j 1).val, idx2_lt1 j⟩) := by
  rw [gather_rows d hoff hcoll hob hsim hivd H (wrapped (srcW e)) j (by decide)]
  congr 2
  refine Fin.ext ?_
  show min (wrapped (srcW e) (ix2 (⟨(j 0).val, idx2_lt0 j⟩ : Fin 1600000) (0 : Fin 1))).toInt.toNat (100000 - 1)
    = (srcW e (ix1 ⟨(j 0).val, idx2_lt0 j⟩)).toInt.toNat
  rw [wrapped_of_ok _ _ (hsrc _).1]
  exact clamp_id _ 100000 (hsrc _).1 (hsrc _).2

/-- Entry (p, q) of the rows taken at the sources is entry (source of p, q). -/
theorem takeRows64_apply (H : Arr ⟨2, ![100000, 64]⟩) (e : EdgeT) (hsrc : SrcOk e) (j : (⟨2, ![1600000, 64]⟩ : Shape).Idx) :
    takeRows64 H (srcW e) j = H (ix2 (srcNode e hsrc ⟨(j 0).val, idx2_lt0 j⟩) ⟨(j 1).val, idx2_lt1 j⟩) := by
  unfold takeRows64
  rw [select_apply]
  have hb : ∀ h, broadcastInDim (⟨2, ![1600000, 64]⟩ : Shape) ![0] h (inRange (srcW e)) j = 1#1 := fun h => by
    refine (broadcastInDim_apply _ h _ j (ix1 ⟨(j 0).val, idx2_lt0 j⟩) (fun a => match a with
      | ⟨0, _⟩ => by show (j 0).val = if (1600000 : Nat) = 1 then 0 else (j 0).val; rw [if_neg (by decide)])).trans ?_
    exact inRange_of_ok _ hsrc _
  rw [hb, select_one]
  exact gather_src _ rfl rfl rfl rfl rfl H e hsrc j

/-! ## Indices -/

theorem ofFin_eq_ix1 {n : Nat} (p : Fin n) : Shape.Idx.ofFin p = ix1 p := by
  funext a; match a with | ⟨0, _⟩ => rfl

theorem ixP_eq_ix2 {n : Nat} (p : Fin n) : StableHlo.Predicate.ixP p = ix2 p (0 : Fin 1) := by
  funext a; match a with | ⟨0, _⟩ => rfl | ⟨1, _⟩ => rfl

/-- The source word of edge `p` reads as its node's number. -/
theorem srcNode_spec (e : EdgeT) (hsrc : SrcOk e) (p : Fin 1600000) :
    (srcW e (ix1 p)).toInt = ((srcNode e hsrc p).val : Int) := by
  show _ = (((srcW e (ix1 p)).toInt.toNat : Nat) : Int)
  rw [Int.toNat_of_nonneg (hsrc p).1]

/-- A gather from a per-node vector at moved words: where edge `p`'s word reads as node `r`, entry `p` is the vector at `r`. -/
theorem gather1_wrapped (d : GatherDims ⟨1, ![100000]⟩ ⟨2, ![1600000, 1]⟩ ⟨1, ![1600000]⟩)
    (hcoll : d.collapsedSliceDims = [0]) (hob : d.operandBatchingDims = [])
    (hsim : d.startIndexMap = [0]) (hivd : d.indexVectorDim = 1)
    (v : (⟨1, ![100000]⟩ : Shape).Idx → EReal) (s : IVec ⟨1, ![1600000]⟩ 32) (p : Fin 1600000) (r : Fin 100000)
    (hr : (s (ix1 p)).toInt = (r.val : Int)) :
    Host.gather d v (wrapped s) (ix1 p) = v (ix1 r) := by
  have h0 : (0 : Int) ≤ (s (ix1 p)).toInt := by rw [hr]; exact Int.natCast_nonneg _
  have h1 : (s (ix1 p)).toInt < (100000 : Nat) := by rw [hr]; exact_mod_cast r.isLt
  have hw : wrapped s (ix2 p (0 : Fin 1)) = s (ix1 p) := wrapped_of_ok s _ h0
  rw [← ofFin_eq_ix1, StableHlo.Predicate.gather_take d hcoll hob hsim hivd v (wrapped s) p (by decide), ofFin_eq_ix1]
  congr 2
  refine Fin.ext ?_
  show min (wrapped s (StableHlo.Predicate.ixP p)).toInt.toNat (100000 - 1) = r.val
  rw [ixP_eq_ix2, hw, clamp_id _ 100000 h0 h1, hr]
  exact Int.toNat_natCast _

/-! ## The reference's stages read at an entry -/

open Cert.ReferenceIdeal.Read

abbrev X0T := (⟨Cert.ReferenceIdeal.S100000x8, .f32⟩ : BufTy).Contents (Elt Ideal)
abbrev X2T := (⟨Cert.ReferenceIdeal.S8x64, .f32⟩ : BufTy).Contents (Elt Ideal)
abbrev X3T := (⟨Cert.ReferenceIdeal.S64, .f32⟩ : BufTy).Contents (Elt Ideal)
abbrev X4T := (⟨Cert.ReferenceIdeal.S64x64, .f32⟩ : BufTy).Contents (Elt Ideal)

/-- The destination column read at a row is the destination word of that edge. -/
theorem dstCol_apply (e : EdgeT) (p : Fin 1600000) : dstCol e (ix2 p (0 : Fin 1)) = dstW e (ix1 p) := by
  unfold dstCol
  exact broadcastInDim_apply _ _ _ (ix2 p (0 : Fin 1)) (ix1 p) (fun a => match a with
    | ⟨0, _⟩ => by show p.val = if (1600000 : Nat) = 1 then 0 else p.val; rw [if_neg (by decide)])

/-- The product X·W of this layer at entry (a, q); X is the first layer's result, never opened. -/
theorem v49_at (x0 : X0T) (x1 : EdgeT) (x2 : X2T) (x3 : X3T) (x4 : X4T) (a : Fin 100000) (q : Fin 64) :
    val_main_v49 (F := Ideal) x0 x1 x2 x3 x4 (ix2 a q)
      = ∑ k : Fin 64, val_main_v48 (F := Ideal) x0 x1 x2 x3 (ix2 a k) * x4 (ix2 k q) := by
  rw [val_main_v49_apply]
  refine Finset.sum_congr rfl fun k _ => ?_
  have hl : lidx_main_v49 (ix2 a q) k = ix2 a k := by
    funext b; match b with | ⟨0, _⟩ => rfl | ⟨1, _⟩ => rfl
  have hr : ridx_main_v49 (ix2 a q) k = ix2 k q := by
    funext b; match b with | ⟨0, _⟩ => rfl | ⟨1, _⟩ => rfl
  rw [hl, hr]

/-- The normalisation (recomputed by the reference in this layer: the same term) gathered at the sources. -/
theorem v63_at (x1 : EdgeT) (hsrc : SrcOk x1) (p : Fin 1600000) :
    val_main_v63 (F := Ideal) x1 (ix1 p) = degInv x1 (ix1 (srcNode x1 hsrc p)) := by
  unfold val_main_v63
  have h62 : val_main_v62 (F := Ideal) x1 = wrapped (srcW x1) := rfl
  have h56 : val_main_v56 (F := Ideal) x1 = degInv x1 := rfl
  rw [h62, h56]
  exact gather1_wrapped _ rfl rfl rfl rfl _ _ p _ (srcNode_spec x1 hsrc p)

/-- The normalisation gathered at the destinations, where the destination word reads as node `r`. -/
theorem v70_at (x1 : EdgeT) (p : Fin 1600000) (r : Fin 100000) (hr : (dstW x1 (ix1 p)).toInt = (r.val : Int)) :
    val_main_v70 (F := Ideal) x1 (ix1 p) = degInv x1 (ix1 r) := by
  unfold val_main_v70
  have h69 : val_main_v69 (F := Ideal) x1 = wrapped (dstW x1) := rfl
  have h56 : val_main_v56 (F := Ideal) x1 = degInv x1 := rfl
  rw [h69, h56]
  exact gather1_wrapped _ rfl rfl rfl rfl _ _ p r hr

/-- The rows of X·W gathered at the sources. -/
theorem v79_at (x0 : X0T) (x1 : EdgeT) (x2 : X2T) (x3 : X3T) (x4 : X4T) (hsrc : SrcOk x1)
    (j : (⟨2, ![1600000, 64]⟩ : Shape).Idx) :
    val_main_v79 (F := Ideal) x0 x1 x2 x3 x4 j
      = val_main_v49 (F := Ideal) x0 x1 x2 x3 x4
          (ix2 (srcNode x1 hsrc ⟨(j 0).val, idx2_lt0 j⟩) ⟨(j 1).val, idx2_lt1 j⟩) := by
  unfold val_main_v79
  have h78 : val_main_v78 (F := Ideal) x1 = wrapped (srcW x1) := rfl
  rw [h78]
  exact gather_src _ rfl rfl rfl rfl rfl _ x1 hsrc j

/-- The reference's message on edge entry `j`, where the edge's destination word reads as node `r`. -/
theorem v81_at (x0 : X0T) (x1 : EdgeT) (x2 : X2T) (x3 : X3T) (x4 : X4T) (hsrc : SrcOk x1)
    (j : (⟨2, ![1600000, 64]⟩ : Shape).Idx) (r : Fin 100000)
    (hr : (dstW x1 (ix1 ⟨(j 0).val, idx2_lt0 j⟩)).toInt = (r.val : Int)) :
    val_main_v81 (F := Ideal) x0 x1 x2 x3 x4 j
      = (degInv x1 (ix1 (srcNode x1 hsrc ⟨(j 0).val, idx2_lt0 j⟩)) * degInv x1 (ix1 r))
        * ∑ k : Fin 64, val_main_v48 (F := Ideal) x0 x1 x2 x3 (ix2 (srcNode x1 hsrc ⟨(j 0).val, idx2_lt0 j⟩) k)
            * x4 (ix2 k ⟨(j 1).val, idx2_lt1 j⟩) := by
  have hk : idx_main_v72 (idx_main_v80 j) = ix1 ⟨(j 0).val, idx2_lt0 j⟩ := by
    funext a; match a with | ⟨0, _⟩ => rfl
  rw [val_main_v81_apply, val_main_v80_apply, val_main_v72_apply, val_main_v71_apply, Ideal.mulf_def, Ideal.mulf_def, hk,
    v63_at x1 hsrc, v70_at x1 _ r hr, v79_at x0 x1 x2 x3 x4 hsrc, v49_at]

/-- The node's own term of the reference. -/
theorem v88_at (x0 : X0T) (x1 : EdgeT) (x2 : X2T) (x3 : X3T) (x4 : X4T) (i : (⟨2, ![100000, 64]⟩ : Shape).Idx) :
    val_main_v88 (F := Ideal) x0 x1 x2 x3 x4 i
      = (degInv x1 (ix1 ⟨(i 0).val, idx2_lt0 i⟩) * degInv x1 (ix1 ⟨(i 0).val, idx2_lt0 i⟩))
        * ∑ k : Fin 64, val_main_v48 (F := Ideal) x0 x1 x2 x3 (ix2 (⟨(i 0).val, idx2_lt0 i⟩ : Fin 100000) k)
            * x4 (ix2 k (⟨(i 1).val, idx2_lt1 i⟩ : Fin 64)) := by
  have hk : idx_main_v86 (idx_main_v87 i) = ix1 ⟨(i 0).val, idx2_lt0 i⟩ := by
    funext a; match a with | ⟨0, _⟩ => rfl
  have h56 : val_main_v56 (F := Ideal) x1 = degInv x1 := rfl
  have hi : i = ix2 (⟨(i 0).val, idx2_lt0 i⟩ : Fin 100000) (⟨(i 1).val, idx2_lt1 i⟩ : Fin 64) := eq_ix2 i
  have h49 : val_main_v49 (F := Ideal) x0 x1 x2 x3 x4 i
      = ∑ k : Fin 64, val_main_v48 (F := Ideal) x0 x1 x2 x3 (ix2 (⟨(i 0).val, idx2_lt0 i⟩ : Fin 100000) k)
          * x4 (ix2 k (⟨(i 1).val, idx2_lt1 i⟩ : Fin 64)) :=
    (congrArg (val_main_v49 (F := Ideal) x0 x1 x2 x3 x4) hi).trans (v49_at x0 x1 x2 x3 x4 _ _)
  rw [val_main_v88_apply, val_main_v87_apply, val_main_v86_apply, val_main_v85_apply, Ideal.mulf_def, Ideal.mulf_def, hk, h56,
    h49]

/-- The bias at an entry. -/
theorem v91_at (x5 : X3T) (i : (⟨2, ![100000, 64]⟩ : Shape).Idx) :
    val_main_v91 (F := Ideal) x5 i = x5 (ix1 ⟨(i 1).val, idx2_lt1 i⟩) := by
  have hk : idx_main_v90 (idx_main_v91 i) = ix1 ⟨(i 1).val, idx2_lt1 i⟩ := by
    funext a; match a with | ⟨0, _⟩ => rfl
  rw [val_main_v91_apply, val_main_v90_apply, hk]

/-! ## The second layer -/

/-- The scaled product read at entry (a, q), for any input array. -/
theorem scaled64x64_at (X : Arr ⟨2, ![100000, 64]⟩) (w : X4T) (dc : Arr ⟨2, ![100000, 1]⟩) (a : Fin 100000) (q : Fin 64) :
    scaled64x64 X w dc (ix2 a q) = dc (ix2 a (0 : Fin 1)) * ∑ k : Fin 64, X (ix2 a k) * w (ix2 k q) := rfl

/-- The same at a general entry. -/
theorem scaled64x64_apply (X : Arr ⟨2, ![100000, 64]⟩) (w : X4T) (dc : Arr ⟨2, ![100000, 1]⟩)
    (i : (⟨2, ![100000, 64]⟩ : Shape).Idx) :
    scaled64x64 X w dc i = dc (ix2 (⟨(i 0).val, idx2_lt0 i⟩ : Fin 100000) (0 : Fin 1))
      * ∑ k : Fin 64, X (ix2 (⟨(i 0).val, idx2_lt0 i⟩ : Fin 100000) k) * w (ix2 k (⟨(i 1).val, idx2_lt1 i⟩ : Fin 64)) := rfl

theorem layer2_ref (x0 : (⟨Cert.ReferenceIdeal.S100000x8, .f32⟩ : BufTy).Contents (Elt Ideal)) (x1 : (⟨Cert.ReferenceIdeal.S2x1600000, .i32⟩ : BufTy).Contents (Elt Ideal)) (x2 : (⟨Cert.ReferenceIdeal.S8x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (hsrc : SrcOk x1) :
    layer2 (Cert.ReferenceIdeal.Read.val_main_v48 (F := Ideal) x0 x1 x2 x3) x1 x4 x5 = Cert.ReferenceIdeal.Read.val_main_v93 (F := Ideal) x0 x1 x2 x3 x4 x5 := by
  funext i
  obtain ⟨c, hc0, hc⟩ := degInv_real x1 (ix1 ⟨(i 0).val, idx2_lt0 i⟩)
  -- the reference at entry i
  rw [val_main_v93_apply, val_main_v92_apply, val_main_v89_apply, Ideal.maximumf_def, Ideal.addf_def, Ideal.addf_def,
    v88_at, v91_at, val_main_call1_v0_apply, val_main_call1_cst_apply, Ideal.ofBits_def, hc]
  unfold val_main_v84
  -- the kernel at entry i
  unfold layer2 combineClip64
  rw [scaled64x64_apply, degCol_apply, biasRow64_apply, hc]
  unfold aggregate64
  refine congrArg (fun t => max t (Ideal.ofBits .f32 0x00000000#32)) ?_
  refine scatter_layer_law _ _ rfl _ _ (dstCol x1) (val_main_v83 (F := Ideal) x1) rfl _ _ i
    Ideal.ofBits_zero_f32 Ideal.ofBits_zero_f32 c hc0 _ _ (fun j hj => ?_)
  obtain ⟨hland, -⟩ := scatter_rows_landing _ rfl rfl rfl rfl (dstCol x1) j i hj
  rw [dstCol_apply] at hland
  rw [takeRows64_apply _ x1 hsrc j, scaled64x64_at, degCol_apply,
    v81_at x0 x1 x2 x3 x4 hsrc j ⟨(i 0).val, idx2_lt0 i⟩ hland, hc]
  exact (mul_left_comm _ _ _).trans (mul_assoc _ _ _).symm

end Cert.Bridge.Layer2

end
-- ==== Proof.Layer3.lean ====
/-
  The third layer (112 columns, not clipped), kernel against reference.

  At an entry (r, q), with c the degree normalisation at node r (a non-negative real) and h = X · W:
  the kernel computes  c · ((0 + Σ over the edge entries landing on (r, q) of c_s · h[s, ·]) + c · h[r, q]) + b q,
  the reference        ((0 + Σ over the same entries of (c_s · c_d) · h[s, ·]) + (c · c) · h[r, q]) + b q,
  where s is the row the source gather reads for the edge and d the row its destination gather reads. Both programs
  scatter along the same destination column, so the two sums range over one set; an entry that lands on row r has
  destination word r, hence c_d = c; and every source word being a node number, the kernel's select takes the
  gathered row. The non-negative real c then distributes over the sum.
-/
import proofs.«421954_j14886356648486_2_alg».proof.Proof.Terms
import proofs.«421954_j14886356648486_2_alg».proof.Proof.EdgeLemmas
import proofs.«421954_j14886356648486_2_alg».proof.Proof.DegFacts
import proofs.«421954_j14886356648486_2_alg».proof.Proof.Gen.ReferenceIdeal.Read
import Idealize.ShloMosaic.PureOps.Ideal.Laws

noncomputable section

namespace Cert.Bridge.Layer3

open Idealize.ShloMosaic Idealize.ShloMosaic.TcCoe Idealize.ShloMosaic.ValueIdx Idealize.SL.Sem
open Cert.KernelIdeal.Terms Cert.EdgeLemmas Cert.KernelIdeal.DegFacts
open scoped BigOperators

/-! ## Words at an edge -/

/-- An and-reduction of one-bit words that are all one, from one, is one. -/
theorem reduce_andi_ones {s t u : Shape} {axes : List (Fin s.rank)} (x : s.Idx → BitVec 1) (init : u.Idx → BitVec 1)
    (h : s.ReducesTo axes t) (hu : 0 < u.numel) (j : t.Idx)
    (hinit : init (Shape.Idx.first hu) = 1#1) (hx : ∀ i, x i = 1#1) : Host.reduce IntOp.andi x init h hu j = 1#1 := by
  have key : ∀ (l : List (Fin s.numel)) (r : BitVec 1), r = 1#1 →
      l.foldl (fun r n => IntOp.andi r (x (s.rowMajor.symm n))) r = 1#1 := by
    intro l
    induction l with
    | nil => intro r hr; exact hr
    | cons a l ih =>
      intro r hr
      rw [List.foldl_cons]
      apply ih
      rw [hr, hx]
      rfl
  unfold Host.reduce
  exact key _ _ hinit

/-- The moved source word of edge `p`, read in the one-column table. -/
theorem wrapped_apply (s : IVec Cert.KernelIdeal.S1600000 32) (p : Fin 1600000) :
    wrapped s (ix2 p (0 : Fin 1))
      = Scalar.select (IntOp.cmpi .slt (s (ix1 p)) 0#32) (IntOp.addi (s (ix1 p)) 100000#32) (s (ix1 p)) := by
  unfold wrapped
  refine (broadcastInDim_apply _ Cert.KernelIdeal.Gen.bcast_S1600000_S1600000x1_0 _ (ix2 p (0 : Fin 1)) (ix1 p) (fun a => match a with
    | ⟨0, _⟩ => by show p.val = if (1600000 : Nat) = 1 then 0 else p.val; rw [if_neg (by decide)])).trans ?_
  rfl

/-- A source word that is a node number is left alone. -/
theorem wrapped_of_ok (s : IVec Cert.KernelIdeal.S1600000 32) (p : Fin 1600000) (h0 : (0 : Int) ≤ (s (ix1 p)).toInt) :
    wrapped s (ix2 p (0 : Fin 1)) = s (ix1 p) := by
  rw [wrapped_apply]; exact wrap_id _ h0

/-- Every edge whose source word is a node number passes the range test. -/
theorem inRange_one (s : IVec Cert.KernelIdeal.S1600000 32)
    (hs : ∀ p : Fin 1600000, (0 : Int) ≤ (s (ix1 p)).toInt ∧ (s (ix1 p)).toInt < 100000) (j : Cert.KernelIdeal.S1600000.Idx) :
    inRange s j = 1#1 := by
  unfold inRange
  refine reduce_andi_ones _ _ _ _ j rfl (fun i => ?_)
  obtain ⟨p, z, rfl⟩ : ∃ (p : Fin 1600000) (z : Fin 1), i = ix2 p z := ⟨i 0, i 1, eq_ix2 i⟩
  obtain rfl : z = 0 := Subsingleton.elim _ _
  show IntOp.andi (IntOp.cmpi .sge (wrapped s (ix2 p (0 : Fin 1))) 0#32) (IntOp.cmpi .sle (wrapped s (ix2 p (0 : Fin 1))) 99999#32) = 1#1
  rw [wrapped_of_ok s p (hs p).1]
  exact range_bit _ (hs p).1 (hs p).2

/-! ## The rows the two programs read for an edge -/

/-- The node whose row a gather reads for edge `p`: the moved word, clamped into the table. -/
def rowOf (s : IVec Cert.KernelIdeal.S1600000 32) (p : Fin 1600000) : Fin 100000 :=
  ⟨min (wrapped s (ix2 p (0 : Fin 1))).toInt.toNat (100000 - 1), by omega⟩

/-- The destination column read at an edge is the destination word. -/
theorem dstCol_apply (e : IVec Cert.KernelIdeal.S2x1600000 32) (p : Fin 1600000) :
    dstCol e (ix2 p (0 : Fin 1)) = dstW e (ix1 p) := by
  unfold dstCol
  exact broadcastInDim_apply _ _ _ (ix2 p (0 : Fin 1)) (ix1 p) (fun a => match a with
    | ⟨0, _⟩ => by show p.val = if (1600000 : Nat) = 1 then 0 else p.val; rw [if_neg (by decide)])

/-- An edge whose destination word reads `r` has `r` as the row its destination gather reads. -/
theorem rowOf_dst (e : IVec Cert.KernelIdeal.S2x1600000 32) (p : Fin 1600000) (r : Fin 100000)
    (h : (dstCol e (ix2 p (0 : Fin 1))).toInt = (r.val : Int)) : rowOf (dstW e) p = r := by
  rw [dstCol_apply] at h
  have h0 : (0 : Int) ≤ (dstW e (ix1 p)).toInt := by rw [h]; exact Int.natCast_nonneg _
  have h1 : (dstW e (ix1 p)).toInt < (100000 : Nat) := by rw [h]; exact_mod_cast r.isLt
  apply Fin.ext
  show min (wrapped (dstW e) (ix2 p (0 : Fin 1))).toInt.toNat (100000 - 1) = r.val
  rw [wrapped_of_ok _ p h0, clamp_id _ 100000 h0 h1, h]
  exact Int.toNat_natCast _

/-! ## The kernel's message along an edge -/

theorem takeRows112_apply (H : Arr Cert.KernelIdeal.S100000x112) (s : IVec Cert.KernelIdeal.S1600000 32)
    (hs : ∀ p : Fin 1600000, (0 : Int) ≤ (s (ix1 p)).toInt ∧ (s (ix1 p)).toInt < 100000) (p : Fin 1600000) (q : Fin 112) :
    takeRows112 H s (ix2 p q) = H (ix2 (rowOf s p) q) := by
  unfold takeRows112
  rw [select_apply]
  have hb : broadcastInDim Cert.KernelIdeal.S1600000x112 ![0] Cert.KernelIdeal.Gen.bcast_S1600000_S1600000x112_0 (inRange s) (ix2 p q) = 1#1 := by
    rw [broadcastInDim_apply _ _ _ (ix2 p q) (ix1 p) (fun a => match a with
      | ⟨0, _⟩ => by show p.val = if (1600000 : Nat) = 1 then 0 else p.val; rw [if_neg (by decide)])]
    exact inRange_one s hs _
  rw [hb, select_one]
  exact gather_rows _ rfl rfl rfl rfl rfl H (wrapped s) (ix2 p q) (by decide)

theorem kernel_message (X : Arr Cert.KernelIdeal.S100000x64) (e : IVec Cert.KernelIdeal.S2x1600000 32) (W : Arr Cert.KernelIdeal.S64x112)
    (hsrc : SrcOk e) (p : Fin 1600000) (q : Fin 112) :
    takeRows112 (scaled64x112 X W (degCol e)) (srcW e) (ix2 p q)
      = degInv e (ix1 (rowOf (srcW e) p)) * ∑ k : Fin 64, X (ix2 (rowOf (srcW e) p) k) * W (ix2 k q) := by
  rw [takeRows112_apply _ _ hsrc p q, ← degCol_apply]
  rfl

/-! ## The kernel's layer at an entry -/

/-- A scatter with an adding body, read at an entry: the operand there plus the updates that land there. -/
theorem scatterAdd_apply {s si su : Shape} {w : Nat} (d : ScatterDims s si su) (x : FVec Ideal s .f32) (idx : IVec si w)
    (upd : FVec Ideal su .f32) (i : s.Idx) :
    Host.scatterAdd d x idx upd i = x i + ∑ j ∈ Finset.univ.filter (fun j => d.resultIdx? j idx = some i), upd j := rfl

/-- The sum of the edge rows arriving at a node, at an entry. -/
theorem aggregate112_apply (G : Arr Cert.KernelIdeal.S1600000x112) (e : IVec Cert.KernelIdeal.S2x1600000 32) (i : Cert.KernelIdeal.S100000x112.Idx) :
    aggregate112 G e i = Ideal.ofBits .f32 0x00000000#32
      + ∑ j ∈ Finset.univ.filter (fun j => Cert.KernelIdeal.scatter_S100000x112_S1600000x1_S1600000x112_1_0_0_1.resultIdx? j (dstCol e) = some i), G j :=
  scatterAdd_apply _ _ (dstCol e) G i

theorem layer3_apply (X : Arr Cert.KernelIdeal.S100000x64) (e : IVec Cert.KernelIdeal.S2x1600000 32) (W : Arr Cert.KernelIdeal.S64x112)
    (b : Arr Cert.KernelIdeal.S112) (r : Fin 100000) (q : Fin 112) :
    layer3 X e W b (ix2 r q)
      = degInv e (ix1 r) * ((Ideal.ofBits .f32 0x00000000#32
            + ∑ j ∈ Finset.univ.filter (fun j => Cert.KernelIdeal.scatter_S100000x112_S1600000x1_S1600000x112_1_0_0_1.resultIdx? j (dstCol e) = some (ix2 r q)),
                takeRows112 (scaled64x112 X W (degCol e)) (srcW e) j)
          + degInv e (ix1 r) * ∑ k : Fin 64, X (ix2 r k) * W (ix2 k q))
        + b (ix1 q) := by
  rw [← degCol_apply e r, ← biasRow112_apply b q, ← aggregate112_apply (takeRows112 (scaled64x112 X W (degCol e)) (srcW e)) e (ix2 r q)]
  rfl

/-! ## Reading the reference's gathers, its product of weights, its scatter -/

section Reference

open Cert.ReferenceIdeal.Read

variable (x0 : (⟨Cert.ReferenceIdeal.S100000x8, .f32⟩ : BufTy).Contents (Elt Ideal)) (x1 : (⟨Cert.ReferenceIdeal.S2x1600000, .i32⟩ : BufTy).Contents (Elt Ideal)) (x2 : (⟨Cert.ReferenceIdeal.S8x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x112, .f32⟩ : BufTy).Contents (Elt Ideal)) (x7 : (⟨Cert.ReferenceIdeal.S112, .f32⟩ : BufTy).Contents (Elt Ideal))

/-- A vector gathered at the moved words of the edges reads, at edge `p`, the vector at the row the gather reads. -/
theorem take_apply {α : Type} (T : Cert.KernelIdeal.S100000.Idx → α) (s : IVec Cert.KernelIdeal.S1600000 32) (p : Fin 1600000) :
    Host.gather Cert.ReferenceIdeal.gather_S100000_S1600000x1_S1600000_n_0_n_n_0_1_1 T (wrapped s) (ix1 p) = T (ix1 (rowOf s p)) := by
  have hp : (ix1 p : Cert.KernelIdeal.S1600000.Idx) = Shape.Idx.ofFin p := funext fun a => by
    match a with | ⟨0, _⟩ => rfl
  have hix : Idealize.ShloMosaic.StableHlo.Predicate.ixP p = ix2 p (0 : Fin 1) := funext fun a => by
    match a with | ⟨0, _⟩ => rfl | ⟨1, _⟩ => rfl
  rw [hp, Idealize.ShloMosaic.StableHlo.Predicate.gather_take _ rfl rfl rfl rfl T (wrapped s) p (by decide)]
  refine congrArg T (funext fun a => ?_)
  match a with
  | ⟨0, _⟩ =>
    apply Fin.ext
    show min (wrapped s (Idealize.ShloMosaic.StableHlo.Predicate.ixP p)).toInt.toNat (100000 - 1)
      = min (wrapped s (ix2 p (0 : Fin 1))).toInt.toNat (100000 - 1)
    rw [hix]

/-- The normalisation gathered at the edges' sources. -/
theorem ref_deg_src (p : Fin 1600000) : val_main_v108 (F := Ideal) x1 (ix1 p) = degInv x1 (ix1 (rowOf (srcW x1) p)) :=
  take_apply (degInv x1) (srcW x1) p

/-- The normalisation gathered at the edges' destinations. -/
theorem ref_deg_dst (p : Fin 1600000) : val_main_v115 (F := Ideal) x1 (ix1 p) = degInv x1 (ix1 (rowOf (dstW x1) p)) :=
  take_apply (degInv x1) (dstW x1) p

/-- The reference's product `X · W` at an entry. -/
theorem ref_dot (r : Fin 100000) (q : Fin 112) :
    val_main_v94 (F := Ideal) x0 x1 x2 x3 x4 x5 x6 (ix2 r q)
      = ∑ k : Fin 64, (val_main_v93 (F := Ideal) x0 x1 x2 x3 x4 x5) (ix2 r k) * x6 (ix2 k q) := by
  rw [val_main_v94_apply]
  refine Finset.sum_congr rfl fun k _ => ?_
  have hl : lidx_main_v94 (ix2 r q) k = ix2 r k := funext fun a => by
    match a with | ⟨0, _⟩ => rfl | ⟨1, _⟩ => rfl
  have hr : ridx_main_v94 (ix2 r q) k = ix2 k q := funext fun a => by
    match a with | ⟨0, _⟩ => rfl | ⟨1, _⟩ => rfl
  rw [hl, hr]

/-- The rows of the product gathered at the edges' sources. -/
theorem ref_rows (p : Fin 1600000) (q : Fin 112) :
    val_main_v124 (F := Ideal) x0 x1 x2 x3 x4 x5 x6 (ix2 p q)
      = val_main_v94 (F := Ideal) x0 x1 x2 x3 x4 x5 x6 (ix2 (rowOf (srcW x1) p) q) :=
  gather_rows Cert.ReferenceIdeal.gather_S100000x112_S1600000x1_S1600000x112_1_0_n_n_0_1_1112 rfl rfl rfl rfl rfl
    (val_main_v94 (F := Ideal) x0 x1 x2 x3 x4 x5 x6) (wrapped (srcW x1)) (ix2 p q) (by decide)

/-- The reference's message along an edge. -/
theorem ref_message (p : Fin 1600000) (q : Fin 112) :
    val_main_v126 (F := Ideal) x0 x1 x2 x3 x4 x5 x6 (ix2 p q)
      = (degInv x1 (ix1 (rowOf (srcW x1) p)) * degInv x1 (ix1 (rowOf (dstW x1) p)))
          * ∑ k : Fin 64, (val_main_v93 (F := Ideal) x0 x1 x2 x3 x4 x5) (ix2 (rowOf (srcW x1) p) k) * x6 (ix2 k q) := by
  have hi : idx_main_v117 (idx_main_v125 (ix2 p q)) = ix1 p := funext fun a => by
    match a with | ⟨0, _⟩ => rfl
  rw [val_main_v126_apply, val_main_v125_apply, val_main_v117_apply, val_main_v116_apply, hi, ref_rows, ref_dot,
    ref_deg_src, ref_deg_dst]
  rfl

/-- The reference's sum of messages arriving at a node, at an entry. -/
theorem ref_aggregate (i : Cert.KernelIdeal.S100000x112.Idx) :
    val_main_v129 (F := Ideal) x0 x1 x2 x3 x4 x5 x6 i
      = Ideal.ofBits .f32 0x00000000#32
        + ∑ j ∈ Finset.univ.filter (fun j => Cert.KernelIdeal.scatter_S100000x112_S1600000x1_S1600000x112_1_0_0_1.resultIdx? j (dstCol x1) = some i),
            val_main_v126 (F := Ideal) x0 x1 x2 x3 x4 x5 x6 j :=
  scatterAdd_apply Cert.KernelIdeal.scatter_S100000x112_S1600000x1_S1600000x112_1_0_0_1 _ (dstCol x1)
    (val_main_v126 (F := Ideal) x0 x1 x2 x3 x4 x5 x6) i

end Reference

section Assembly

open Cert.ReferenceIdeal.Read

variable (x0 : (⟨Cert.ReferenceIdeal.S100000x8, .f32⟩ : BufTy).Contents (Elt Ideal)) (x1 : (⟨Cert.ReferenceIdeal.S2x1600000, .i32⟩ : BufTy).Contents (Elt Ideal)) (x2 : (⟨Cert.ReferenceIdeal.S8x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x112, .f32⟩ : BufTy).Contents (Elt Ideal)) (x7 : (⟨Cert.ReferenceIdeal.S112, .f32⟩ : BufTy).Contents (Elt Ideal))

/-- The reference's third layer at an entry: the messages that arrive, the node's own term with the squared
    normalisation, the bias. -/
theorem ref_apply (r : Fin 100000) (q : Fin 112) :
    val_main_v137 (F := Ideal) x0 x1 x2 x3 x4 x5 x6 x7 (ix2 r q)
      = ((Ideal.ofBits .f32 0x00000000#32
            + ∑ j ∈ Finset.univ.filter (fun j => Cert.KernelIdeal.scatter_S100000x112_S1600000x1_S1600000x112_1_0_0_1.resultIdx? j (dstCol x1) = some (ix2 r q)),
                val_main_v126 (F := Ideal) x0 x1 x2 x3 x4 x5 x6 j)
          + (degInv x1 (ix1 r) * degInv x1 (ix1 r))
              * ∑ k : Fin 64, (val_main_v93 (F := Ideal) x0 x1 x2 x3 x4 x5) (ix2 r k) * x6 (ix2 k q))
        + x7 (ix1 q) := by
  have h131 : idx_main_v131 (idx_main_v132 (ix2 r q)) = ix1 r := funext fun a => by
    match a with | ⟨0, _⟩ => rfl
  have h135 : idx_main_v135 (idx_main_v136 (ix2 r q)) = ix1 q := funext fun a => by
    match a with | ⟨0, _⟩ => rfl
  rw [val_main_v137_apply, val_main_v134_apply, val_main_v133_apply, val_main_v132_apply, val_main_v131_apply,
    val_main_v130_apply, val_main_v136_apply, val_main_v135_apply, h131, h135, ref_dot, ref_aggregate]
  rfl

end Assembly

theorem layer3_ref (x0 : (⟨Cert.ReferenceIdeal.S100000x8, .f32⟩ : BufTy).Contents (Elt Ideal)) (x1 : (⟨Cert.ReferenceIdeal.S2x1600000, .i32⟩ : BufTy).Contents (Elt Ideal)) (x2 : (⟨Cert.ReferenceIdeal.S8x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x112, .f32⟩ : BufTy).Contents (Elt Ideal)) (x7 : (⟨Cert.ReferenceIdeal.S112, .f32⟩ : BufTy).Contents (Elt Ideal)) (hsrc : SrcOk x1) :
    layer3 (Cert.ReferenceIdeal.Read.val_main_v93 (F := Ideal) x0 x1 x2 x3 x4 x5) x1 x6 x7 = Cert.ReferenceIdeal.Read.val_main_v137 (F := Ideal) x0 x1 x2 x3 x4 x5 x6 x7 := by
  funext i
  obtain ⟨r, q, rfl⟩ : ∃ (r : Fin 100000) (q : Fin 112), i = ix2 r q := ⟨i 0, i 1, eq_ix2 i⟩
  rw [layer3_apply, ref_apply]
  obtain ⟨c, hc0, hc⟩ := degInv_real x1 (ix1 r)
  rw [hc, Ideal.ofBits_zero_f32]
  refine layer_law _ c hc0 _ _ _ _ (fun j hj => ?_)
  obtain ⟨p, q', rfl⟩ : ∃ (p : Fin 1600000) (q' : Fin 112), j = ix2 p q' := ⟨j 0, j 1, eq_ix2 j⟩
  have hland := scatter_rows_landing Cert.KernelIdeal.scatter_S100000x112_S1600000x1_S1600000x112_1_0_0_1 rfl rfl rfl rfl
    (dstCol x1) (ix2 p q') (ix2 r q) (Finset.mem_filter.1 hj).2
  rw [kernel_message _ _ _ hsrc, ref_message, rowOf_dst x1 p r hland.1, hc]
  exact (mul_left_comm _ _ _).trans (mul_assoc _ _ _).symm

end Cert.Bridge.Layer3

end
-- ==== Proof.PreRead.lean ====
/-
  The precondition's last conjunct, read: every word of the edge list's row 0 is a node number.
-/
import proofs.«421954_j14886356648486_2_alg».proof.Proof.Terms
import proofs.«421954_j14886356648486_2_alg».proof.Defs
import proofs.«421954_j14886356648486_2_alg».proof.Proof.Gen.Pre_finite_inputs
import Idealize.ShloMosaic.Lib.ReduceAll
import Idealize.ShloMosaic.Lib.StableHlo.Predicate

noncomputable section

namespace Cert.Bridge.PreRead

open Idealize.ShloMosaic Idealize.ShloMosaic.TcCoe Idealize.ShloMosaic.ValueIdx Idealize.SL.Sem
open Cert.KernelIdeal.Terms

/-- Under the precondition, on every core, every source word of the edge list is a node number. -/
theorem srcOk_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    SrcOk (m ((c.tc : Thread Cert.KernelIdeal.nD Cert.KernelIdeal.τ).loc Cert.KernelIdeal.main_arg1)) := by
  intro p
  -- the predicate's one result word, with its chain of operations in view
  have h0 := congrFun (h c) ValueIdx.ix0
  unfold Cert.Pre_finite_inputs.fn Cert.Pre_finite_inputs.fn_part1 Cert.Pre_finite_inputs.fn_part2 at h0
  dsimp only at h0
  -- the last conjunct: the conjunction over all edges of the two range tests
  have h1 := (IntOp.andi_eq_one.1 h0).2
  clear h0
  haveI : Subsingleton (Cert.Pre_finite_inputs.S_).Idx := ⟨fun a b => funext fun d => d.elim0⟩
  -- at edge p both tests hold
  obtain ⟨hge, hlt⟩ := IntOp.andi_eq_one.1 (Host.reduce_andi_all _ _ _ _ _ h1 (ix1 p))
  have z : (0#32 : BitVec 32).toInt = 0 := by decide
  have k : (100000#32 : BitVec 32).toInt = 100000 := by decide
  refine ⟨?_, ?_⟩
  · rw [← z]; exact IntOp.cmpi_sge.1 hge
  · rw [← k]; exact IntOp.cmpi_slt.1 hlt

end Cert.Bridge.PreRead

end
-- ==== Proof.lean ====
/-
  A three-layer graph convolution over one edge list, the kernel against its jnp reference, over the extended reals.

  Per layer the reference computes, for node r and column q,
      ∑_{edges p into r} (d_{src p} · d_r) · h[src p, q]  +  (d_r · d_r) · h[r, q]  +  b_q ,   h = X · W,
  with d = (1 + in-degree)^(-1/2); the kernel scales the rows of h by d once (inside its first pallas_call), sums the
  scaled rows over the incoming edges on the host, and scales the sum plus the node's own scaled row by d_r again
  (its second pallas_call):   d_r · (∑_{p into r} d_{src p} · h[src p, q] + d_r · h[r, q]) + b_q.
  The two agree because d_r is a non-negative REAL number whatever the inputs are (a count plus one, under a
  reciprocal square root), and such a factor distributes over sums of extended reals; no finiteness of the float
  inputs is used. They take the same rows only where every source word of the edge list is a node number: the
  kernel's `take` answers the not-a-number pattern for any other word while the reference's indexing clamps it — that
  is the precondition's added conjunct (integer indices in range of the array they index). Destinations need no
  condition: both programs drop an edge whose destination is no node, and an edge that lands has its destination
  word equal to the row it lands in.

  The kernel's side is read off the generated frame: each pallas_call's output array as a closed function of the arrays
  it read (Proof/Region*.lean), the host stretches between them (Proof/Step*.lean, Proof/TakeStretch.lean), and the run
  with the result buffer named (Proof/Launch.lean). The reference's side is its generated run and stage lemmas; the two
  meet layer by layer (Proof/Layer*.lean).
-/
import proofs.«421954_j14886356648486_2_alg».proof.Defs
import proofs.«421954_j14886356648486_2_alg».proof.Proof.Gen.Kernel
import proofs.«421954_j14886356648486_2_alg».proof.Proof.Gen.Kernel.Skeleton
import proofs.«421954_j14886356648486_2_alg».proof.Proof.Gen.Kernel.Launch
import proofs.«421954_j14886356648486_2_alg».proof.Proof.Gen.Kernel.Points
import proofs.«421954_j14886356648486_2_alg».proof.Proof.Gen.Kernel.Frame
import proofs.«421954_j14886356648486_2_alg».proof.Proof.Gen.KernelIdeal
import proofs.«421954_j14886356648486_2_alg».proof.Proof.Gen.KernelIdeal.Skeleton
import proofs.«421954_j14886356648486_2_alg».proof.Proof.Gen.KernelIdeal.Launch
import proofs.«421954_j14886356648486_2_alg».proof.Proof.Gen.KernelIdeal.Points
import proofs.«421954_j14886356648486_2_alg».proof.Proof.Gen.KernelIdeal.Frame
import proofs.«421954_j14886356648486_2_alg».proof.Proof.Gen.ReferenceIdeal
import proofs.«421954_j14886356648486_2_alg».proof.Proof.Gen.Pre_finite_inputs
import proofs.«421954_j14886356648486_2_alg».proof.Proof.Gen.ReferenceIdeal.Run
import proofs.«421954_j14886356648486_2_alg».proof.Proof.Gen.ReferenceIdeal.Read
import proofs.«421954_j14886356648486_2_alg».proof.Proof.Launch
import proofs.«421954_j14886356648486_2_alg».proof.Proof.KernelValue
import proofs.«421954_j14886356648486_2_alg».proof.Proof.Layer1
import proofs.«421954_j14886356648486_2_alg».proof.Proof.Layer2
import proofs.«421954_j14886356648486_2_alg».proof.Proof.Layer3
import proofs.«421954_j14886356648486_2_alg».proof.Proof.PreRead
import Idealize.ShloMosaic.Adequacy
import Idealize.ShloMosaic.Init

noncomputable section

namespace Cert.Proof

open Idealize.ShloMosaic Idealize.ShloMosaic.TcCoe Idealize.SL.Sem
open Cert.KernelIdeal.Terms Cert.KernelIdeal.States

/-- The word-level kernel runs and keeps its arguments (the generated frame). -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the three layers' value of the arguments: the kernel by its run and the values of its
    buffers, the reference by its run read stage by stage, joined layer by layer where every source is a node. -/
theorem algebraic : Cert.algebraic_KernelIdeal_ReferenceIdeal := by
  intro m ρ m' ρ' hpre hagree
  refine ⟨fun c => X3 m c, ?_, ?_⟩
  · exact (θ_run Cert.KernelIdeal.defs _ _).mono
      (fun r h c => ⟨(h c).1.trans (Cert.KernelIdeal.KernelValue.result_eq m ρ c), (h c).2⟩)
      (Cert.KernelIdeal.Launch.run_result m ρ)
  · refine (θ_run Cert.ReferenceIdeal.defs _ _).mono (fun r h c => ⟨(h c).1.trans ?_, (h c).2⟩)
      (Cert.ReferenceIdeal.Value.run (F := Ideal) m' ρ')
    have hs := Cert.Bridge.PreRead.srcOk_of_pre m hpre c
    obtain ⟨e0, e1, e2, e3, e4, e5, e6, e7⟩ := hagree c
    rw [Cert.ReferenceIdeal.Read.val_main_v137_eq, e0, e1, e2, e3, e4, e5, e6, e7]
    show _ = layer3 (layer2 (layer1 (A0 m c) (A1 m c) (A2 m c) (A3 m c)) (A1 m c) (A4 m c) (A5 m c)) (A1 m c) (A6 m c) (A7 m c)
    rw [Cert.Bridge.Layer1.layer1_ref _ _ _ _ hs, Cert.Bridge.Layer2.layer2_ref _ _ _ _ _ _ hs,
      Cert.Bridge.Layer3.layer3_ref _ _ _ _ _ _ _ _ hs]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
